-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25x8x2048 : Shape := ⟨3, ![25, 8, 2048]⟩
abbrev S25 : Shape := ⟨1, ![25]⟩
abbrev S400x8x2048 : Shape := ⟨3, ![400, 8, 2048]⟩
abbrev S1024x6144 : Shape := ⟨2, ![1024, 6144]⟩
abbrev S1024 : Shape := ⟨1, ![1024]⟩
abbrev S_ : Shape := ⟨0, ![]⟩

class Facts : Prop where
  bcast_S_S25x8x2048 : S_.BroadcastsInDim S25x8x2048 (![] : Fin 0 → Fin S25x8x2048.rank)
  reducesTo_S25x8x2048_S_d0_1_2 : S25x8x2048.ReducesTo [0, 1, 2] S_
  h_S_ : 0 < S_.numel
  bcast_S_S400x8x2048 : S_.BroadcastsInDim S400x8x2048 (![] : Fin 0 → Fin S400x8x2048.rank)
  reducesTo_S400x8x2048_S_d0_1_2 : S400x8x2048.ReducesTo [0, 1, 2] S_
  bcast_S_S1024x6144 : S_.BroadcastsInDim S1024x6144 (![] : Fin 0 → Fin S1024x6144.rank)
  reducesTo_S1024x6144_S_d0_1 : S1024x6144.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S25x8x2048 .f32) (main_arg1 : IVec S25 32) (main_arg2 : FVec F S400x8x2048 .f32) (main_arg3 : FVec F S1024x6144 .f32) (main_arg4 : FVec F S1024 .f32) : IVec S_ 1 :=
  let main_v0 : FVec F S25x8x2048 .f32 := Host.absf main_arg0
  let main_cst : FVec F S_ .f32 := constant S_ .f32 0x7F800000#32
  let main_v1 : FVec F S25x8x2048 .f32 := broadcastInDim S25x8x2048 ![] bcast_S_S25x8x2048 main_cst
  let main_v2 : IVec S25x8x2048 1 := cmpf .olt main_v0 main_v1
  let main_c : IVec S_ 1 := constantI S_ 1 1#1
  let main_v3 : IVec S_ 1 := (fun x v => Host.reduce IntOp.andi x v reducesTo_S25x8x2048_S_d0_1_2 h_S_) main_v2 main_c
  let main_v4 : FVec F S400x8x2048 .f32 := Host.absf main_arg2
  let main_cst_0 : FVec F S_ .f32 := constant S_ .f32 0x7F800000#32
  let main_v5 : FVec F S400x8x2048 .f32 := broadcastInDim S400x8x2048 ![] bcast_S_S400x8x2048 main_cst_0
  let main_v6 : IVec S400x8x2048 1 := cmpf .olt main_v4 main_v5
  let main_c_1 : IVec S_ 1 := constantI S_ 1 1#1
  let main_v7 : IVec S_ 1 := (fun x v => Host.reduce IntOp.andi x v reducesTo_S400x8x2048_S_d0_1_2 h_S_) main_v6 main_c_1
  let main_v8 : IVec S_ 1 := andi main_v3 main_v7
  let main_v9 : FVec F S1024x6144 .f32 := Host.absf main_arg3
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S25x8x2048 : Shape := ⟨3, ![25, 8, 2048]⟩
abbrev S25 : Shape := ⟨1, ![25]⟩
abbrev S400x8x2048 : Shape := ⟨3, ![400, 8, 2048]⟩
abbrev S1024x6144 : Shape := ⟨2, ![1024, 6144]⟩
abbrev S1024 : Shape := ⟨1, ![1024]⟩
abbrev S1024x2048 : Shape := ⟨2, ![1024, 2048]⟩
abbrev S1x1024x2048 : Shape := ⟨3, ![1, 1024, 2048]⟩
abbrev S3x1024x2048 : Shape := ⟨3, ![3, 1024, 2048]⟩
abbrev S1x1024 : Shape := ⟨2, ![1, 1024]⟩
abbrev S400x56x1024 : Shape := ⟨3, ![400, 56, 1024]⟩
abbrev S40x8x2048 : Shape := ⟨3, ![40, 8, 2048]⟩
abbrev S40x56x1024 : Shape := ⟨3, ![40, 56, 1024]⟩
abbrev S320x2048 : Shape := ⟨2, ![320, 2048]⟩
abbrev S320x1024 : Shape := ⟨2, ![320, 1024]⟩
abbrev S40x8x1024 : Shape := ⟨3, ![40, 8, 1024]⟩
abbrev S40x1x1024 : Shape := ⟨3, ![40, 1, 1024]⟩
abbrev S40x1024 : Shape := ⟨2, ![40, 1024]⟩
abbrev S25x56x1024 : Shape := ⟨3, ![25, 56, 1024]⟩
abbrev S200x2048 : Shape := ⟨2, ![200, 2048]⟩
abbrev S200x1024 : Shape := ⟨2, ![200, 1024]⟩
abbrev S25x8x1024 : Shape := ⟨3, ![25, 8, 1024]⟩
abbrev S25x1x1024 : Shape := ⟨3, ![25, 1, 1024]⟩
abbrev S25x1024 : Shape := ⟨2, ![25, 1024]⟩
abbrev S_ : Shape := ⟨0, ![]⟩
abbrev S25x1 : Shape := ⟨2, ![25, 1]⟩
abbrev S5x5x56x1024 : Shape := ⟨4, ![5, 5, 56, 1024]⟩
abbrev S5x280x1024 : Shape := ⟨3, ![5, 280, 1024]⟩
abbrev S400x5 : Shape := ⟨2, ![400, 5]⟩
abbrev S40x5 : Shape := ⟨2, ![40, 5]⟩
abbrev S2240x1024 : Shape := ⟨2, ![2240, 1024]⟩
abbrev S2240 : Shape := ⟨1, ![2240]⟩
abbrev S2240x1 : Shape := ⟨2, ![2240, 1]⟩
abbrev S1x280x1024 : Shape := ⟨3, ![1, 280, 1024]⟩
abbrev S280x1024 : Shape := ⟨2, ![280, 1024]⟩
abbrev S280 : Shape := ⟨1, ![280]⟩
abbrev S1x280 : Shape := ⟨2, ![1, 280]⟩
abbrev S2240x280 : Shape := ⟨2, ![2240, 280]⟩
abbrev S40x56x280 : Shape := ⟨3, ![40, 56, 280]⟩
abbrev S40x56 : Shape := ⟨2, ![40, 56]⟩
abbrev S40 : Shape := ⟨1, ![40]⟩
abbrev S40x1 : Shape := ⟨2, ![40, 1]⟩

abbrev nBuf : Space → Nat
  | .hbm => 31
  | .vmem => 15
  | .smem => 0
  | _ => 0

abbrev bufTy : (tb : Table) → Fin (tcTables nBuf tb) → BufTy
  | .hbm, ⟨0, _⟩ => ⟨S25x8x2048, .f32⟩
  | .hbm, ⟨1, _⟩ => ⟨S25, .i32⟩
  | .hbm, ⟨2, _⟩ => ⟨S400x8x2048, .f32⟩
  | .hbm, ⟨3, _⟩ => ⟨S1024x6144, .f32⟩
  | .hbm, ⟨4, _⟩ => ⟨S1024, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1x1024x2048, .f32⟩
  | .hbm, ⟨9, _⟩ => ⟨S1x1024x2048, .f32⟩
  | .hbm, ⟨10, _⟩ => ⟨S1x1024x2048, .f32⟩
  | .hbm, ⟨11, _⟩ => ⟨S3x1024x2048, .f32⟩
  | .hbm, ⟨12, _⟩ => ⟨S3x1024x2048, .bf16⟩
  | .hbm, ⟨13, _⟩ => ⟨S1x1024, .f32⟩
  | .hbm, ⟨14, _⟩ => ⟨S400x56x1024, .bf16⟩
  | .hbm, ⟨15, _⟩ => ⟨S25x56x1024, .bf16⟩
  | .hbm, ⟨16, _⟩ => ⟨S25, .i32⟩
  | .hbm, ⟨17, _⟩ => ⟨S25, .i32⟩
  | .hbm, ⟨18, _⟩ => ⟨S25, .i32⟩
  | .hbm, ⟨19, _⟩ => ⟨S_, .i32⟩
  | .hbm, ⟨20, _⟩ => ⟨S25, .i32⟩
  | .hbm, ⟨21, _⟩ => ⟨S25, .i1⟩
  | .hbm, ⟨22, _⟩ => ⟨S_, .i32⟩
  | .hbm, ⟨23, _⟩ => ⟨S25, .i32⟩
  | .hbm, ⟨24, _⟩ => ⟨S25, .i32⟩
  | .hbm, ⟨25, _⟩ => ⟨S25, .i32⟩
  | .hbm, ⟨26, _⟩ => ⟨S25x1, .i32⟩
  | .hbm, ⟨27, _⟩ => ⟨S25x56x1024, .bf16⟩
  | .hbm, ⟨28, _⟩ => ⟨S5x5x56x1024, .bf16⟩
  | .hbm, ⟨29, _⟩ => ⟨S5x280x1024, .bf16⟩
  | .hbm, ⟨30, _⟩ => ⟨S400x5, .f32⟩
  | .local _ .vmem, ⟨0, _⟩ => ⟨S40x8x2048, .f32⟩
  | .local _ .vmem, ⟨1, _⟩ => ⟨S40x8x2048, .f32⟩
  | .local _ .vmem, ⟨2, _⟩ => ⟨S3x1024x2048, .bf16⟩
  | .local _ .vmem, ⟨3, _⟩ => ⟨S1x1024, .f32⟩
  | .local _ .vmem, ⟨4, _⟩ => ⟨S40x56x1024, .bf16⟩
  | .local _ .vmem, ⟨5, _⟩ => ⟨S40x56x1024, .bf16⟩
  | .local _ .vmem, ⟨6, _⟩ => ⟨S25x8x2048, .f32⟩
  | .local _ .vmem, ⟨7, _⟩ => ⟨S3x1024x2048, .bf16⟩
  | .local _ .vmem, ⟨8, _⟩ => ⟨S1x1024, .f32⟩
  | .local _ .vmem, ⟨9, _⟩ => ⟨S25x56x1024, .bf16⟩
  | .local _ .vmem, ⟨10, _⟩ => ⟨S40x56x1024, .bf16⟩
  | .local _ .vmem, ⟨11, _⟩ => ⟨S40x56x1024, .bf16⟩
  | .local _ .vmem, ⟨12, _⟩ => ⟨S5x280x1024, .bf16⟩
  | .local _ .vmem, ⟨13, _⟩ => ⟨S40x5, .f32⟩
  | .local _ .vmem, ⟨14, _⟩ => ⟨S40x5, .f32⟩
  | _, _ => ⟨S25x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1_0 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S40x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S40x56x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S25x8x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S3x1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S25x56x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S40x56x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5x280x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S40x5 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S1024x6144_S1024x2048_0_0 : S1024x6144.Slices ![0, 0] S1024x2048
  slices_S1024x6144_S1024x2048_0_2048 : S1024x6144.Slices ![0, 2048] S1024x2048
  slices_S1024x6144_S1024x2048_0_4096 : S1024x6144.Slices ![0, 4096] S1024x2048
  bcast_S1024x2048_S1x1024x2048_1_2 : S1024x2048.BroadcastsInDim S1x1024x2048 (![1, 2] : Fin 2 → Fin S1x1024x2048.rank)
  concatenates_S1x1024x2048_S1x1024x2048_S1x1024x2048_S3x1024x2048_d0 : Shape.Concatenates [S1x1024x2048, S1x1024x2048, S1x1024x2048] S3x1024x2048 0
  bitsLt_bf16_f32 : FTy.bits .bf16 < FTy.bits .f32
  shapeCasts_S1024_S1x1024 : S1024.ShapeCasts S1x1024
  inb_S40x8x2048_S40x8x2048_0_0_0 : ∀ a, (![0, 0, 0] : Fin 3 → Nat) a + S40x8x2048.size a ≤ S40x8x2048.size a
  h_S40x8x2048 : 0 < S40x8x2048.numel
  shapeCasts_S40x8x2048_S320x2048 : S40x8x2048.ShapeCasts S320x2048
  inb_S3x1024x2048_S1x1024x2048_0_0_0 : ∀ a, (![0, 0, 0] : Fin 3 → Nat) a + S1x1024x2048.size a ≤ S3x1024x2048.size a
  h_S1x1024x2048 : 0 < S1x1024x2048.numel
  shapeCasts_S1x1024x2048_S1024x2048 : S1x1024x2048.ShapeCasts S1024x2048
  inb_S3x1024x2048_S1x1024x2048_1_0_0 : ∀ a, (![1, 0, 0] : Fin 3 → Nat) a + S1x1024x2048.size a ≤ S3x1024x2048.size a
  inb_S3x1024x2048_S1x1024x2048_2_0_0 : ∀ a, (![2, 0, 0] : Fin 3 → Nat) a + S1x1024x2048.size a ≤ S3x1024x2048.size a
  shapeCasts_S320x1024_S40x8x1024 : S320x1024.ShapeCasts S40x8x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S40x8x1024_o0_0_0_S40x1x1024 : S40x8x1024.Slices ![0, 0, 0] S40x1x1024
  shapeCasts_S40x1x1024_S40x1024 : S40x1x1024.ShapeCasts S40x1024
  slices_S40x8x1024_o0_1_0_S40x1x1024 : S40x8x1024.Slices ![0, 1, 0] S40x1x1024
  slices_S40x8x1024_o0_2_0_S40x1x1024 : S40x8x1024.Slices ![0, 2, 0] S40x1x1024
  broadcasts_S1x1024_S40x1024 : S1x1024.Broadcasts S40x1024
  slices_S40x8x1024_o0_3_0_S40x1x1024 : S40x8x1024.Slices ![0, 3, 0] S40x1x1024
  slices_S40x8x1024_o0_4_0_S40x1x1024 : S40x8x1024.Slices ![0, 4, 0] S40x1x1024
  slices_S40x8x1024_o0_5_0_S40x1x1024 : S40x8x1024.Slices ![0, 5, 0] S40x1x1024
  slices_S40x8x1024_o0_6_0_S40x1x1024 : S40x8x1024.Slices ![0, 6, 0] S40x1x1024
  slices_S40x8x1024_o0_7_0_S40x1x1024 : S40x8x1024.Slices ![0, 7, 0] S40x1x1024
  shapeCasts_S40x1024_S40x1x1024 : S40x1024.ShapeCasts S40x1x1024
  concatenates_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x1x1024_S40x56x1024_d1 : Shape.Concatenates (S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: S40x1x1024 :: []) S40x56x1024 1
  inb_S40x56x1024_S40x56x1024_0_0_0 : ∀ a, (![0, 0, 0] : Fin 3 → Nat) a + S40x56x1024.size a ≤ S40x56x1024.size a
  h_S40x56x1024 : 0 < S40x56x1024.numel
  packedbf16_S40x56x1024_S40x56x1024_0_0_0 : (Rect.unit (s := S40x56x1024) ![0, 0, 0] S40x56x1024.size inb_S40x56x1024_S40x56x1024_0_0_0).PackedRows (EltTy.packing .bf16)
  inb_S25x8x2048_S25x8x2048_0_0_0 : ∀ a, (![0, 0, 0] : Fin 3 → Nat) a + S25x8x2048.size a ≤ S25x8x2048.size a
  h_S25x8x2048 : 0 < S25x8x2048.numel
  shapeCasts_S25x8x2048_S200x2048 : S25x8x2048.ShapeCasts S200x2048
  shapeCasts_S200x1024_S25x8x1024 : S200x1024.ShapeCasts S25x8x1024
  slices_S25x8x1024_o0_0_0_S25x1x1024 : S25x8x1024.Slices ![0, 0, 0] S25x1x1024
  shapeCasts_S25x1x1024_S25x1024 : S25x1x1024.ShapeCasts S25x1024
  slices_S25x8x1024_o0_1_0_S25x1x1024 : S25x8x1024.Slices ![0, 1, 0] S25x1x1024
  slices_S25x8x1024_o0_2_0_S25x1x1024 : S25x8x1024.Slices ![0, 2, 0] S25x1x1024
  broadcasts_S1x1024_S25x1024 : S1x1024.Broadcasts S25x1024
  slices_S25x8x1024_o0_3_0_S25x1x1024 : S25x8x1024.Slices ![0, 3, 0] S25x1x1024
  slices_S25x8x1024_o0_4_0_S25x1x1024 : S25x8x1024.Slices ![0, 4, 0] S25x1x1024
  slices_S25x8x1024_o0_5_0_S25x1x1024 : S25x8x1024.Slices ![0, 5, 0] S25x1x1024
  slices_S25x8x1024_o0_6_0_S25x1x1024 : S25x8x1024.Slices ![0, 6, 0] S25x1x1024
  slices_S25x8x1024_o0_7_0_S25x1x1024 : S25x8x1024.Slices ![0, 7, 0] S25x1x1024
  shapeCasts_S25x1024_S25x1x1024 : S25x1024.ShapeCasts S25x1x1024
  concatenates_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x1x1024_S25x56x1024_d1 : Shape.Concatenates (S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: S25x1x1024 :: []) S25x56x1024 1
  inb_S25x56x1024_S25x56x1024_0_0_0 : ∀ a, (![0, 0, 0] : Fin 3 → Nat) a + S25x56x1024.size a ≤ S25x56x1024.size a
  h_S25x56x1024 : 0 < S25x56x1024.numel
  packedbf16_S25x56x1024_S25x56x1024_0_0_0 : (Rect.unit (s := S25x56x1024) ![0, 0, 0] S25x56x1024.size inb_S25x56x1024_S25x56x1024_0_0_0).PackedRows (EltTy.packing .bf16)
  bcast_S_S25 : S_.BroadcastsInDim S25 (![] : Fin 0 → Fin S25.rank)
  bcast_S25_S25x1_0 : S25.BroadcastsInDim S25x1 (![0] : Fin 1 → Fin S25x1.rank)
  shapeCasts_S25x56x1024_S5x5x56x1024 : S25x56x1024.ShapeCasts S5x5x56x1024
  shapeCasts_S5x5x56x1024_S5x280x1024 : S5x5x56x1024.ShapeCasts S5x280x1024
  shapeCasts_S40x56x1024_S40x56x1024 : S40x56x1024.ShapeCasts S40x56x1024
  shapeCasts_S40x56x1024_S2240x1024 : S40x56x1024.ShapeCasts S2240x1024
  reduces_S2240x1024_S2240 : S2240x1024.Reduces [1] S2240
  shapeCasts_S2240_S2240x1 : S2240.ShapeCasts S2240x1
  inb_S5x280x1024_S1x280x1024_0_0_0 : ∀ a, (![0, 0, 0] : Fin 3 → Nat) a + S1x280x1024.size a ≤ S5x280x1024.size a
  h_S1x280x1024 : 0 < S1x280x1024.numel
  shapeCasts_S1x280x1024_S280x1024 : S1x280x1024.ShapeCasts S280x1024
  reduces_S280x1024_S280 : S280x1024.Reduces [1] S280
  shapeCasts_S280_S1x280 : S280.ShapeCasts S1x280
  broadcasts_S2240x1_S2240x280 : S2240x1.Broadcasts S2240x280
  broadcasts_S1x280_S2240x280 : S1x280.Broadcasts S2240x280
  shapeCasts_S2240x280_S40x56x280 : S2240x280.ShapeCasts S40x56x280
  reduces_S40x56x280_S40x56 : S40x56x280.Reduces [2] S40x56
  reduces_S40x56_S40 : S40x56.Reduces [1] S40
  inb_S5x280x1024_S1x280x1024_1_0_0 : ∀ a, (![1, 0, 0] : Fin 3 → Nat) a + S1x280x1024.size a ≤ S5x280x1024.size a
  inb_S5x280x1024_S1x280x1024_2_0_0 : ∀ a, (![2, 0, 0] : Fin 3 → Nat) a + S1x280x1024.size a ≤ S5x280x1024.size a
  inb_S5x280x1024_S1x280x1024_3_0_0 : ∀ a, (![3, 0, 0] : Fin 3 → Nat) a + S1x280x1024.size a ≤ S5x280x1024.size a
  inb_S5x280x1024_S1x280x1024_4_0_0 : ∀ a, (![4, 0, 0] : Fin 3 → Nat) a + S1x280x1024.size a ≤ S5x280x1024.size a
  shapeCasts_S40_S40x1 : S40.ShapeCasts S40x1
  concatenates_S40x1_S40x1_S40x1_S40x1_S40x1_S40x5_d1 : Shape.Concatenates [S40x1, S40x1, S40x1, S40x1, S40x1] S40x5 1
  inb_S40x5_S40x5_0_0 : ∀ a, (![0, 0] : Fin 2 → Nat) a + S40x5.size a ≤ S40x5.size a
  h_S40x5 : 0 < S40x5.numel
  dot_S320x2048_S1024x2048_S320x1024_1_1_0_0_n_n_wf : DotDims.WF S320x2048 S1024x2048 S320x1024 [1] [1] [0] [0] [] []
  dot_S200x2048_S1024x2048_S200x1024_1_1_0_0_n_n_wf : DotDims.WF S200x2048 S1024x2048 S200x1024 [1] [1] [0] [0] [] []
  gather_S25x56x1024_S25x1_S25x56x1024_12_0_n_n_0_1_1561024_wf : GatherDims.WF S25x56x1024 S25x1 S25x56x1024 [1, 2] [0] [] [0] [] 1 ![1, 56, 1024]
  dot_S2240x1024_S280x1024_S2240x280_1_1_0_0_n_n_wf : DotDims.WF S2240x1024 S280x1024 S2240x280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x8x2048.size a ≤ S400x8x2048.size a
  hwx0_0 : ∀ i : grid0.Coords, EltTy.bits .f32 = 32 ∨ (Rect.block (s := S400x8x2048) S40x8x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024x2048.size a ≤ S3x1024x2048.size a
  hwx0_1 : ∀ i : grid0.Coords, EltTy.bits .bf16 = 32 ∨ (Rect.block (s := S3x1024x2048) S3x1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x56x1024.size a ≤ S400x56x1024.size a
  hwx0_3 : ∀ i : grid0.Coords, EltTy.bits .bf16 = 32 ∨ (Rect.block (s := S400x56x1024) S40x56x1024.size (cc0_transform_3 i) (hinb0_3 i)).WholeWords (EltTy.packing .bf16)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S25x8x2048.size a ≤ S25x8x2048.size a
  hwx1_0 : ∀ i : grid1.Coords, EltTy.bits .f32 = 32 ∨ (Rect.block (s := S25x8x2048) S25x8x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x1024x2048.size a ≤ S3x1024x2048.size a
  hwx1_1 : ∀ i : grid1.Coords, EltTy.bits .bf16 = 32 ∨ (Rect.block (s := S3x1024x2048) S3x1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S25x56x1024.size a ≤ S25x56x1024.size a
  hwx1_3 : ∀ i : grid1.Coords, EltTy.bits .bf16 = 32 ∨ (Rect.block (s := S25x56x1024) S25x56x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S40x56x1024.size a ≤ S400x56x1024.size a
  hwx2_0 : ∀ i : grid2.Coords, EltTy.bits .bf16 = 32 ∨ (Rect.block (s := S400x56x1024) S40x56x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5x280x1024.size a ≤ S5x280x1024.size a
  hwx2_1 : ∀ i : grid2.Coords, EltTy.bits .bf16 = 32 ∨ (Rect.block (s := S5x280x1024) S5x280x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S40x5.size a ≤ S400x5.size a
  hwx2_2 : ∀ i : grid2.Coords, EltTy.bits .f32 = 32 ∨ (Rect.block (s := S400x5) S40x5.size (cc2_transform_2 i) (hinb2_2 i)).WholeWords (EltTy.packing .f32)

variable [Facts₀]

def dot_S320x2048_S1024x2048_S320x1024_1_1_0_0_n_n : DotDims S320x2048 S1024x2048 S320x1024 where
  lhsContracting := [1]
  rhsContracting := [1]
  lhsNonContracting := [0]
  rhsNonContracting := [0]
  lhsBatch := []
  rhsBatch := []
  wf := dot_S320x2048_S1024x2048_S320x1024_1_1_0_0_n_n_wf
def dot_S200x2048_S1024x2048_S200x1024_1_1_0_0_n_n : DotDims S200x2048 S1024x2048 S200x1024 where
  lhsContracting := [1]
  rhsContracting := [1]
  lhsNonContracting := [0]
  rhsNonContracting := [0]
  lhsBatch := []
  rhsBatch := []
  wf := dot_S200x2048_S1024x2048_S200x1024_1_1_0_0_n_n_wf
def comparator_i32_i32_d0 : BitVec 32 × BitVec 32 → BitVec 32 × BitVec 32 → BitVec 1 :=
  fun l r =>
    let v2 := IntOp.cmpi .slt l.1 r.1
    v2
def gather_S25x56x1024_S25x1_S25x56x1024_12_0_n_n_0_1_1561024 : GatherDims S25x56x1024 S25x1 S25x56x1024 where
  offsetDims := [1, 2]
  collapsedSliceDims := [0]
  operandBatchingDims := []
  startIndicesBatchingDims := []
  startIndexMap := [0]
  indexVectorDim := 1
  sliceSizes := ![1, 56, 1024]
  wf := gather_S25x56x1024_S25x1_S25x56x1024_12_0_n_n_0_1_1561024_wf
def dot_S2240x1024_S280x1024_S2240x280_1_1_0_0_n_n : DotDims S2240x1024 S280x1024 S2240x280 where
  lhsContracting := [1]
  rhsContracting := [1]
  lhsNonContracting := [0]
  rhsNonContracting := [0]
  lhsBatch := []
  rhsBatch := []
  wf := dot_S2240x1024_S280x1024_S2240x280_1_1_0_0_n_n_wf

abbrev win0_0 : Pipeline.Window sig grid0 :=
  Pipeline.Window.ofSpec (Memref.whole main_arg2) S40x8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3x1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S40x56x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S25x8x2048.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S3x1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S25x56x1024.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S40x56x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5x280x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S40x5.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S25x8x2048 : Shape := ⟨3, ![25, 8, 2048]⟩
abbrev S25 : Shape := ⟨1, ![25]⟩
abbrev S400x8x2048 : Shape := ⟨3, ![400, 8, 2048]⟩
abbrev S1024x6144 : Shape := ⟨2, ![1024, 6144]⟩
abbrev S1024 : Shape := ⟨1, ![1024]⟩
abbrev S56x3 : Shape := ⟨2, ![56, 3]⟩
abbrev S_ : Shape := ⟨0, ![]⟩
abbrev S56x3x1 : Shape := ⟨3, ![56, 3, 1]⟩
abbrev S25x56x3x2048 : Shape := ⟨4, ![25, 56, 3, 2048]⟩
abbrev S25x56x6144 : Shape := ⟨3, ![25, 56, 6144]⟩
abbrev S400x56x3x2048 : Shape := ⟨4, ![400, 56, 3, 2048]⟩
abbrev S400x56x6144 : Shape := ⟨3, ![400, 56, 6144]⟩
abbrev S22400x6144 : Shape := ⟨2, ![22400, 6144]⟩
abbrev S6144x1024 : Shape := ⟨2, ![6144, 1024]⟩
abbrev S22400x1024 : Shape := ⟨2, ![22400, 1024]⟩
abbrev S1x1024 : Shape := ⟨2, ![1, 1024]⟩
abbrev S1400x6144 : Shape := ⟨2, ![1400, 6144]⟩
abbrev S1400x1024 : Shape := ⟨2, ![1400, 1024]⟩
abbrev S25x56x1024 : Shape := ⟨3, ![25, 56, 1024]⟩
abbrev S5x5 : Shape := ⟨2, ![5, 5]⟩
abbrev S5x5x1 : Shape := ⟨3, ![5, 5, 1]⟩
abbrev S5x5x56x1024 : Shape := ⟨4, ![5, 5, 56, 1024]⟩
abbrev S5x280x1024 : Shape := ⟨3, ![5, 280, 1024]⟩
abbrev S22400 : Shape := ⟨1, ![22400]⟩
abbrev S5x280 : Shape := ⟨2, ![5, 280]⟩
abbrev S5x280x22400 : Shape := ⟨3, ![5, 280, 22400]⟩
abbrev S5x22400x280 : Shape := ⟨3, ![5, 22400, 280]⟩
abbrev S1x22400x1 : Shape := ⟨3, ![1, 22400, 1]⟩
abbrev S5x1x280 : Shape := ⟨3, ![5, 1, 280]⟩
abbrev S5x22400 : Shape := ⟨2, ![5, 22400]⟩
abbrev S5x400x56 : Shape := ⟨3, ![5, 400, 56]⟩
abbrev S5x400 : Shape := ⟨2, ![5, 400]⟩
abbrev S400x5 : Shape := ⟨2, ![400, 5]⟩

abbrev nBuf : Space → Nat
  | .hbm => 90
  | .vmem => 0
  | .smem => 0
  | _ => 0

abbrev bufTy : (tb : Table) → Fin (tcTables nBuf tb) → BufTy
  | .hbm, ⟨0, _⟩ => ⟨S25x8x2048, .f32⟩
  | .hbm, ⟨1, _⟩ => ⟨S25, .i32⟩
  | .hbm, ⟨2, _⟩ => ⟨S400x8x2048, .f32⟩
  | .hbm, ⟨3, _⟩ => ⟨S1024x6144, .f32⟩
  | .hbm, ⟨4, _⟩ => ⟨S1024, .f32⟩
  | .hbm, ⟨5, _⟩ => ⟨S56x3, .i32⟩
  | .hbm, ⟨6, _⟩ => ⟨S_, .i32⟩
  | .hbm, ⟨7, _⟩ => ⟨S56x3, .i32⟩
  | .hbm, ⟨8, _⟩ => ⟨S56x3, .i1⟩
  | .hbm, ⟨9, _⟩ => ⟨S_, .i32⟩
  | .hbm, ⟨10, _⟩ => ⟨S56x3, .i32⟩
  | .hbm, ⟨11, _⟩ => ⟨S56x3, .i32⟩
  | .hbm, ⟨12, _⟩ => ⟨S56x3, .i32⟩
  | .hbm, ⟨13, _⟩ => ⟨S56x3x1, .i32⟩
  | .hbm, ⟨14, _⟩ => ⟨S25x56x3x2048, .f32⟩
  | .hbm, ⟨15, _⟩ => ⟨S25x56x6144, .f32⟩
  | .hbm, ⟨16, _⟩ => ⟨S_, .i32⟩
  | .hbm, ⟨17, _⟩ => ⟨S56x3, .i32⟩
  | .hbm, ⟨18, _⟩ => ⟨S56x3, .i1⟩
  | .hbm, ⟨19, _⟩ => ⟨S_, .i32⟩
  | .hbm, ⟨20, _⟩ => ⟨S56x3, .i32⟩
  | .hbm, ⟨21, _⟩ => ⟨S56x3, .i32⟩
  | .hbm, ⟨22, _⟩ => ⟨S56x3, .i32⟩
  | .hbm, ⟨23, _⟩ => ⟨S56x3x1, .i32⟩
  | .hbm, ⟨24, _⟩ => ⟨S400x56x3x2048, .f32⟩
  | .hbm, ⟨25, _⟩ => ⟨S400x56x6144, .f32⟩
  | .hbm, ⟨26, _⟩ => ⟨S22400x6144, .f32⟩
  | .hbm, ⟨27, _⟩ => ⟨S6144x1024, .f32⟩
  | .hbm, ⟨28, _⟩ => ⟨S22400x1024, .f32⟩
  | .hbm, ⟨29, _⟩ => ⟨S1x1024, .f32⟩
  | .hbm, ⟨30, _⟩ => ⟨S22400x1024, .f32⟩
  | .hbm, ⟨31, _⟩ => ⟨S22400x1024, .f32⟩
  | .hbm, ⟨32, _⟩ => ⟨S_, .f32⟩
  | .hbm, ⟨33, _⟩ => ⟨S22400x1024, .f32⟩
  | .hbm, ⟨34, _⟩ => ⟨S22400x1024, .f32⟩
  | .hbm, ⟨35, _⟩ => ⟨S1400x6144, .f32⟩
  | .hbm, ⟨36, _⟩ => ⟨S6144x1024, .f32⟩
  | .hbm, ⟨37, _⟩ => ⟨S1400x1024, .f32⟩
  | .hbm, ⟨38, _⟩ => ⟨S1x1024, .f32⟩
  | .hbm, ⟨39, _⟩ => ⟨S1400x1024, .f32⟩
  | .hbm, ⟨40, _⟩ => ⟨S1400x1024, .f32⟩
  | .hbm, ⟨41, _⟩ => ⟨S_, .f32⟩
  | .hbm, ⟨42, _⟩ => ⟨S1400x1024, .f32⟩
  | .hbm, ⟨43, _⟩ => ⟨S1400x1024, .f32⟩
  | .hbm, ⟨44, _⟩ => ⟨S25x56x1024, .f32⟩
  | .hbm, ⟨45, _⟩ => ⟨S25, .i32⟩
  | .hbm, ⟨46, _⟩ => ⟨S25, .i32⟩
  | .hbm, ⟨47, _⟩ => ⟨S25, .i32⟩
  | .hbm, ⟨48, _⟩ => ⟨S5x5, .i32⟩
  | .hbm, ⟨49, _⟩ => ⟨S_, .i32⟩
  | .hbm, ⟨50, _⟩ => ⟨S5x5, .i32⟩
  | .hbm, ⟨51, _⟩ => ⟨S5x5, .i1⟩
  | .hbm, ⟨52, _⟩ => ⟨S_, .i32⟩
  | .hbm, ⟨53, _⟩ => ⟨S5x5, .i32⟩
  | .hbm, ⟨54, _⟩ => ⟨S5x5, .i32⟩
  | .hbm, ⟨55, _⟩ => ⟨S5x5, .i32⟩
  | .hbm, ⟨56, _⟩ => ⟨S5x5x1, .i32⟩
  | .hbm, ⟨57, _⟩ => ⟨S5x5x56x1024, .f32⟩
  | .hbm, ⟨58, _⟩ => ⟨S5x280x1024, .f32⟩
  | .hbm, ⟨59, _⟩ => ⟨S22400x1024, .f32⟩
  | .hbm, ⟨60, _⟩ => ⟨S_, .f32⟩
  | .hbm, ⟨61, _⟩ => ⟨S22400, .f32⟩
  | .hbm, ⟨62, _⟩ => ⟨S5x280x1024, .f32⟩
  | .hbm, ⟨63, _⟩ => ⟨S_, .f32⟩
  | .hbm, ⟨64, _⟩ => ⟨S5x280, .f32⟩
  | .hbm, ⟨65, _⟩ => ⟨S5x280x22400, .f32⟩
  | .hbm, ⟨66, _⟩ => ⟨S5x22400x280, .f32⟩
  | .hbm, ⟨67, _⟩ => ⟨S1x22400x1, .f32⟩
  | .hbm, ⟨68, _⟩ => ⟨S5x1x280, .f32⟩
  | .hbm, ⟨69, _⟩ => ⟨S5x22400x280, .f32⟩
  | .hbm, ⟨70, _⟩ => ⟨S5x22400x280, .f32⟩
  | .hbm, ⟨71, _⟩ => ⟨S5x22400x280, .f32⟩
  | .hbm, ⟨72, _⟩ => ⟨S_, .f32⟩
  | .hbm, ⟨73, _⟩ => ⟨S5x22400x280, .f32⟩
  | .hbm, ⟨74, _⟩ => ⟨S5x22400x280, .f32⟩
  | .hbm, ⟨75, _⟩ => ⟨S5x22400x280, .f32⟩
  | .hbm, ⟨76, _⟩ => ⟨S_, .f32⟩
  | .hbm, ⟨77, _⟩ => ⟨S5x22400x280, .f32⟩
  | .hbm, ⟨78, _⟩ => ⟨S5x22400x280, .f32⟩
  | .hbm, ⟨79, _⟩ => ⟨S5x22400x280, .f32⟩
  | .hbm, ⟨80, _⟩ => ⟨S_, .f32⟩
  | .hbm, ⟨81, _⟩ => ⟨S5x22400, .f32⟩
  | .hbm, ⟨82, _⟩ => ⟨S5x400x56, .f32⟩
  | .hbm, ⟨83, _⟩ => ⟨S_, .f32⟩
  | .hbm, ⟨84, _⟩ => ⟨S5x400, .f32⟩
  | .hbm, ⟨85, _⟩ => ⟨S_, .f32⟩
  | .hbm, ⟨86, _⟩ => ⟨S5x400, .f32⟩
  | .hbm, ⟨87, _⟩ => ⟨S5x400, .f32⟩
  | .hbm, ⟨88, _⟩ => ⟨S400x5, .f32⟩
  | .hbm, ⟨89, _⟩ => ⟨S400x5, .f32⟩
  | _, _ => ⟨S25x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_cst : Ref sig .tc := ⟨.hbm, 41, rfl⟩
abbrev main_call1_v0 : Ref sig .tc := ⟨.hbm, 42, rfl⟩
abbrev main_v29 : Ref sig .tc := ⟨.hbm, 43, rfl⟩
abbrev main_v30 : Ref sig .tc := ⟨.hbm, 44, rfl⟩
abbrev main_call2_v0 : Ref sig .tc := ⟨.hbm, 45, rfl⟩
abbrev main_call2_v1_0 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  bcast_S_S56x3 : S_.BroadcastsInDim S56x3 (![] : Fin 0 → Fin S56x3.rank)
  bcast_S56x3_S56x3x1_0_1 : S56x3.BroadcastsInDim S56x3x1 (![0, 1] : Fin 2 → Fin S56x3x1.rank)
  shapeCasts_S25x56x3x2048_S25x56x6144 : S25x56x3x2048.ShapeCasts S25x56x6144
  shapeCasts_S400x56x3x2048_S400x56x6144 : S400x56x3x2048.ShapeCasts S400x56x6144
  shapeCasts_S400x56x6144_S22400x6144 : S400x56x6144.ShapeCasts S22400x6144
  transposes_S1024x6144_S6144x1024_1_0 : S1024x6144.Transposes [1, 0] S6144x1024
  bcast_S1024_S1x1024_1 : S1024.BroadcastsInDim S1x1024 (![1] : Fin 1 → Fin S1x1024.rank)
  bcast_S1x1024_S22400x1024_0_1 : S1x1024.BroadcastsInDim S22400x1024 (![0, 1] : Fin 2 → Fin S22400x1024.rank)
  bcast_S_S22400x1024 : S_.BroadcastsInDim S22400x1024 (![] : Fin 0 → Fin S22400x1024.rank)
  shapeCasts_S25x56x6144_S1400x6144 : S25x56x6144.ShapeCasts S1400x6144
  bcast_S1x1024_S1400x1024_0_1 : S1x1024.BroadcastsInDim S1400x1024 (![0, 1] : Fin 2 → Fin S1400x1024.rank)
  bcast_S_S1400x1024 : S_.BroadcastsInDim S1400x1024 (![] : Fin 0 → Fin S1400x1024.rank)
  shapeCasts_S1400x1024_S25x56x1024 : S1400x1024.ShapeCasts S25x56x1024
  shapeCasts_S25_S5x5 : S25.ShapeCasts S5x5
  bcast_S_S5x5 : S_.BroadcastsInDim S5x5 (![] : Fin 0 → Fin S5x5.rank)
  bcast_S5x5_S5x5x1_0_1 : S5x5.BroadcastsInDim S5x5x1 (![0, 1] : Fin 2 → Fin S5x5x1.rank)
  shapeCasts_S5x5x56x1024_S5x280x1024 : S5x5x56x1024.ShapeCasts S5x280x1024
  reducesTo_S22400x1024_S22400_d1 : S22400x1024.ReducesTo [1] S22400
  h_S_ : 0 < S_.numel
  reducesTo_S5x280x1024_S5x280_d2 : S5x280x1024.ReducesTo [2] S5x280
  transposes_S5x280x22400_S5x22400x280_0_2_1 : S5x280x22400.Transposes [0, 2, 1] S5x22400x280
  bcast_S22400_S1x22400x1_1 : S22400.BroadcastsInDim S1x22400x1 (![1] : Fin 1 → Fin S1x22400x1.rank)
  bcast_S5x280_S5x1x280_0_2 : S5x280.BroadcastsInDim S5x1x280 (![0, 2] : Fin 2 → Fin S5x1x280.rank)
  bcast_S1x22400x1_S5x22400x280_0_1_2 : S1x22400x1.BroadcastsInDim S5x22400x280 (![0, 1, 2] : Fin 3 → Fin S5x22400x280.rank)
  bcast_S5x1x280_S5x22400x280_0_1_2 : S5x1x280.BroadcastsInDim S5x22400x280 (![0, 1, 2] : Fin 3 → Fin S5x22400x280.rank)
  bcast_S_S5x22400x280 : S_.BroadcastsInDim S5x22400x280 (![] : Fin 0 → Fin S5x22400x280.rank)
  reducesTo_S5x22400x280_S5x22400_d2 : S5x22400x280.ReducesTo [2] S5x22400
  shapeCasts_S5x22400_S5x400x56 : S5x22400.ShapeCasts S5x400x56
  reducesTo_S5x400x56_S5x400_d2 : S5x400x56.ReducesTo [2] S5x400
  bcast_S_S5x400 : S_.BroadcastsInDim S5x400 (![] : Fin 0 → Fin S5x400.rank)
  transposes_S5x400_S400x5_1_0 : S5x400.Transposes [1, 0] S400x5
  gather_S25x8x2048_S56x3x1_S25x56x3x2048_03_1_n_n_1_2_2512048_wf : GatherDims.WF S25x8x2048 S56x3x1 S25x56x3x2048 [0, 3] [1] [] [1] [] 2 ![25, 1, 2048]
  gather_S400x8x2048_S56x3x1_S400x56x3x2048_03_1_n_n_1_2_40012048_wf : GatherDims.WF S400x8x2048 S56x3x1 S400x56x3x2048 [0, 3] [1] [] [1] [] 2 ![400, 1, 2048]
  dot_S22400x6144_S6144x1024_S22400x1024_1_0_0_1_n_n_wf : DotDims.WF S22400x6144 S6144x1024 S22400x1024 [1] [0] [0] [1] [] []
  dot_S1400x6144_S6144x1024_S1400x1024_1_0_0_1_n_n_wf : DotDims.WF S1400x6144 S6144x1024 S1400x1024 [1] [0] [0] [1] [] []
  gather_S25x56x1024_S5x5x1_S5x5x56x1024_23_0_n_n_0_2_1561024_wf : GatherDims.WF S25x56x1024 S5x5x1 S5x5x56x1024 [2, 3] [0] [] [0] [] 2 ![1, 56, 1024]
  dot_S5x280x1024_S22400x1024_S5x280x22400_2_1_01_0_n_n_wf : DotDims.WF S5x280x1024 S22400x1024 S5x280x22400 [2] [1] [0, 1] [0] [] []

variable [Facts₀]

def gather_S25x8x2048_S56x3x1_S25x56x3x2048_03_1_n_n_1_2_2512048 : GatherDims S25x8x2048 S56x3x1 S25x56x3x2048 where
  offsetDims := [0, 3]
  collapsedSliceDims := [1]
  operandBatchingDims := []
  startIndicesBatchingDims := []
  startIndexMap := [1]
  indexVectorDim := 2
  sliceSizes := ![25, 1, 2048]
  wf := gather_S25x8x2048_S56x3x1_S25x56x3x2048_03_1_n_n_1_2_2512048_wf
def gather_S400x8x2048_S56x3x1_S400x56x3x2048_03_1_n_n_1_2_40012048 : GatherDims S400x8x2048 S56x3x1 S400x56x3x2048 where
  offsetDims := [0, 3]
  collapsedSliceDims := [1]
  operandBatchingDims := []
  startIndicesBatchingDims := []
  startIndexMap := [1]
  indexVectorDim := 2
  sliceSizes := ![400, 1, 2048]
  wf := gather_S400x8x2048_S56x3x1_S400x56x3x2048_03_1_n_n_1_2_40012048_wf
def dot_S22400x6144_S6144x1024_S22400x1024_1_0_0_1_n_n : DotDims S22400x6144 S6144x1024 S22400x1024 where
  lhsContracting := [1]
  rhsContracting := [0]
  lhsNonContracting := [0]
  rhsNonContracting := [1]
  lhsBatch := []
  rhsBatch := []
  wf := dot_S22400x6144_S6144x1024_S22400x1024_1_0_0_1_n_n_wf
def dot_S1400x6144_S6144x1024_S1400x1024_1_0_0_1_n_n : DotDims S1400x6144 S6144x1024 S1400x1024 where
  lhsContracting := [1]
  rhsContracting := [0]
  lhsNonContracting := [0]
  rhsNonContracting := [1]
  lhsBatch := []
  rhsBatch := []
  wf := dot_S1400x6144_S6144x1024_S1400x1024_1_0_0_1_n_n_wf
def comparator_i32_i32_d0 : BitVec 32 × BitVec 32 → BitVec 32 × BitVec 32 → BitVec 1 :=
  fun l r =>
    let v2 := IntOp.cmpi .slt l.1 r.1
    v2
def gather_S25x56x1024_S5x5x1_S5x5x56x1024_23_0_n_n_0_2_1561024 : GatherDims S25x56x1024 S5x5x1 S5x5x56x1024 where
  offsetDims := [2, 3]
  collapsedSliceDims := [0]
  operandBatchingDims := []
  startIndicesBatchingDims := []
  startIndexMap := [0]
  indexVectorDim := 2
  sliceSizes := ![1, 56, 1024]
  wf := gather_S25x56x1024_S5x5x1_S5x5x56x1024_23_0_n_n_0_2_1561024_wf
def dot_S5x280x1024_S22400x1024_S5x280x22400_2_1_01_0_n_n : DotDims S5x280x1024 S22400x1024 S5x280x22400 where
  lhsContracting := [2]
  rhsContracting := [1]
  lhsNonContracting := [0, 1]
  rhsNonContracting := [0]
  lhsBatch := []
  rhsBatch := []
  wf := dot_S5x280x1024_S22400x1024_S5x280x22400_2_1_01_0_n_n_wf

class Facts : Prop extends Facts₀ where

variable [Facts]
-- ==== Proof.Spec.lean ====
/-
  The function both programs compute, index by index, on the extended reals.

  A clip of 8 frames x[n, f, :] (2048 features each) is embedded once per increasing triple (i, j, k) of frames
  (56 triples, in lexicographic order): the three frames laid end to end, 6144 features, go through one linear layer
  W : [1024, 6144] with bias b and a rectifier. Because the 6144 columns of W are three blocks of 2048, the product
  with the laid-out triple is the sum of three products, one per position of the triple, each of one frame with one
  block of columns: that is the form stated here (`emb`).
  The 25 support clips are grouped into 5 classes of 5 by the stable sort of their labels: class c's row s
  (s = 56 * r + t) is tuple t of the clip that stands at place 5 c + r of the sorted order (`clsRow`; the place's
  word goes through jnp's wrap of negative indices and the gather's clamp, as both programs send it).
  The logit of query clip n for class c is minus the mean over the query's 56 tuples of the distance from the tuple's
  embedding to the nearest of the class's 280 tuple embeddings, the distance computed as
  sqrt(max(|q|^2 + |s|^2 - 2 q.s, 0)) (`dist`, `logit`).
-/
import Idealize.ShloMosaic.PureOps.Ideal
import Idealize.ShloMosaic.Lib.ValueIdx

noncomputable section

namespace Cert.Spec

open Idealize.ShloMosaic Idealize.ShloMosaic.ValueIdx

/-- The 56 increasing triples of the 8 frames, in lexicographic order: row t is tuple t. -/
def combo : Fin 56 → Fin 3 → Fin 8 :=
  ![![0, 1, 2], ![0, 1, 3], ![0, 1, 4], ![0, 1, 5], ![0, 1, 6], ![0, 1, 7], ![0, 2, 3], ![0, 2, 4], ![0, 2, 5],
    ![0, 2, 6], ![0, 2, 7], ![0, 3, 4], ![0, 3, 5], ![0, 3, 6], ![0, 3, 7], ![0, 4, 5], ![0, 4, 6], ![0, 4, 7],
    ![0, 5, 6], ![0, 5, 7], ![0, 6, 7], ![1, 2, 3], ![1, 2, 4], ![1, 2, 5], ![1, 2, 6], ![1, 2, 7], ![1, 3, 4],
    ![1, 3, 5], ![1, 3, 6], ![1, 3, 7], ![1, 4, 5], ![1, 4, 6], ![1, 4, 7], ![1, 5, 6], ![1, 5, 7], ![1, 6, 7],
    ![2, 3, 4], ![2, 3, 5], ![2, 3, 6], ![2, 3, 7], ![2, 4, 5], ![2, 4, 6], ![2, 4, 7], ![2, 5, 6], ![2, 5, 7],
    ![2, 6, 7], ![3, 4, 5], ![3, 4, 6], ![3, 4, 7], ![3, 5, 6], ![3, 5, 7], ![3, 6, 7], ![4, 5, 6], ![4, 5, 7],
    ![4, 6, 7], ![5, 6, 7]]

/-- The embedding of tuple t of clip n, feature o: the rectified sum of the three per-position products and the bias.
    The association is ((p0 + p1) + p2) + b. -/
def emb {N : Nat} (x : (⟨3, ![N, 8, 2048]⟩ : Shape).Idx → EReal) (W : (⟨2, ![1024, 6144]⟩ : Shape).Idx → EReal)
    (b : (⟨1, ![1024]⟩ : Shape).Idx → EReal) (n : Fin N) (t : Fin 56) (o : Fin 1024) : EReal :=
  max ((((∑ d : Fin 2048, x (ix3 n (combo t 0) d) * W (ix2 o ⟨d.val, by omega⟩))
        + ∑ d : Fin 2048, x (ix3 n (combo t 1) d) * W (ix2 o ⟨2048 + d.val, by omega⟩))
        + ∑ d : Fin 2048, x (ix3 n (combo t 2) d) * W (ix2 o ⟨4096 + d.val, by omega⟩))
      + b (ix1 o)) 0

/-- The same embedding over the weights as the kernel holds them: the three column blocks stacked, ws[p, o, d] = W[o, 2048 p + d],
    and the bias as one row. -/
def emb3 {N : Nat} (x : (⟨3, ![N, 8, 2048]⟩ : Shape).Idx → EReal) (ws : (⟨3, ![3, 1024, 2048]⟩ : Shape).Idx → EReal)
    (b2 : (⟨2, ![1, 1024]⟩ : Shape).Idx → EReal) (n : Fin N) (t : Fin 56) (o : Fin 1024) : EReal :=
  max ((((∑ d : Fin 2048, x (ix3 n (combo t 0) d) * ws (ix3 0 o d))
        + ∑ d : Fin 2048, x (ix3 n (combo t 1) d) * ws (ix3 1 o d))
        + ∑ d : Fin 2048, x (ix3 n (combo t 2) d) * ws (ix3 2 o d))
      + b2 (ix2 0 o)) 0

/-- With the stacked weights read off W and the bias row off b, the two forms are one. -/
theorem emb3_eq_emb {N : Nat} (x : (⟨3, ![N, 8, 2048]⟩ : Shape).Idx → EReal) (W : (⟨2, ![1024, 6144]⟩ : Shape).Idx → EReal)
    (b : (⟨1, ![1024]⟩ : Shape).Idx → EReal) (ws : (⟨3, ![3, 1024, 2048]⟩ : Shape).Idx → EReal)
    (b2 : (⟨2, ![1, 1024]⟩ : Shape).Idx → EReal)
    (hws : ∀ (p : Fin 3) (o : Fin 1024) (d : Fin 2048), ws (ix3 p o d) = W (ix2 o ⟨2048 * p.val + d.val, by omega⟩))
    (hb : ∀ o : Fin 1024, b2 (ix2 0 o) = b (ix1 o)) (n : Fin N) (t : Fin 56) (o : Fin 1024) :
    emb3 x ws b2 n t o = emb x W b n t o := by
  unfold emb3 emb
  rw [hb]
  simp only [hws]
  rfl

/-- The support clip whose tuples fill rows 56 r … 56 r + 55 of class c (s = 56 r + t): the word at place 5 c + r of the
    sorted order `ord`, wrapped if negative (w + 25) and clamped into [0, 24]. -/
def clsRow (ord : (⟨1, ![25]⟩ : Shape).Idx → BitVec 32) (c : Fin 5) (s : Fin 280) : Fin 25 :=
  ⟨min (Scalar.select (IntOp.cmpi .slt (ord (ix1 ⟨5 * c.val + s.val / 56, by omega⟩)) 0#32)
      (IntOp.addi (ord (ix1 ⟨5 * c.val + s.val / 56, by omega⟩)) 25#32)
      (ord (ix1 ⟨5 * c.val + s.val / 56, by omega⟩))).toInt.toNat 24, by omega⟩

/-- The tuple of its clip that row s of a class holds: s mod 56. -/
def clsTup (s : Fin 280) : Fin 56 := ⟨s.val % 56, Nat.mod_lt _ (by norm_num)⟩

/-- The distance between two feature rows, as both programs compute it. -/
def dist (q s : Fin 1024 → EReal) : EReal :=
  Ideal.sqrt (max (((∑ o : Fin 1024, q o * q o) + ∑ o : Fin 1024, s o * s o)
    - Ideal.ofBits .f32 0x40000000#32 * ∑ o : Fin 1024, q o * s o) 0)

/-- The logit of query n for class c from the query embeddings `qe` and the class rows `cls`. -/
def logit {N : Nat} (qe : Fin N → Fin 56 → Fin 1024 → EReal) (cls : Fin 5 → Fin 280 → Fin 1024 → EReal)
    (n : Fin N) (c : Fin 5) : EReal :=
  - Ideal.div (∑ t : Fin 56, (Finset.univ : Finset (Fin 280)).fold min (Ideal.ofBits .f32 0x7F800000#32)
      (fun s => dist (qe n t) (cls c s))) (Ideal.ofBits .f32 0x42600000#32)

/-- The whole result at (n, c) from the five argument arrays and the sorted order of the labels. -/
def result (a0 : (⟨3, ![25, 8, 2048]⟩ : Shape).Idx → EReal) (ord : (⟨1, ![25]⟩ : Shape).Idx → BitVec 32)
    (a2 : (⟨3, ![400, 8, 2048]⟩ : Shape).Idx → EReal) (a3 : (⟨2, ![1024, 6144]⟩ : Shape).Idx → EReal)
    (a4 : (⟨1, ![1024]⟩ : Shape).Idx → EReal) (n : Fin 400) (c : Fin 5) : EReal :=
  logit (fun n t o => emb a2 a3 a4 n t o) (fun c s o => emb a0 a3 a4 (clsRow ord c s) (clsTup s) o) n c

end Cert.Spec

end
-- ==== Proof.EmbedQRegionBits.lean ====
/-
  The first pallas_call (the tuple embedding of the query clips), one grid point at a time, at whatever the unscoped
  buffers hold when the region is entered (`V`). The body loads a block of 40 clips, the three stacked weight blocks and
  the bias row, forms the three per-position products p0, p1, p2 : [40, 8, 1024] (one matrix product each over all
  8 frames), and for each of the 56 increasing triples (i, j, k) the row max(p0[:, i] + p1[:, j] + p2[:, k] + bias, 0);
  the 56 rows side by side are its one store (`val0`, `out0_3`). Stated at any float instance.
-/
import proofs.«102215_j23794118820340_1_alg».proof.Proof.Gen.Kernel.Launch
import proofs.«102215_j23794118820340_1_alg».proof.Proof.Gen.Kernel.Skeleton
import proofs.«102215_j23794118820340_1_alg».proof.Proof.Gen.Kernel.Points
import proofs.«102215_j23794118820340_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses -/

abbrev rx0 : Rect S40x8x2048 := Rect.unit (s := S40x8x2048) ![0, 0, 0] S40x8x2048.size inb_S40x8x2048_S40x8x2048_0_0_0
abbrev rw0 : Rect S3x1024x2048 := Rect.unit (s := S3x1024x2048) ![0, 0, 0] S1x1024x2048.size inb_S3x1024x2048_S1x1024x2048_0_0_0
abbrev rw1 : Rect S3x1024x2048 := Rect.unit (s := S3x1024x2048) ![1, 0, 0] S1x1024x2048.size inb_S3x1024x2048_S1x1024x2048_1_0_0
abbrev rw2 : Rect S3x1024x2048 := Rect.unit (s := S3x1024x2048) ![2, 0, 0] S1x1024x2048.size inb_S3x1024x2048_S1x1024x2048_2_0_0
abbrev rb0 : Rect S1x1024 := Rect.unit (s := S1x1024) ![0, 0] S1x1024.size inb_S1x1024_S1x1024_0_0
abbrev ro0 : Rect S40x56x1024 := Rect.unit (s := S40x56x1024) ![0, 0, 0] S40x56x1024.size inb_S40x56x1024_S40x56x1024_0_0_0

/-! ## What the body stores -/

/-- Frame `i` of a [40, 8, 1024] array is a [40, 1, 1024] slice of it. -/
theorem frameSlice0 (i : Fin 8) : S40x8x1024.Slices ![0, i.val, 0] S40x1x1024 := by revert i; decide

/-- The row of one triple (i, j, k): max(p0[:, i] + p1[:, j] + p2[:, k] + bias, 0), rounded to the output's format, as a
    [40, 1, 1024] piece. -/
def tup0 (p0 p1 p2 : FVec F S40x8x1024 .f32) (bias : FVec F S1x1024 .f32) (i j k : Fin 8) : FVec F S40x1x1024 .bf16 :=
  shapeCast S40x1x1024 (truncf .bf16 (maximumf (addf (addf (addf
      (shapeCast S40x1024 (extractStridedSlice S40x1x1024 ![0, i.val, 0] p0 (frameSlice0 i)) shapeCasts_S40x1x1024_S40x1024)
      (shapeCast S40x1024 (extractStridedSlice S40x1x1024 ![0, j.val, 0] p1 (frameSlice0 j)) shapeCasts_S40x1x1024_S40x1024))
      (shapeCast S40x1024 (extractStridedSlice S40x1x1024 ![0, k.val, 0] p2 (frameSlice0 k)) shapeCasts_S40x1x1024_S40x1024))
      (broadcastTo S40x1024 bias broadcasts_S1x1024_S40x1024))
      (broadcast S40x1024 (Scalar.ofBits .f32 0x00000000#32))) bitsLt_bf16_f32) shapeCasts_S40x1024_S40x1x1024

/-- The 56 pieces, one per triple, in the triples' order. -/
def pieces0 (x : Vec F S40x8x2048 .f32) (w0 w1 w2 : Vec F S1x1024x2048 .bf16) (b : Vec F S1x1024 .f32) :
    List ((s : Shape) × (s.Idx → F .bf16)) :=
  List.ofFn fun t : Fin 56 => ⟨S40x1x1024, tup0 (k0_pay3 x w0) (k0_pay4 x w1) (k0_pay5 x w2) (k0_pay6 b)
    (Cert.Spec.combo t 0) (Cert.Spec.combo t 1) (Cert.Spec.combo t 2)⟩

theorem pieces0_concat (x : Vec F S40x8x2048 .f32) (w0 w1 w2 : Vec F S1x1024x2048 .bf16) (b : Vec F S1x1024 .f32) :
    Shape.Concatenates ((pieces0 x w0 w1 w2 b).map (·.1)) S40x56x1024 1 := by
  have e : (pieces0 x w0 w1 w2 b).map (·.1) = List.replicate 56 S40x1x1024 := by
    unfold pieces0; simp [List.map_ofFn, Function.comp_def, List.ofFn_const]
  rw [e]; decide

/-- The value the body stores: the 56 pieces side by side along the tuple axis. -/
def val0 (x : Vec F S40x8x2048 .f32) (w0 w1 w2 : Vec F S1x1024x2048 .bf16) (b : Vec F S1x1024 .f32) : FVec F S40x56x1024 .bf16 :=
  concatenate S40x56x1024 1 (pieces0 x w0 w1 w2 b) (pieces0_concat x w0 w1 w2 b)

/-- The output window's staging buffer after the body, from the input windows' blocks: its one store. -/
def out0_3 (x0 : Vec F S40x8x2048 .f32) (x1 : Vec F S3x1024x2048 .bf16) (x2 : Vec F S1x1024 .f32) : Vec F S40x56x1024 .bf16 :=
  View.canon [⟨ro0, val0 (View.ld x0 rx0) (View.ld x1 rw0) (View.ld x1 rw1) (View.ld x1 rw2) (View.ld x2 rb0)⟩]

/-- The store covers the buffer. -/
theorem cover0_3 (p0 : Vec F S40x56x1024 .bf16) (y : S40x56x1024.Idx) :
    ∃ pc ∈ ([⟨ro0, p0⟩] : List (View.Piece (Elt F) S40x56x1024 .bf16)), y ∈ pc.1.set :=
  View.cover_of_tiled [⟨ro0, p0⟩] S40x56x1024.size (by rfl) y

/-! ## The body's triple -/

set_option maxHeartbeats 8000000 in
/-- The kernel body on whole staging memrefs, the inputs' at contents `x0`, `x1`, `x2` and the output's at anything, runs to
    the continuation holding the inputs' as they were and the output's at `out0_3 x0 x1 x2`. -/
theorem sound_kernel0 (c : Dev nD) (E : Set ℕ) (i : grid0.Coords) (arg1 : Memref sig .tc .vmem S40x8x2048 .f32) (harg1 : arg1.IsWhole)
    (arg2 : Memref sig .tc .vmem S3x1024x2048 .bf16) (harg2 : arg2.IsWhole) (arg3 : Memref sig .tc .vmem S1x1024 .f32) (harg3 : arg3.IsWhole)
    (arg4 : Memref sig .tc .vmem S40x56x1024 .bf16) (harg4 : arg4.IsWhole)
    (x0 : Vec F S40x8x2048 .f32) (x1 : Vec F S3x1024x2048 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The clips window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights window's staging buffer holds the whole stacked weights at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's staging buffer holds the bias row at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the embedding pipeline on core `c`: the arrays as the region finds them; after the body at point
    `t` each input's buffer at its block and the output's at `out0_3` of the input blocks; nothing carried between
    points beside the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.EmbedSRegionBits.lean ====
/-
  The second pallas_call (the tuple embedding of the support clips), one grid point at a time, at whatever the unscoped
  buffers hold when the region is entered (`V`). The body loads the 25 clips, the three stacked weight blocks and
  the bias row, forms the three per-position products p0, p1, p2 : [25, 8, 1024] (one matrix product each over all
  8 frames), and for each of the 56 increasing triples (i, j, k) the row max(p0[:, i] + p1[:, j] + p2[:, k] + bias, 0);
  the 56 rows side by side are its one store (`val1`, `out1_3`). Stated at any float instance.
-/
import proofs.«102215_j23794118820340_1_alg».proof.Proof.Gen.Kernel.Launch
import proofs.«102215_j23794118820340_1_alg».proof.Proof.Gen.Kernel.Skeleton
import proofs.«102215_j23794118820340_1_alg».proof.Proof.Gen.Kernel.Points
import proofs.«102215_j23794118820340_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses -/

abbrev sx0 : Rect S25x8x2048 := Rect.unit (s := S25x8x2048) ![0, 0, 0] S25x8x2048.size inb_S25x8x2048_S25x8x2048_0_0_0
abbrev sw0 : Rect S3x1024x2048 := Rect.unit (s := S3x1024x2048) ![0, 0, 0] S1x1024x2048.size inb_S3x1024x2048_S1x1024x2048_0_0_0
abbrev sw1 : Rect S3x1024x2048 := Rect.unit (s := S3x1024x2048) ![1, 0, 0] S1x1024x2048.size inb_S3x1024x2048_S1x1024x2048_1_0_0
abbrev sw2 : Rect S3x1024x2048 := Rect.unit (s := S3x1024x2048) ![2, 0, 0] S1x1024x2048.size inb_S3x1024x2048_S1x1024x2048_2_0_0
abbrev sb0 : Rect S1x1024 := Rect.unit (s := S1x1024) ![0, 0] S1x1024.size inb_S1x1024_S1x1024_0_0
abbrev so0 : Rect S25x56x1024 := Rect.unit (s := S25x56x1024) ![0, 0, 0] S25x56x1024.size inb_S25x56x1024_S25x56x1024_0_0_0

/-! ## What the body stores -/

/-- Frame `i` of a [25, 8, 1024] array is a [25, 1, 1024] slice of it. -/
theorem frameSlice1 (i : Fin 8) : S25x8x1024.Slices ![0, i.val, 0] S25x1x1024 := by revert i; decide

/-- The row of one triple (i, j, k): max(p0[:, i] + p1[:, j] + p2[:, k] + bias, 0), rounded to the output's format, as a
    [25, 1, 1024] piece. -/
def tup1 (p0 p1 p2 : FVec F S25x8x1024 .f32) (bias : FVec F S1x1024 .f32) (i j k : Fin 8) : FVec F S25x1x1024 .bf16 :=
  shapeCast S25x1x1024 (truncf .bf16 (maximumf (addf (addf (addf
      (shapeCast S25x1024 (extractStridedSlice S25x1x1024 ![0, i.val, 0] p0 (frameSlice1 i)) shapeCasts_S25x1x1024_S25x1024)
      (shapeCast S25x1024 (extractStridedSlice S25x1x1024 ![0, j.val, 0] p1 (frameSlice1 j)) shapeCasts_S25x1x1024_S25x1024))
      (shapeCast S25x1024 (extractStridedSlice S25x1x1024 ![0, k.val, 0] p2 (frameSlice1 k)) shapeCasts_S25x1x1024_S25x1024))
      (broadcastTo S25x1024 bias broadcasts_S1x1024_S25x1024))
      (broadcast S25x1024 (Scalar.ofBits .f32 0x00000000#32))) bitsLt_bf16_f32) shapeCasts_S25x1024_S25x1x1024

/-- The 56 pieces, one per triple, in the triples' order. -/
def pieces1 (x : Vec F S25x8x2048 .f32) (w0 w1 w2 : Vec F S1x1024x2048 .bf16) (b : Vec F S1x1024 .f32) :
    List ((s : Shape) × (s.Idx → F .bf16)) :=
  List.ofFn fun t : Fin 56 => ⟨S25x1x1024, tup1 (k1_pay3 x w0) (k1_pay4 x w1) (k1_pay5 x w2) (k1_pay6 b)
    (Cert.Spec.combo t 0) (Cert.Spec.combo t 1) (Cert.Spec.combo t 2)⟩

theorem pieces1_concat (x : Vec F S25x8x2048 .f32) (w0 w1 w2 : Vec F S1x1024x2048 .bf16) (b : Vec F S1x1024 .f32) :
    Shape.Concatenates ((pieces1 x w0 w1 w2 b).map (·.1)) S25x56x1024 1 := by
  have e : (pieces1 x w0 w1 w2 b).map (·.1) = List.replicate 56 S25x1x1024 := by
    unfold pieces1; simp [List.map_ofFn, Function.comp_def, List.ofFn_const]
  rw [e]; decide

/-- The value the body stores: the 56 pieces side by side along the tuple axis. -/
def val1 (x : Vec F S25x8x2048 .f32) (w0 w1 w2 : Vec F S1x1024x2048 .bf16) (b : Vec F S1x1024 .f32) : FVec F S25x56x1024 .bf16 :=
  concatenate S25x56x1024 1 (pieces1 x w0 w1 w2 b) (pieces1_concat x w0 w1 w2 b)

/-- The output window's staging buffer after the body, from the input windows' blocks: its one store. -/
def out1_3 (x0 : Vec F S25x8x2048 .f32) (x1 : Vec F S3x1024x2048 .bf16) (x2 : Vec F S1x1024 .f32) : Vec F S25x56x1024 .bf16 :=
  View.canon [⟨so0, val1 (View.ld x0 sx0) (View.ld x1 sw0) (View.ld x1 sw1) (View.ld x1 sw2) (View.ld x2 sb0)⟩]

/-- The store covers the buffer. -/
theorem cover1_3 (p0 : Vec F S25x56x1024 .bf16) (y : S25x56x1024.Idx) :
    ∃ pc ∈ ([⟨so0, p0⟩] : List (View.Piece (Elt F) S25x56x1024 .bf16)), y ∈ pc.1.set :=
  View.cover_of_tiled [⟨so0, p0⟩] S25x56x1024.size (by rfl) y

/-! ## The body's triple -/

set_option maxHeartbeats 8000000 in
/-- The kernel body on whole staging memrefs, the inputs' at contents `x0`, `x1`, `x2` and the output's at anything, runs to
    the continuation holding the inputs' as they were and the output's at `out1_3 x0 x1 x2`. -/
theorem sound_kernel1 (c : Dev nD) (E : Set ℕ) (i : grid1.Coords) (arg1 : Memref sig .tc .vmem S25x8x2048 .f32) (harg1 : arg1.IsWhole)
    (arg2 : Memref sig .tc .vmem S3x1024x2048 .bf16) (harg2 : arg2.IsWhole) (arg3 : Memref sig .tc .vmem S1x1024 .f32) (harg3 : arg3.IsWhole)
    (arg4 : Memref sig .tc .vmem S25x56x1024 .bf16) (harg4 : arg4.IsWhole)
    (x0 : Vec F S25x8x2048 .f32) (x1 : Vec F S3x1024x2048 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__embed_kernel i arg1 harg1 arg2 harg2 arg3 harg3 arg4 harg4) K := by
  simp only [cc1__embed_kernel_eq_skeleton]; unfold cc1__embed_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The clips window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights window's staging buffer holds the whole stacked weights at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the bias row at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the embedding pipeline on core `c`: the arrays as the region finds them; after the body at point
    `t` each input's buffer at its block and the output's at `out1_3` of the input blocks; nothing carried between
    points beside the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.DistRegionBits.lean ====
/-
  The third pallas_call (the distances kernel), one grid point at a time, at whatever the unscoped buffers hold when the
  region is entered (`V`): the block of each window at a point, what the body leaves in the output window's buffer
  as a function of the two input blocks (`out2_2`: the body's one store, its value the composition of the body's pure
  steps over the six loads), the body's triple, the pipeline's proof data and the body obligation at every point.
  Stated at any float instance.
-/
import proofs.«102215_j23794118820340_1_alg».proof.Proof.Gen.Kernel.Launch
import proofs.«102215_j23794118820340_1_alg».proof.Proof.Gen.Kernel.Skeleton
import proofs.«102215_j23794118820340_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The query window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The class window's staging buffer holds its block (the whole array) at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev rq : Rect S40x56x1024 := Rect.unit (s := S40x56x1024) ![0, 0, 0] S40x56x1024.size inb_S40x56x1024_S40x56x1024_0_0_0
abbrev rc0 : Rect S5x280x1024 := Rect.unit (s := S5x280x1024) ![0, 0, 0] S1x280x1024.size inb_S5x280x1024_S1x280x1024_0_0_0
abbrev rc1 : Rect S5x280x1024 := Rect.unit (s := S5x280x1024) ![1, 0, 0] S1x280x1024.size inb_S5x280x1024_S1x280x1024_1_0_0
abbrev rc2 : Rect S5x280x1024 := Rect.unit (s := S5x280x1024) ![2, 0, 0] S1x280x1024.size inb_S5x280x1024_S1x280x1024_2_0_0
abbrev rc3 : Rect S5x280x1024 := Rect.unit (s := S5x280x1024) ![3, 0, 0] S1x280x1024.size inb_S5x280x1024_S1x280x1024_3_0_0
abbrev rc4 : Rect S5x280x1024 := Rect.unit (s := S5x280x1024) ![4, 0, 0] S1x280x1024.size inb_S5x280x1024_S1x280x1024_4_0_0
abbrev ro : Rect S40x5 := Rect.unit (s := S40x5) ![0, 0] S40x5.size inb_S40x5_S40x5_0_0

/-! ## What the body leaves in the output window's buffer -/

/-- The value the body stores, from the query block and the five class slabs it loads: the five per-class columns,
    each computed from the shared query terms (the flattened block and its squared norms) and one slab. -/
def val2 (q : Vec F S40x56x1024 .bf16) (s0 s1 s2 s3 s4 : Vec F S1x280x1024 .bf16) : FVec F S40x5 .f32 :=
  k2_pay1 (k2_pay4 q s0) (k2_pay9 (k2_pay6 q s1) (k2_pay7 q) (k2_pay8 s1)) (k2_pay10 (k2_pay2 q) (k2_pay3 q) s2)
    (k2_pay13 (k2_pay2 q) (k2_pay3 q) (k2_pay11 s3) (k2_pay12 s3)) (k2_pay14 (k2_pay2 q) (k2_pay3 q) s4)
    (Scalar.ofBits .f32 0x00000000#32)

/-- The output window's staging buffer after the body, from the input windows' blocks: its one store. -/
def out2_2 (x0 : Vec F S40x56x1024 .bf16) (x1 : Vec F S5x280x1024 .bf16) : Vec F S40x5 .f32 :=
  View.canon [⟨ro, val2 (View.ld x0 rq) (View.ld x1 rc0) (View.ld x1 rc1) (View.ld x1 rc2) (View.ld x1 rc3) (View.ld x1 rc4)⟩]

/-- The store covers the buffer. -/
theorem cover2_2 (p0 : Vec F S40x5 .f32) (y : S40x5.Idx) :
    ∃ pc ∈ ([⟨ro, p0⟩] : List (View.Piece (Elt F) S40x5 .f32)), y ∈ pc.1.set :=
  View.cover_of_tiled [⟨ro, p0⟩] S40x5.size (by rfl) y

/-! ## The body's triple -/

set_option maxHeartbeats 4000000 in
/-- The kernel body on whole staging memrefs, the inputs' at contents `x0`, `x1` and the output's at anything, runs to
    the continuation holding the inputs' as they were and the output's at `out2_2 x0 x1`. -/
theorem sound_kernel2 (c : Dev nD) (E : Set ℕ) (i : grid2.Coords) (arg1 : Memref sig .tc .vmem S40x56x1024 .bf16) (harg1 : arg1.IsWhole)
    (arg2 : Memref sig .tc .vmem S5x280x1024 .bf16) (harg2 : arg2.IsWhole) (arg3 : Memref sig .tc .vmem S40x5 .f32) (harg3 : arg3.IsWhole)
    (x0 : Vec F S40x56x1024 .bf16) (x1 : Vec F S5x280x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__cdist_kernel i arg1 harg1 arg2 harg2 arg3 harg3) K := by
  simp only [cc2__cdist_kernel_eq_skeleton]; unfold cc2__cdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the distances pipeline on core `c`: the arrays as the region finds them; after the body at point
    `t` each input's buffer at its block and the output's at `out2_2` of the input blocks; nothing carried between
    points beside the scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.ThreeRegionsBits.lean ====
/-
  The run of @main through its six items — the host stretch that stacks the weights, the two embedding regions, the
  two host stretches that sort the labels and group the support embeddings by class, the distances region — from the
  launch to the return, at any float instance. The unscoped buffers' contents at every boundary are a fold from the
  launch memory (`W0` … `W6`: a host stretch applies its operations; a region leaves its arrays at what its
  write-backs leave and everything else as it found it). Each region is entered from the boundary's contents and left
  at the next one's; the launch reads the last boundary's contents off the final state (`run_all`), whence the
  arguments unchanged (`W6_main_arg0` …) and the result's array named (`W6_main_v21`).
-/
import proofs.«102215_j23794118820340_1_alg».proof.Proof.EmbedQRegionBits
import proofs.«102215_j23794118820340_1_alg».proof.Proof.EmbedSRegionBits
import proofs.«102215_j23794118820340_1_alg».proof.Proof.DistRegionBits
import proofs.«102215_j23794118820340_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the stretch that stacks the weights (the first embedding region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first embedding region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second embedding region's exit (it is entered from the first one's exit). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the stretch that sorts the labels. -/
abbrev W4 : Dev nD → Valuation τ sig (Elt F) := fun c => StableHlo.after hostOps2 (W3 m ρ c)
/-- After the stretch that groups the support embeddings by class (the distances region's entry). -/
abbrev W5 : Dev nD → Valuation τ sig (Elt F) := fun c => StableHlo.after hostOps2_1 (W4 m ρ c)
abbrev V5 : (c : Dev nD) → (b : Ref sig .tc) → Buf (Elt F) ((c : Thread nD τ).loc b) := fun c b => W5 m ρ c b
/-- At the distances region's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## What a host stretch leaves alone -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W5_of (c : Dev nD) (r : Ref sig .tc) (h : r ∉ hostOps2_1_W) : W5 m ρ c (Proc.devRef .tc r) = W4 m ρ c (Proc.devRef .tc r) :=
  StableHlo.after_of_writes_sub hostOps2_1 _ hostOps2_1_writes h

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := W1_of m ρ c main_arg2 (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- The result's array at the end is what the distances pipeline leaves in its output window's array. -/
theorem W6_main_v21 (c : Dev nD) : W6 m ρ c (Proc.devRef .tc main_v21) = (dat2 (V5 m ρ) c).arrAt 2 cfg2.N :=
  W6_arr m ρ c 2

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first embedding region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second embedding region: entered from `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distances region: entered from `W5`, left at `W6` (what the launch reads at the end). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame claim's post, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.Kernel.Frame

end
-- ==== Proof.EmbedQRegion.lean ====
/-
  The first pallas_call (the tuple embedding of the query clips), one grid point at a time, at whatever the unscoped
  buffers hold when the region is entered (`V`). The body loads a block of 40 clips, the three stacked weight blocks and
  the bias row, forms the three per-position products p0, p1, p2 : [40, 8, 1024] (one matrix product each over all
  8 frames), and for each of the 56 increasing triples (i, j, k) the row max(p0[:, i] + p1[:, j] + p2[:, k] + bias, 0);
  the 56 rows side by side are its one store (`val0`, `out0_3`). Stated at any float instance.
-/
import proofs.«102215_j23794118820340_1_alg».proof.Proof.Gen.KernelIdeal.Launch
import proofs.«102215_j23794118820340_1_alg».proof.Proof.Gen.KernelIdeal.Skeleton
import proofs.«102215_j23794118820340_1_alg».proof.Proof.Gen.KernelIdeal.Points
import proofs.«102215_j23794118820340_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses -/

abbrev rx0 : Rect S40x8x2048 := Rect.unit (s := S40x8x2048) ![0, 0, 0] S40x8x2048.size inb_S40x8x2048_S40x8x2048_0_0_0
abbrev rw0 : Rect S3x1024x2048 := Rect.unit (s := S3x1024x2048) ![0, 0, 0] S1x1024x2048.size inb_S3x1024x2048_S1x1024x2048_0_0_0
abbrev rw1 : Rect S3x1024x2048 := Rect.unit (s := S3x1024x2048) ![1, 0, 0] S1x1024x2048.size inb_S3x1024x2048_S1x1024x2048_1_0_0
abbrev rw2 : Rect S3x1024x2048 := Rect.unit (s := S3x1024x2048) ![2, 0, 0] S1x1024x2048.size inb_S3x1024x2048_S1x1024x2048_2_0_0
abbrev rb0 : Rect S1x1024 := Rect.unit (s := S1x1024) ![0, 0] S1x1024.size inb_S1x1024_S1x1024_0_0
abbrev ro0 : Rect S40x56x1024 := Rect.unit (s := S40x56x1024) ![0, 0, 0] S40x56x1024.size inb_S40x56x1024_S40x56x1024_0_0_0

/-! ## What the body stores -/

/-- Frame `i` of a [40, 8, 1024] array is a [40, 1, 1024] slice of it. -/
theorem frameSlice0 (i : Fin 8) : S40x8x1024.Slices ![0, i.val, 0] S40x1x1024 := by revert i; decide

/-- The row of one triple (i, j, k): max(p0[:, i] + p1[:, j] + p2[:, k] + bias, 0), rounded to the output's format, as a
    [40, 1, 1024] piece. -/
def tup0 (p0 p1 p2 : FVec F S40x8x1024 .f32) (bias : FVec F S1x1024 .f32) (i j k : Fin 8) : FVec F S40x1x1024 .bf16 :=
  shapeCast S40x1x1024 (truncf .bf16 (maximumf (addf (addf (addf
      (shapeCast S40x1024 (extractStridedSlice S40x1x1024 ![0, i.val, 0] p0 (frameSlice0 i)) shapeCasts_S40x1x1024_S40x1024)
      (shapeCast S40x1024 (extractStridedSlice S40x1x1024 ![0, j.val, 0] p1 (frameSlice0 j)) shapeCasts_S40x1x1024_S40x1024))
      (shapeCast S40x1024 (extractStridedSlice S40x1x1024 ![0, k.val, 0] p2 (frameSlice0 k)) shapeCasts_S40x1x1024_S40x1024))
      (broadcastTo S40x1024 bias broadcasts_S1x1024_S40x1024))
      (broadcast S40x1024 (Scalar.ofBits .f32 0x00000000#32))) bitsLt_bf16_f32) shapeCasts_S40x1024_S40x1x1024

/-- The 56 pieces, one per triple, in the triples' order. -/
def pieces0 (x : Vec F S40x8x2048 .f32) (w0 w1 w2 : Vec F S1x1024x2048 .bf16) (b : Vec F S1x1024 .f32) :
    List ((s : Shape) × (s.Idx → F .bf16)) :=
  List.ofFn fun t : Fin 56 => ⟨S40x1x1024, tup0 (k0_pay3 x w0) (k0_pay4 x w1) (k0_pay5 x w2) (k0_pay6 b)
    (Cert.Spec.combo t 0) (Cert.Spec.combo t 1) (Cert.Spec.combo t 2)⟩

theorem pieces0_concat (x : Vec F S40x8x2048 .f32) (w0 w1 w2 : Vec F S1x1024x2048 .bf16) (b : Vec F S1x1024 .f32) :
    Shape.Concatenates ((pieces0 x w0 w1 w2 b).map (·.1)) S40x56x1024 1 := by
  have e : (pieces0 x w0 w1 w2 b).map (·.1) = List.replicate 56 S40x1x1024 := by
    unfold pieces0; simp [List.map_ofFn, Function.comp_def, List.ofFn_const]
  rw [e]; decide

/-- The value the body stores: the 56 pieces side by side along the tuple axis. -/
def val0 (x : Vec F S40x8x2048 .f32) (w0 w1 w2 : Vec F S1x1024x2048 .bf16) (b : Vec F S1x1024 .f32) : FVec F S40x56x1024 .bf16 :=
  concatenate S40x56x1024 1 (pieces0 x w0 w1 w2 b) (pieces0_concat x w0 w1 w2 b)

/-- The output window's staging buffer after the body, from the input windows' blocks: its one store. -/
def out0_3 (x0 : Vec F S40x8x2048 .f32) (x1 : Vec F S3x1024x2048 .bf16) (x2 : Vec F S1x1024 .f32) : Vec F S40x56x1024 .bf16 :=
  View.canon [⟨ro0, val0 (View.ld x0 rx0) (View.ld x1 rw0) (View.ld x1 rw1) (View.ld x1 rw2) (View.ld x2 rb0)⟩]

/-- The store covers the buffer. -/
theorem cover0_3 (p0 : Vec F S40x56x1024 .bf16) (y : S40x56x1024.Idx) :
    ∃ pc ∈ ([⟨ro0, p0⟩] : List (View.Piece (Elt F) S40x56x1024 .bf16)), y ∈ pc.1.set :=
  View.cover_of_tiled [⟨ro0, p0⟩] S40x56x1024.size (by rfl) y

/-! ## The body's triple -/

set_option maxHeartbeats 8000000 in
/-- The kernel body on whole staging memrefs, the inputs' at contents `x0`, `x1`, `x2` and the output's at anything, runs to
    the continuation holding the inputs' as they were and the output's at `out0_3 x0 x1 x2`. -/
theorem sound_kernel0 (c : Dev nD) (E : Set ℕ) (i : grid0.Coords) (arg1 : Memref sig .tc .vmem S40x8x2048 .f32) (harg1 : arg1.IsWhole)
    (arg2 : Memref sig .tc .vmem S3x1024x2048 .bf16) (harg2 : arg2.IsWhole) (arg3 : Memref sig .tc .vmem S1x1024 .f32) (harg3 : arg3.IsWhole)
    (arg4 : Memref sig .tc .vmem S40x56x1024 .bf16) (harg4 : arg4.IsWhole)
    (x0 : Vec F S40x8x2048 .f32) (x1 : Vec F S3x1024x2048 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The clips window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights window's staging buffer holds the whole stacked weights at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's staging buffer holds the bias row at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the embedding pipeline on core `c`: the arrays as the region finds them; after the body at point
    `t` each input's buffer at its block and the output's at `out0_3` of the input blocks; nothing carried between
    points beside the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.EmbedSRegion.lean ====
/-
  The second pallas_call (the tuple embedding of the support clips), one grid point at a time, at whatever the unscoped
  buffers hold when the region is entered (`V`). The body loads the 25 clips, the three stacked weight blocks and
  the bias row, forms the three per-position products p0, p1, p2 : [25, 8, 1024] (one matrix product each over all
  8 frames), and for each of the 56 increasing triples (i, j, k) the row max(p0[:, i] + p1[:, j] + p2[:, k] + bias, 0);
  the 56 rows side by side are its one store (`val1`, `out1_3`). Stated at any float instance.
-/
import proofs.«102215_j23794118820340_1_alg».proof.Proof.Gen.KernelIdeal.Launch
import proofs.«102215_j23794118820340_1_alg».proof.Proof.Gen.KernelIdeal.Skeleton
import proofs.«102215_j23794118820340_1_alg».proof.Proof.Gen.KernelIdeal.Points
import proofs.«102215_j23794118820340_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses -/

abbrev sx0 : Rect S25x8x2048 := Rect.unit (s := S25x8x2048) ![0, 0, 0] S25x8x2048.size inb_S25x8x2048_S25x8x2048_0_0_0
abbrev sw0 : Rect S3x1024x2048 := Rect.unit (s := S3x1024x2048) ![0, 0, 0] S1x1024x2048.size inb_S3x1024x2048_S1x1024x2048_0_0_0
abbrev sw1 : Rect S3x1024x2048 := Rect.unit (s := S3x1024x2048) ![1, 0, 0] S1x1024x2048.size inb_S3x1024x2048_S1x1024x2048_1_0_0
abbrev sw2 : Rect S3x1024x2048 := Rect.unit (s := S3x1024x2048) ![2, 0, 0] S1x1024x2048.size inb_S3x1024x2048_S1x1024x2048_2_0_0
abbrev sb0 : Rect S1x1024 := Rect.unit (s := S1x1024) ![0, 0] S1x1024.size inb_S1x1024_S1x1024_0_0
abbrev so0 : Rect S25x56x1024 := Rect.unit (s := S25x56x1024) ![0, 0, 0] S25x56x1024.size inb_S25x56x1024_S25x56x1024_0_0_0

/-! ## What the body stores -/

/-- Frame `i` of a [25, 8, 1024] array is a [25, 1, 1024] slice of it. -/
theorem frameSlice1 (i : Fin 8) : S25x8x1024.Slices ![0, i.val, 0] S25x1x1024 := by revert i; decide

/-- The row of one triple (i, j, k): max(p0[:, i] + p1[:, j] + p2[:, k] + bias, 0), rounded to the output's format, as a
    [25, 1, 1024] piece. -/
def tup1 (p0 p1 p2 : FVec F S25x8x1024 .f32) (bias : FVec F S1x1024 .f32) (i j k : Fin 8) : FVec F S25x1x1024 .bf16 :=
  shapeCast S25x1x1024 (truncf .bf16 (maximumf (addf (addf (addf
      (shapeCast S25x1024 (extractStridedSlice S25x1x1024 ![0, i.val, 0] p0 (frameSlice1 i)) shapeCasts_S25x1x1024_S25x1024)
      (shapeCast S25x1024 (extractStridedSlice S25x1x1024 ![0, j.val, 0] p1 (frameSlice1 j)) shapeCasts_S25x1x1024_S25x1024))
      (shapeCast S25x1024 (extractStridedSlice S25x1x1024 ![0, k.val, 0] p2 (frameSlice1 k)) shapeCasts_S25x1x1024_S25x1024))
      (broadcastTo S25x1024 bias broadcasts_S1x1024_S25x1024))
      (broadcast S25x1024 (Scalar.ofBits .f32 0x00000000#32))) bitsLt_bf16_f32) shapeCasts_S25x1024_S25x1x1024

/-- The 56 pieces, one per triple, in the triples' order. -/
def pieces1 (x : Vec F S25x8x2048 .f32) (w0 w1 w2 : Vec F S1x1024x2048 .bf16) (b : Vec F S1x1024 .f32) :
    List ((s : Shape) × (s.Idx → F .bf16)) :=
  List.ofFn fun t : Fin 56 => ⟨S25x1x1024, tup1 (k1_pay3 x w0) (k1_pay4 x w1) (k1_pay5 x w2) (k1_pay6 b)
    (Cert.Spec.combo t 0) (Cert.Spec.combo t 1) (Cert.Spec.combo t 2)⟩

theorem pieces1_concat (x : Vec F S25x8x2048 .f32) (w0 w1 w2 : Vec F S1x1024x2048 .bf16) (b : Vec F S1x1024 .f32) :
    Shape.Concatenates ((pieces1 x w0 w1 w2 b).map (·.1)) S25x56x1024 1 := by
  have e : (pieces1 x w0 w1 w2 b).map (·.1) = List.replicate 56 S25x1x1024 := by
    unfold pieces1; simp [List.map_ofFn, Function.comp_def, List.ofFn_const]
  rw [e]; decide

/-- The value the body stores: the 56 pieces side by side along the tuple axis. -/
def val1 (x : Vec F S25x8x2048 .f32) (w0 w1 w2 : Vec F S1x1024x2048 .bf16) (b : Vec F S1x1024 .f32) : FVec F S25x56x1024 .bf16 :=
  concatenate S25x56x1024 1 (pieces1 x w0 w1 w2 b) (pieces1_concat x w0 w1 w2 b)

/-- The output window's staging buffer after the body, from the input windows' blocks: its one store. -/
def out1_3 (x0 : Vec F S25x8x2048 .f32) (x1 : Vec F S3x1024x2048 .bf16) (x2 : Vec F S1x1024 .f32) : Vec F S25x56x1024 .bf16 :=
  View.canon [⟨so0, val1 (View.ld x0 sx0) (View.ld x1 sw0) (View.ld x1 sw1) (View.ld x1 sw2) (View.ld x2 sb0)⟩]

/-- The store covers the buffer. -/
theorem cover1_3 (p0 : Vec F S25x56x1024 .bf16) (y : S25x56x1024.Idx) :
    ∃ pc ∈ ([⟨so0, p0⟩] : List (View.Piece (Elt F) S25x56x1024 .bf16)), y ∈ pc.1.set :=
  View.cover_of_tiled [⟨so0, p0⟩] S25x56x1024.size (by rfl) y

/-! ## The body's triple -/

set_option maxHeartbeats 8000000 in
/-- The kernel body on whole staging memrefs, the inputs' at contents `x0`, `x1`, `x2` and the output's at anything, runs to
    the continuation holding the inputs' as they were and the output's at `out1_3 x0 x1 x2`. -/
theorem sound_kernel1 (c : Dev nD) (E : Set ℕ) (i : grid1.Coords) (arg1 : Memref sig .tc .vmem S25x8x2048 .f32) (harg1 : arg1.IsWhole)
    (arg2 : Memref sig .tc .vmem S3x1024x2048 .bf16) (harg2 : arg2.IsWhole) (arg3 : Memref sig .tc .vmem S1x1024 .f32) (harg3 : arg3.IsWhole)
    (arg4 : Memref sig .tc .vmem S25x56x1024 .bf16) (harg4 : arg4.IsWhole)
    (x0 : Vec F S25x8x2048 .f32) (x1 : Vec F S3x1024x2048 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__embed_kernel i arg1 harg1 arg2 harg2 arg3 harg3 arg4 harg4) K := by
  simp only [cc1__embed_kernel_eq_skeleton]; unfold cc1__embed_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The clips window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights window's staging buffer holds the whole stacked weights at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the bias row at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the embedding pipeline on core `c`: the arrays as the region finds them; after the body at point
    `t` each input's buffer at its block and the output's at `out1_3` of the input blocks; nothing carried between
    points beside the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.DistRegion.lean ====
/-
  The third pallas_call (the distances kernel), one grid point at a time, at whatever the unscoped buffers hold when the
  region is entered (`V`): the block of each window at a point, what the body leaves in the output window's buffer
  as a function of the two input blocks (`out2_2`: the body's one store, its value the composition of the body's pure
  steps over the six loads), the body's triple, the pipeline's proof data and the body obligation at every point.
  Stated at any float instance.
-/
import proofs.«102215_j23794118820340_1_alg».proof.Proof.Gen.KernelIdeal.Launch
import proofs.«102215_j23794118820340_1_alg».proof.Proof.Gen.KernelIdeal.Skeleton
import proofs.«102215_j23794118820340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The query window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The class window's staging buffer holds its block (the whole array) at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev rq : Rect S40x56x1024 := Rect.unit (s := S40x56x1024) ![0, 0, 0] S40x56x1024.size inb_S40x56x1024_S40x56x1024_0_0_0
abbrev rc0 : Rect S5x280x1024 := Rect.unit (s := S5x280x1024) ![0, 0, 0] S1x280x1024.size inb_S5x280x1024_S1x280x1024_0_0_0
abbrev rc1 : Rect S5x280x1024 := Rect.unit (s := S5x280x1024) ![1, 0, 0] S1x280x1024.size inb_S5x280x1024_S1x280x1024_1_0_0
abbrev rc2 : Rect S5x280x1024 := Rect.unit (s := S5x280x1024) ![2, 0, 0] S1x280x1024.size inb_S5x280x1024_S1x280x1024_2_0_0
abbrev rc3 : Rect S5x280x1024 := Rect.unit (s := S5x280x1024) ![3, 0, 0] S1x280x1024.size inb_S5x280x1024_S1x280x1024_3_0_0
abbrev rc4 : Rect S5x280x1024 := Rect.unit (s := S5x280x1024) ![4, 0, 0] S1x280x1024.size inb_S5x280x1024_S1x280x1024_4_0_0
abbrev ro : Rect S40x5 := Rect.unit (s := S40x5) ![0, 0] S40x5.size inb_S40x5_S40x5_0_0

/-! ## What the body leaves in the output window's buffer -/

/-- The value the body stores, from the query block and the five class slabs it loads: the five per-class columns,
    each computed from the shared query terms (the flattened block and its squared norms) and one slab. -/
def val2 (q : Vec F S40x56x1024 .bf16) (s0 s1 s2 s3 s4 : Vec F S1x280x1024 .bf16) : FVec F S40x5 .f32 :=
  k2_pay1 (k2_pay4 q s0) (k2_pay9 (k2_pay6 q s1) (k2_pay7 q) (k2_pay8 s1)) (k2_pay10 (k2_pay2 q) (k2_pay3 q) s2)
    (k2_pay13 (k2_pay2 q) (k2_pay3 q) (k2_pay11 s3) (k2_pay12 s3)) (k2_pay14 (k2_pay2 q) (k2_pay3 q) s4)
    (Scalar.ofBits .f32 0x00000000#32)

/-- The output window's staging buffer after the body, from the input windows' blocks: its one store. -/
def out2_2 (x0 : Vec F S40x56x1024 .bf16) (x1 : Vec F S5x280x1024 .bf16) : Vec F S40x5 .f32 :=
  View.canon [⟨ro, val2 (View.ld x0 rq) (View.ld x1 rc0) (View.ld x1 rc1) (View.ld x1 rc2) (View.ld x1 rc3) (View.ld x1 rc4)⟩]

/-- The store covers the buffer. -/
theorem cover2_2 (p0 : Vec F S40x5 .f32) (y : S40x5.Idx) :
    ∃ pc ∈ ([⟨ro, p0⟩] : List (View.Piece (Elt F) S40x5 .f32)), y ∈ pc.1.set :=
  View.cover_of_tiled [⟨ro, p0⟩] S40x5.size (by rfl) y

/-! ## The body's triple -/

set_option maxHeartbeats 4000000 in
/-- The kernel body on whole staging memrefs, the inputs' at contents `x0`, `x1` and the output's at anything, runs to
    the continuation holding the inputs' as they were and the output's at `out2_2 x0 x1`. -/
theorem sound_kernel2 (c : Dev nD) (E : Set ℕ) (i : grid2.Coords) (arg1 : Memref sig .tc .vmem S40x56x1024 .bf16) (harg1 : arg1.IsWhole)
    (arg2 : Memref sig .tc .vmem S5x280x1024 .bf16) (harg2 : arg2.IsWhole) (arg3 : Memref sig .tc .vmem S40x5 .f32) (harg3 : arg3.IsWhole)
    (x0 : Vec F S40x56x1024 .bf16) (x1 : Vec F S5x280x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__cdist_kernel i arg1 harg1 arg2 harg2 arg3 harg3) K := by
  simp only [cc2__cdist_kernel_eq_skeleton]; unfold cc2__cdist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the distances pipeline on core `c`: the arrays as the region finds them; after the body at point
    `t` each input's buffer at its block and the output's at `out2_2` of the input blocks; nothing carried between
    points beside the scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.ThreeRegions.lean ====
/-
  The run of @main through its six items — the host stretch that stacks the weights, the two embedding regions, the
  two host stretches that sort the labels and group the support embeddings by class, the distances region — from the
  launch to the return, at any float instance. The unscoped buffers' contents at every boundary are a fold from the
  launch memory (`W0` … `W6`: a host stretch applies its operations; a region leaves its arrays at what its
  write-backs leave and everything else as it found it). Each region is entered from the boundary's contents and left
  at the next one's; the launch reads the last boundary's contents off the final state (`run_all`), whence the
  arguments unchanged (`W6_main_arg0` …) and the result's array named (`W6_main_v21`).
-/
import proofs.«102215_j23794118820340_1_alg».proof.Proof.EmbedQRegion
import proofs.«102215_j23794118820340_1_alg».proof.Proof.EmbedSRegion
import proofs.«102215_j23794118820340_1_alg».proof.Proof.DistRegion
import proofs.«102215_j23794118820340_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the stretch that stacks the weights (the first embedding region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first embedding region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second embedding region's exit (it is entered from the first one's exit). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the stretch that sorts the labels. -/
abbrev W4 : Dev nD → Valuation τ sig (Elt F) := fun c => StableHlo.after hostOps2 (W3 m ρ c)
/-- After the stretch that groups the support embeddings by class (the distances region's entry). -/
abbrev W5 : Dev nD → Valuation τ sig (Elt F) := fun c => StableHlo.after hostOps2_1 (W4 m ρ c)
abbrev V5 : (c : Dev nD) → (b : Ref sig .tc) → Buf (Elt F) ((c : Thread nD τ).loc b) := fun c b => W5 m ρ c b
/-- At the distances region's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## What a host stretch leaves alone -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W5_of (c : Dev nD) (r : Ref sig .tc) (h : r ∉ hostOps2_1_W) : W5 m ρ c (Proc.devRef .tc r) = W4 m ρ c (Proc.devRef .tc r) :=
  StableHlo.after_of_writes_sub hostOps2_1 _ hostOps2_1_writes h

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := W1_of m ρ c main_arg2 (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- The result's array at the end is what the distances pipeline leaves in its output window's array. -/
theorem W6_main_v21 (c : Dev nD) : W6 m ρ c (Proc.devRef .tc main_v21) = (dat2 (V5 m ρ) c).arrAt 2 cfg2.N :=
  W6_arr m ρ c 2

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- The first embedding region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second embedding region: entered from `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distances region: entered from `W5`, left at `W6` (what the launch reads at the end). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame claim's post, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Frame

end
-- ==== Proof.KernelTransport.lean ====
/-
  Which boundary each array the regions read was last written at: the query embeddings the distances region reads are
  what the first embedding region left; the stacked weights and the bias row both embedding regions read are what the
  first host stretch left; the support clips and the labels are the launch's. (No later item writes them.)
-/
import proofs.«102215_j23794118820340_1_alg».proof.Proof.ThreeRegions

set_option maxRecDepth 16384

noncomputable section

namespace Cert.KernelIdeal.Val

open Cert.KernelIdeal Cert.KernelIdeal.Gen Cert.KernelIdeal.Frame
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg) (c : Dev nD)

/-- The query clips at the first embedding region's entry are the launch's. -/
theorem V1_arg2 : W1 m ρ c (Proc.devRef .tc main_arg2) = m ((c : Thread nD τ).loc main_arg2) :=
  (W1_of m ρ c main_arg2 (by decide)).trans rfl
/-- The weights at the first host stretch's entry are the launch's. -/
theorem W0_arg3 : W0 m ρ c (Proc.devRef .tc main_arg3) = m ((c : Thread nD τ).loc main_arg3) := rfl
theorem W0_arg4 : W0 m ρ c (Proc.devRef .tc main_arg4) = m ((c : Thread nD τ).loc main_arg4) := rfl
/-- The support clips at the second embedding region's entry are the launch's. -/
theorem V2_arg0 : W2 m ρ c (Proc.devRef .tc main_arg0) = m ((c : Thread nD τ).loc main_arg0) :=
  (W2_of_ne m ρ c main_arg0 (by decide)).trans ((W1_of m ρ c main_arg0 (by decide)).trans rfl)
/-- The stacked weights at the second embedding region's entry are what the first host stretch left: the first region
    only read them. -/
theorem V2_v7 : W2 m ρ c (Proc.devRef .tc main_v7) = W1 m ρ c (Proc.devRef .tc main_v7) :=
  (W2_arr m ρ c 1).trans (((dat0 (V1 m ρ) c).arrAt_in 1 rfl _).trans (A_eq0 (V1 m ρ) c 1))
/-- The bias row likewise. -/
theorem V2_v8 : W2 m ρ c (Proc.devRef .tc main_v8) = W1 m ρ c (Proc.devRef .tc main_v8) :=
  (W2_arr m ρ c 2).trans (((dat0 (V1 m ρ) c).arrAt_in 2 rfl _).trans (A_eq0 (V1 m ρ) c 2))
/-- The labels when they are sorted are the launch's. -/
theorem W3_arg1 : W3 m ρ c (Proc.devRef .tc main_arg1) = m ((c : Thread nD τ).loc main_arg1) :=
  (W3_of_ne m ρ c main_arg1 (by decide)).trans ((W2_of_ne m ρ c main_arg1 (by decide)).trans ((W1_of m ρ c main_arg1 (by decide)).trans rfl))
/-- The query embeddings the distances region reads are what the first embedding region left. -/
theorem V5_v9 : W5 m ρ c (Proc.devRef .tc main_v9) = (dat0 (V1 m ρ) c).arrAt 3 cfg0.N :=
  (W5_of m ρ c main_v9 (by decide)).trans ((W4_of m ρ c main_v9 (by decide)).trans ((W3_of_ne m ρ c main_v9 (by decide)).trans (W2_arr m ρ c 3)))
/-- The support embeddings the grouping stretch reads are what the second embedding region left. -/
theorem W3_v10 : W3 m ρ c (Proc.devRef .tc main_v10) = (dat1 (V2 m ρ) c).arrAt 3 cfg1.N :=
  W3_arr m ρ c 3

end Cert.KernelIdeal.Val

end
-- ==== Proof.LibCat3.lean ====
/-
  General lemmas for a host concatenate of THREE operands (nothing here mentions a particular program).

  * `nary3_result`: a host operation over a literal family of three references leaves, in its result buffer, its function
    of the three operands' contents, each read AT ITS OWN REFERENCE — so that a run of host operations can go on being read
    operand by operand (the library states this for four references; for any other count it reads the operands under a
    binder, where no further step applies).
  * `cat3_axis1_fst / _snd / _trd`: three `[n, w]` matrices laid side by side into an `[n, t]` matrix read, at row `r` and a
    column inside the first, second or third band, the first, second or third matrix at `(r, c)`, `c` the column's offset
    in its band.
  * `cat3_axis0_fst / _snd / _trd`: the same for three length-`w` vectors laid end to end.
-/
import Idealize.ShloMosaic.Lib.StableHlo.Run
import Idealize.ShloMosaic.Lib.Pipeline.Value
import Idealize.ShloMosaic.Lib.ValueIdx

noncomputable section

namespace Cert.LibCat3

open Idealize.ShloMosaic Idealize.ShloMosaic.StableHlo Idealize.ShloMosaic.ValueIdx Idealize.SL.Sem

section Result

variable {nD : Nat} {τ : Topo} {sig : RefSig} {Val : EltTy → Type} {x a b y : Ref sig .tc}

/-- A host operation over the literal family `![x, a, b]`: its result buffer holds the operation's function of the three
    operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Result

section Read

variable {α : Type}

/-- Three matrices side by side, read in the first band. -/
theorem cat3_axis1_fst {n w t : Nat} (X0 X1 X2 : (⟨2, ![n, w]⟩ : Shape).Idx → α)
    (h : Shape.Concatenates [(⟨2, ![n, w]⟩ : Shape), ⟨2, ![n, w]⟩, ⟨2, ![n, w]⟩] ⟨2, ![n, t]⟩ 1)
    (r : Fin n) (c : Fin w) (j : Fin t) (hj : j.val = c.val) :
    concatenate ⟨2, ![n, t]⟩ 1 [⟨⟨2, ![n, w]⟩, X0⟩, ⟨⟨2, ![n, w]⟩, X1⟩, ⟨⟨2, ![n, w]⟩, X2⟩] h (ix2 r j) = X0 (ix2 r c) :=
  concatenate_apply_piece (t := (⟨2, ![n, t]⟩ : Shape)) (1 : Fin 2) ([⟨⟨2, ![n, w]⟩, X0⟩, ⟨⟨2, ![n, w]⟩, X1⟩, ⟨⟨2, ![n, w]⟩, X2⟩] : List ((s : Shape) × (s.Idx → α))) h (ix2 r j) 0 (by show (0 : ℕ) < 3; omega) ⟨2, ![n, w]⟩ X0 rfl rfl 0 rfl (ix2 r c)
    (fun b hb => by match b with | ⟨0, _⟩ => rfl | ⟨1, _⟩ => exact absurd rfl hb) (by show 0 + c.val = j.val; omega)

/-- Three matrices side by side, read in the second band. -/
theorem cat3_axis1_snd {n w t : Nat} (X0 X1 X2 : (⟨2, ![n, w]⟩ : Shape).Idx → α)
    (h : Shape.Concatenates [(⟨2, ![n, w]⟩ : Shape), ⟨2, ![n, w]⟩, ⟨2, ![n, w]⟩] ⟨2, ![n, t]⟩ 1)
    (r : Fin n) (c : Fin w) (j : Fin t) (hj : j.val = w + c.val) :
    concatenate ⟨2, ![n, t]⟩ 1 [⟨⟨2, ![n, w]⟩, X0⟩, ⟨⟨2, ![n, w]⟩, X1⟩, ⟨⟨2, ![n, w]⟩, X2⟩] h (ix2 r j) = X1 (ix2 r c) :=
  concatenate_apply_piece (t := (⟨2, ![n, t]⟩ : Shape)) (1 : Fin 2) ([⟨⟨2, ![n, w]⟩, X0⟩, ⟨⟨2, ![n, w]⟩, X1⟩, ⟨⟨2, ![n, w]⟩, X2⟩] : List ((s : Shape) × (s.Idx → α))) h (ix2 r j) 1 (by show (1 : ℕ) < 3; omega) ⟨2, ![n, w]⟩ X1 rfl rfl w rfl (ix2 r c)
    (fun b hb => by match b with | ⟨0, _⟩ => rfl | ⟨1, _⟩ => exact absurd rfl hb) (by show w + c.val = j.val; omega)

/-- Three matrices side by side, read in the third band. -/
theorem cat3_axis1_trd {n w t : Nat} (X0 X1 X2 : (⟨2, ![n, w]⟩ : Shape).Idx → α)
    (h : Shape.Concatenates [(⟨2, ![n, w]⟩ : Shape), ⟨2, ![n, w]⟩, ⟨2, ![n, w]⟩] ⟨2, ![n, t]⟩ 1)
    (r : Fin n) (c : Fin w) (j : Fin t) (hj : j.val = w + w + c.val) :
    concatenate ⟨2, ![n, t]⟩ 1 [⟨⟨2, ![n, w]⟩, X0⟩, ⟨⟨2, ![n, w]⟩, X1⟩, ⟨⟨2, ![n, w]⟩, X2⟩] h (ix2 r j) = X2 (ix2 r c) :=
  concatenate_apply_piece (t := (⟨2, ![n, t]⟩ : Shape)) (1 : Fin 2) ([⟨⟨2, ![n, w]⟩, X0⟩, ⟨⟨2, ![n, w]⟩, X1⟩, ⟨⟨2, ![n, w]⟩, X2⟩] : List ((s : Shape) × (s.Idx → α))) h (ix2 r j) 2 (by show (2 : ℕ) < 3; omega) ⟨2, ![n, w]⟩ X2 rfl rfl (w + w) rfl (ix2 r c)
    (fun b hb => by match b with | ⟨0, _⟩ => rfl | ⟨1, _⟩ => exact absurd rfl hb) (by show w + w + c.val = j.val; omega)

/-- Three vectors end to end, read in the first stretch. -/
theorem cat3_axis0_fst {w t : Nat} (X0 X1 X2 : (⟨1, ![w]⟩ : Shape).Idx → α)
    (h : Shape.Concatenates [(⟨1, ![w]⟩ : Shape), ⟨1, ![w]⟩, ⟨1, ![w]⟩] ⟨1, ![t]⟩ 0) (c : Fin w) (j : Fin t) (hj : j.val = c.val) :
    concatenate ⟨1, ![t]⟩ 0 [⟨⟨1, ![w]⟩, X0⟩, ⟨⟨1, ![w]⟩, X1⟩, ⟨⟨1, ![w]⟩, X2⟩] h (ix1 j) = X0 (ix1 c) :=
  concatenate_apply_piece (t := (⟨1, ![t]⟩ : Shape)) (0 : Fin 1) ([⟨⟨1, ![w]⟩, X0⟩, ⟨⟨1, ![w]⟩, X1⟩, ⟨⟨1, ![w]⟩, X2⟩] : List ((s : Shape) × (s.Idx → α))) h (ix1 j) 0 (by show (0 : ℕ) < 3; omega) ⟨1, ![w]⟩ X0 rfl rfl 0 rfl (ix1 c)
    (fun b hb => by match b with | ⟨0, _⟩ => exact absurd rfl hb) (by show 0 + c.val = j.val; omega)

/-- Three vectors end to end, read in the second stretch. -/
theorem cat3_axis0_snd {w t : Nat} (X0 X1 X2 : (⟨1, ![w]⟩ : Shape).Idx → α)
    (h : Shape.Concatenates [(⟨1, ![w]⟩ : Shape), ⟨1, ![w]⟩, ⟨1, ![w]⟩] ⟨1, ![t]⟩ 0) (c : Fin w) (j : Fin t) (hj : j.val = w + c.val) :
    concatenate ⟨1, ![t]⟩ 0 [⟨⟨1, ![w]⟩, X0⟩, ⟨⟨1, ![w]⟩, X1⟩, ⟨⟨1, ![w]⟩, X2⟩] h (ix1 j) = X1 (ix1 c) :=
  concatenate_apply_piece (t := (⟨1, ![t]⟩ : Shape)) (0 : Fin 1) ([⟨⟨1, ![w]⟩, X0⟩, ⟨⟨1, ![w]⟩, X1⟩, ⟨⟨1, ![w]⟩, X2⟩] : List ((s : Shape) × (s.Idx → α))) h (ix1 j) 1 (by show (1 : ℕ) < 3; omega) ⟨1, ![w]⟩ X1 rfl rfl w rfl (ix1 c)
    (fun b hb => by match b with | ⟨0, _⟩ => exact absurd rfl hb) (by show w + c.val = j.val; omega)

/-- Three vectors end to end, read in the third stretch. -/
theorem cat3_axis0_trd {w t : Nat} (X0 X1 X2 : (⟨1, ![w]⟩ : Shape).Idx → α)
    (h : Shape.Concatenates [(⟨1, ![w]⟩ : Shape), ⟨1, ![w]⟩, ⟨1, ![w]⟩] ⟨1, ![t]⟩ 0) (c : Fin w) (j : Fin t) (hj : j.val = w + w + c.val) :
    concatenate ⟨1, ![t]⟩ 0 [⟨⟨1, ![w]⟩, X0⟩, ⟨⟨1, ![w]⟩, X1⟩, ⟨⟨1, ![w]⟩, X2⟩] h (ix1 j) = X2 (ix1 c) :=
  concatenate_apply_piece (t := (⟨1, ![t]⟩ : Shape)) (0 : Fin 1) ([⟨⟨1, ![w]⟩, X0⟩, ⟨⟨1, ![w]⟩, X1⟩, ⟨⟨1, ![w]⟩, X2⟩] : List ((s : Shape) × (s.Idx → α))) h (ix1 j) 2 (by show (2 : ℕ) < 3; omega) ⟨1, ![w]⟩ X2 rfl rfl (w + w) rfl (ix1 c)
    (fun b hb => by match b with | ⟨0, _⟩ => exact absurd rfl hb) (by show w + w + c.val = j.val; omega)

end Read

end Cert.LibCat3

end
-- ==== Proof.LibGS3.lean ====
/-
  ROW GATHER AND ROW SCATTER-ADD OF A THREE-AXIS TABLE, READ AT ONE ELEMENT.

  A table `x : [N, A, B]` and a column `idx : [E, 1]` of row numbers (integer words, read signed), with the dimension
  numbers of `x[idx]` and `x.at[idx].add(u)` along the first axis:
  * the GATHER (offset axes `[1, 2]`, collapsed slice axes `[0]`, start index map `[0]`, index vector on axis 1, no
    batching axes) has result `[E, A, B]`; its element (e, a, b) is `x[r, a, b]` with `r` the start index `idx[e, 0]`
    clamped into `[0, N − 1]`;
  * the SCATTER-ADD (update window axes `[1, 2]`, inserted window axes `[0]`, scatter axes to operand axes `[0]`, index
    vector on axis 1) of updates `u : [E, A, B]` has, at the ideal instance, the element (n, a, b)
    `x[n, a, b] + ∑ over the e with idx[e, 0] = n of u[e, a, b]`: the row number is not clamped, and an update row whose
    number is no row of the table is dropped.
  Every lemma takes any dimension-number record whose lists are the ones above, at any extents.
-/
import Idealize.ShloMosaic.PureOps.Ideal
import Idealize.ShloMosaic.Lib.ValueIdx

open scoped BigOperators

namespace Cert.Bridge.GS3

open Idealize.ShloMosaic Idealize.ShloMosaic.ValueIdx

/-! ## Indices of a three-axis array -/

/-- Two rank-3 indices built from coordinates are equal exactly when the three coordinates are. -/
theorem ix3_inj {n0 n1 n2 : Nat} {a a' : Fin n0} {b b' : Fin n1} {c c' : Fin n2} :
    ix3 a b c = ix3 a' b' c' ↔ a = a' ∧ b = b' ∧ c = c' := by
  constructor
  · intro h
    exact ⟨congrFun h 0, congrFun h 1, congrFun h 2⟩
  · rintro ⟨rfl, rfl, rfl⟩; rfl

/-- A rank-3 index set is the product of its three coordinate ranges: an index goes to its coordinates, a triple of
    coordinates to the index `ix3` builds from them. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The gather -/

section Gather
variable {α : Type} {N E A B w : Nat}

/-- THE OPERAND INDEX of result element (e, a, b). On the row axis (collapsed, its slice one row, and the one axis the
    start index map names) it is the start index `idx[e, 0]`, read signed and clamped into `[0, N − 1]`; on each of the
    two other axes, which are the operand's kept axes 1 and 2 and are read by the result's offset axes 1 and 2 in this
    order, the start is 0 and the offset coordinate is the result's own coordinate, `a` and `b`. -/
theorem operandIdx3_rows (hN : 0 < N) (d : GatherDims ⟨3, ![N, A, B]⟩ ⟨2, ![E, 1]⟩ ⟨3, ![E, A, B]⟩)
    (hoff : d.offsetDims = [1, 2]) (hcoll : d.collapsedSliceDims = [0]) (hob : d.operandBatchingDims = [])
    (hsim : d.startIndexMap = [0]) (hivd : d.indexVectorDim = 1)
    (idx : IVec ⟨2, ![E, 1]⟩ w) (e : Fin E) (a : Fin A) (b : Fin B) :
    d.operandIdx (ix3 e a b) idx = ix3 ⟨min (idx (ix2 e 0)).toInt.toNat (N - 1), by omega⟩ a b := by
  obtain ⟨od, cd, ob, sb, sim, ivd, ss, wf⟩ := d
  dsimp only at hoff hcoll hob hsim hivd
  subst hoff hcoll hob hsim hivd
  -- the row axis is collapsed, so its slice is one row
  have hsl : ss 0 = 1 :=
    GatherDims.slice_collapsed (⟨[1, 2], [0], [], sb, [0], 1, ss, wf⟩ : GatherDims ⟨3, ![N, A, B]⟩ ⟨2, ![E, 1]⟩ ⟨3, ![E, A, B]⟩) 0
      (List.mem_singleton.mpr rfl)
  funext c
  match c with
  | ⟨0, _⟩ =>
    refine Fin.ext ?_
    show GatherDims.start _ (ix3 e a b) idx 0 + GatherDims.batchCoord _ (ix3 e a b) 0 + GatherDims.offCoord _ (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    -- the position in the index column that element (e, a, b) reads: the batch coordinate e, then component 0
    have hsi : ∀ (h : List.idxOf (0 : Fin 3) [0] < [(0 : Fin 3)].length),
        GatherDims.siIdx (⟨[1, 2], [0], [], sb, [0], 1, ss, wf⟩ : GatherDims ⟨3, ![N, A, B]⟩ ⟨2, ![E, 1]⟩ ⟨3, ![E, A, B]⟩)
          (ix3 e a b) ⟨List.idxOf (0 : Fin 3) [0], h⟩ = ix2 e 0 := by
      intro h
      funext k
      refine Fin.ext ?_
      match k with
      | ⟨0, _⟩ => rfl
      | ⟨1, _⟩ => rfl
    show min (idx (GatherDims.siIdx _ (ix3 e a b) ⟨List.idxOf (0 : Fin 3) [0], _⟩)).toInt.toNat (N - ss 0) + 0 + 0
      = min (idx (ix2 e 0)).toInt.toNat (N - 1)
    rw [hsi, hsl]
    rfl
  | ⟨1, _⟩ =>
    refine Fin.ext ?_
    show GatherDims.start _ (ix3 e a b) idx 1 + GatherDims.batchCoord _ (ix3 e a b) 1 + GatherDims.offCoord _ (ix3 e a b) 1 = _
    rw [GatherDims.batchCoord_eq_zero _ _ _ List.not_mem_nil]
    unfold GatherDims.start GatherDims.offCoord
    rw [dif_neg (show (1 : Fin 3) ∉ [0] by decide),
      dif_pos ((GatherDims.mem_sKept _ _).mpr ⟨show (1 : Fin 3) ∉ [0] by decide, List.not_mem_nil⟩)]
    -- axis 1 is the first of the kept axes [1, 2], read by the first offset axis, 1
    show 0 + 0 + a.val = a.val
    omega
  | ⟨2, _⟩ =>
    refine Fin.ext ?_
    show GatherDims.start _ (ix3 e a b) idx 2 + GatherDims.batchCoord _ (ix3 e a b) 2 + GatherDims.offCoord _ (ix3 e a b) 2 = _
    rw [GatherDims.batchCoord_eq_zero _ _ _ List.not_mem_nil]
    unfold GatherDims.start GatherDims.offCoord
    rw [dif_neg (show (2 : Fin 3) ∉ [0] by decide),
      dif_pos ((GatherDims.mem_sKept _ _).mpr ⟨show (2 : Fin 3) ∉ [0] by decide, List.not_mem_nil⟩)]
    -- axis 2 is the second of the kept axes [1, 2], read by the second offset axis, 2
    show 0 + 0 + b.val = b.val
    omega

end Gather

/-- THE GATHER READ AT (e, a, b), no range condition. -/
theorem gather3_apply {α : Type} {N E A B w : Nat} (hN : 0 < N)
    (d : GatherDims ⟨3, ![N, A, B]⟩ ⟨2, ![E, 1]⟩ ⟨3, ![E, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![E, 1]⟩ w) (e : Fin E) (a : Fin A) (b : Fin B) :
    Host.gather d x idx (ix3 e a b) = x (ix3 ⟨min (idx (ix2 e 0)).toInt.toNat (N - 1), by omega⟩ a b) := by
  unfold Host.gather
  rw [operandIdx3_rows hN d hoff hcoll hob hsim hivd idx e a b]

/-! ## The scatter-add -/

section Scatter
variable {N E A B w : Nat}

/-- WHERE AN UPDATE LANDS. Update element (e, a, b) of a row scatter into a three-axis table (the row axis inserted and
    scattered, axes 1 and 2 the window; one row number per update row, on the index vector's axis 1) lands at
    (`idx[e, 0]`, a, b) when the row number, read signed and not clamped, is a row of the table, and nowhere when it is
    not: on the row axis the start is the row number and the window coordinate 0, on each window axis the start is 0 and
    the window coordinate the update's own, which is below the table's extent there. -/
theorem resultIdx?3_rows (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hivd : d.indexVectorDim = 1) (idx : IVec ⟨2, ![E, 1]⟩ w) (e : Fin E) (a : Fin A) (b : Fin B) :
    d.resultIdx? (ix3 e a b) idx =
      if h : 0 ≤ (idx (ix2 e 0)).toInt ∧ (idx (ix2 e 0)).toInt < N then
        some (ix3 ⟨(idx (ix2 e 0)).toInt.toNat, by omega⟩ a b)
      else none := by
  obtain ⟨uw, iw, sd, ivd, wf⟩ := d
  dsimp only at huw hiw hsd hivd
  subst huw hiw hsd hivd
  set D : ScatterDims ⟨3, ![N, A, B]⟩ ⟨2, ![E, 1]⟩ ⟨3, ![E, A, B]⟩ := ⟨[1, 2], [0], [0], 1, wf⟩ with hD
  -- the three starts: the row number on the row axis, 0 on the two window axes
  have hs0 : D.start (ix3 e a b) idx 0 = (idx (ix2 e 0)).toInt := by
    unfold ScatterDims.start
    rw [dif_pos (show (0 : Fin 3) ∈ D.scatterDimsToOperandDims from List.mem_singleton.mpr rfl)]
    have hsi : ∀ (h : List.idxOf (0 : Fin 3) D.scatterDimsToOperandDims < D.scatterDimsToOperandDims.length),
        D.siIdx (ix3 e a b) ⟨List.idxOf (0 : Fin 3) D.scatterDimsToOperandDims, h⟩ = ix2 e 0 := by
      intro h
      funext k
      refine Fin.ext ?_
      match k with
      | ⟨0, _⟩ => rfl
      | ⟨1, _⟩ => rfl
    rw [hsi]
  have hs1 : D.start (ix3 e a b) idx 1 = 0 := by
    unfold ScatterDims.start
    rw [dif_neg (show (1 : Fin 3) ∉ D.scatterDimsToOperandDims from (by decide : (1 : Fin 3) ∉ [0]))]
  have hs2 : D.start (ix3 e a b) idx 2 = 0 := by
    unfold ScatterDims.start
    rw [dif_neg (show (2 : Fin 3) ∉ D.scatterDimsToOperandDims from (by decide : (2 : Fin 3) ∉ [0]))]
  -- the three window coordinates: 0 on the inserted row axis, the update's own on the kept axes 1 and 2
  have hk : D.sKept = [1, 2] := rfl
  have hw0 : D.window (ix3 e a b) 0 = 0 := by
    unfold ScatterDims.window
    rw [dif_neg (show (0 : Fin 3) ∉ D.sKept from by rw [hk]; exact (by decide : (0 : Fin 3) ∉ [1, 2]))]
  have hw1 : D.window (ix3 e a b) 1 = a.val := by
    unfold ScatterDims.window
    rw [dif_pos (show (1 : Fin 3) ∈ D.sKept from by rw [hk]; exact (by decide : (1 : Fin 3) ∈ [1, 2]))]
    rfl
  have hw2 : D.window (ix3 e a b) 2 = b.val := by
    unfold ScatterDims.window
    rw [dif_pos (show (2 : Fin 3) ∈ D.sKept from by rw [hk]; exact (by decide : (2 : Fin 3) ∈ [1, 2]))]
    rfl
  unfold ScatterDims.resultIdx?
  by_cases h : 0 ≤ (idx (ix2 e 0)).toInt ∧ (idx (ix2 e 0)).toInt < N
  · have hall : ∀ c, 0 ≤ D.start (ix3 e a b) idx c + D.window (ix3 e a b) c ∧
        D.start (ix3 e a b) idx c + D.window (ix3 e a b) c < (⟨3, ![N, A, B]⟩ : Shape).size c := by
      intro c
      match c with
      | ⟨0, _⟩ =>
        show 0 ≤ D.start (ix3 e a b) idx 0 + D.window (ix3 e a b) 0 ∧
          D.start (ix3 e a b) idx 0 + D.window (ix3 e a b) 0 < (N : Int)
        rw [hs0, hw0]; omega
      | ⟨1, _⟩ =>
        show 0 ≤ D.start (ix3 e a b) idx 1 + D.window (ix3 e a b) 1 ∧
          D.start (ix3 e a b) idx 1 + D.window (ix3 e a b) 1 < (A : Int)
        rw [hs1, hw1]; have := a.isLt; omega
      | ⟨2, _⟩ =>
        show 0 ≤ D.start (ix3 e a b) idx 2 + D.window (ix3 e a b) 2 ∧
          D.start (ix3 e a b) idx 2 + D.window (ix3 e a b) 2 < (B : Int)
        rw [hs2, hw2]; have := b.isLt; omega
    rw [dif_pos hall, dif_pos h]
    congr 1
    funext c
    refine Fin.ext ?_
    match c with
    | ⟨0, _⟩ =>
      show (D.start (ix3 e a b) idx 0 + D.window (ix3 e a b) 0).toNat = (idx (ix2 e 0)).toInt.toNat
      rw [hs0, hw0]; simp
    | ⟨1, _⟩ =>
      show (D.start (ix3 e a b) idx 1 + D.window (ix3 e a b) 1).toNat = a.val
      rw [hs1, hw1]; simp
    | ⟨2, _⟩ =>
      show (D.start (ix3 e a b) idx 2 + D.window (ix3 e a b) 2).toNat = b.val
      rw [hs2, hw2]; simp
  · rw [dif_neg h, dif_neg]
    intro hall
    have h0 : 0 ≤ D.start (ix3 e a b) idx 0 + D.window (ix3 e a b) 0 ∧
        D.start (ix3 e a b) idx 0 + D.window (ix3 e a b) 0 < (N : Int) := hall 0
    rw [hs0, hw0] at h0
    exact h (by omega)

/-- An update element (e, a', b') lands at the table's (n, a, b) exactly when its row number `idx[e, 0]`, read signed,
    is `n` and its two window coordinates are `a` and `b`. -/
theorem resultIdx?3_eq_some_iff (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hivd : d.indexVectorDim = 1) (idx : IVec ⟨2, ![E, 1]⟩ w) (e : Fin E) (a' : Fin A) (b' : Fin B)
    (n : Fin N) (a : Fin A) (b : Fin B) :
    d.resultIdx? (ix3 e a' b') idx = some (ix3 n a b) ↔ (idx (ix2 e 0)).toInt = (n.val : Int) ∧ a' = a ∧ b' = b := by
  rw [resultIdx?3_rows d huw hiw hsd hivd idx e a' b']
  have hn := n.isLt
  by_cases h : 0 ≤ (idx (ix2 e 0)).toInt ∧ (idx (ix2 e 0)).toInt < N
  · rw [dif_pos h, Option.some.injEq, ix3_inj]
    constructor
    · rintro ⟨h1, h2, h3⟩
      refine ⟨?_, h2, h3⟩
      have hv : (idx (ix2 e 0)).toInt.toNat = n.val := congrArg Fin.val h1
      omega
    · rintro ⟨h1, h2, h3⟩
      refine ⟨Fin.ext ?_, h2, h3⟩
      show (idx (ix2 e 0)).toInt.toNat = n.val
      omega
  · rw [dif_neg h]
    constructor
    · intro h'; exact absurd h' (by simp)
    · rintro ⟨h1, _, _⟩
      exact absurd (show 0 ≤ (idx (ix2 e 0)).toInt ∧ (idx (ix2 e 0)).toInt < N by omega) h

/-- THE EXACT-SUM SCATTER-ADD READ AT (n, a, b), no range condition: the table's element plus the sum, over the update
    rows `e` whose row number `idx[e, 0]` (read signed, not clamped) is `n`, of the update's element (e, a, b). The sum
    over all update elements that land on (n, a, b) is split by coordinates; for a row `e` with the right number only
    the window position (a, b) itself contributes, and a row with another number contributes nothing. -/
theorem hostScatterAdd3_apply (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hivd : d.indexVectorDim = 1)
    (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd d x idx upd (ix3 n a b) =
      x (ix3 n a b) + ∑ e ∈ Finset.univ.filter (fun e : Fin E => (idx (ix2 e 0)).toInt = (n.val : Int)), upd (ix3 e a b) := by
  unfold Ideal.hostScatterAdd
  congr 1
  rw [Finset.sum_filter, sum_idx3, Finset.sum_filter]
  refine Finset.sum_congr rfl fun e _ => ?_
  simp only [resultIdx?3_eq_some_iff d huw hiw hsd hivd idx e _ _ n a b]
  by_cases h : (idx (ix2 e 0)).toInt = (n.val : Int)
  · simp only [h, true_and, if_true]
    -- the double sum over the window has one nonzero term, at (a, b)
    have hb : ∀ a' : Fin A, (∑ b' : Fin B, if a' = a ∧ b' = b then upd (ix3 e a' b') else 0)
        = if a' = a then upd (ix3 e a' b) else 0 := by
      intro a'
      by_cases ha : a' = a
      · simp only [ha, true_and, if_true]
        rw [Finset.sum_ite_eq' Finset.univ b (fun b' => upd (ix3 e a b'))]
        simp
      · simp only [ha, false_and, if_false]
        exact Finset.sum_const_zero
    simp only [hb]
    rw [Finset.sum_ite_eq' Finset.univ a (fun a' => upd (ix3 e a' b))]
    simp
  · simp only [h, false_and, if_false]
    exact Finset.sum_eq_zero fun a' _ => Finset.sum_const_zero

end Scatter

/-- THE SCATTER-ADD READ AT (n, a, b), no range condition, on `Host.scatterAdd` at the ideal instance. -/
theorem scatterAdd3_apply {N E A B w : Nat} {φ : FTy}
    (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hivd : d.indexVectorDim = 1)
    (x : FVec Ideal ⟨3, ![N, A, B]⟩ φ) (idx : IVec ⟨2, ![E, 1]⟩ w) (upd : FVec Ideal ⟨3, ![E, A, B]⟩ φ)
    (n : Fin N) (a : Fin A) (b : Fin B) :
    Host.scatterAdd d x idx upd (ix3 n a b) =
      x (ix3 n a b) + ∑ e ∈ Finset.univ.filter (fun e : Fin E => (idx (ix2 e 0)).toInt = (n.val : Int)), upd (ix3 e a b) :=
  hostScatterAdd3_apply d huw hiw hsd hivd x idx upd n a b

end Cert.Bridge.GS3
-- ==== Proof.KernelHost.lean ====
/-
  What the kernel program's HOST stretches leave, read at an index, on the extended reals.

  * The first stretch cuts W : [1024, 6144] into its three column blocks of 2048, gives each a leading unit axis, lays the
    three along that axis and narrows the format (the identity on extended reals): the stacked weights at (p, o, d) are
    W at (o, 2048 p + d). It reshapes b : [1024] to one row: the row at (0, o) is b at o.
  * The two stretches between the embedding regions and the distances region sort the labels with their places (the
    sorted order of the places is `kord`), wrap a negative place by 25, and gather the rows of the support embeddings
    at those places (clamped into [0, 24]); the two reshapes [25, 56, 1024] → [5, 5, 56, 1024] → [5, 280, 1024] put at
    (k, s, o) the gathered row 5 k + s / 56, tuple s mod 56: row `Cert.Spec.clsRow`, tuple `Cert.Spec.clsTup` of the
    support embeddings. The sorted order stays a variable throughout: nothing here computes it.
-/
import proofs.«102215_j23794118820340_1_alg».proof.Proof.KernelTransport
import proofs.«102215_j23794118820340_1_alg».proof.Proof.LibCat3
import proofs.«102215_j23794118820340_1_alg».proof.Proof.LibGS3
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem

open Idealize.ShloMosaic.StableHlo in
/-- The contents a line of host operations leaves in one buffer, read operation by operation; a three-operand operation
    is read with each operand at its own reference. -/
macro "after_results3" : tactic =>
  `(tactic| (simp only [after_cons, after_nil]
             repeat (first
               | rw [nullary_result] | rw [unary_result] | rw [binary_result] | rw [ternary_result]
               | rw [reshape_result] | rw [Cert.LibCat3.nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (m : (ℓ : Loc nD τ sig) → Buf (Elt Ideal) ℓ) (ρ : Dev nD → PrngReg) (c : Dev nD)

/-! ## The sorted order of the labels -/

/-- The places 0 … 24 in the stable sorted order of the labels `a1`. -/
def kord (a1 : IVec S25 32) : IVec S25 32 := (Host.sort2 S25 0 comparator_i32_i32_d0 a1 (iotaInDim S25 32 0)).2

/-! ## The stretches as functions of the contents they read -/

/-- One column block of the weights with a leading unit axis. -/
def wpiece (W : S1024x6144.Idx → EReal) (off : ℕ) (h : S1024x6144.Slices ![0, off] S1024x2048) : S1x1024x2048.Idx → EReal :=
  broadcastInDim S1x1024x2048 ![1, 2] bcast_S1024x2048_S1x1024x2048_1_2 (extractStridedSlice S1024x2048 ![0, off] W h)

/-- The three column blocks stacked. -/
def stackW (W : S1024x6144.Idx → EReal) : S3x1024x2048.Idx → EReal :=
  concatenate S3x1024x2048 0
    [⟨S1x1024x2048, wpiece W 0 slices_S1024x6144_S1024x2048_0_0⟩,
     ⟨S1x1024x2048, wpiece W 2048 slices_S1024x6144_S1024x2048_0_2048⟩,
     ⟨S1x1024x2048, wpiece W 4096 slices_S1024x6144_S1024x2048_0_4096⟩]
    concatenates_S1x1024x2048_S1x1024x2048_S1x1024x2048_S3x1024x2048_d0

/-- The place to gather for each sorted position: a negative word wrapped by 25, as a column. -/
def wrapCol (ord : IVec S25 32) : IVec S25x1 32 :=
  broadcastInDim S25x1 ![0] bcast_S25_S25x1_0
    (select (cmpi .slt ord (broadcastInDim S25 ![] bcast_S_S25 (constantI S_ 32 0#32)))
      (addi ord (broadcastInDim S25 ![] bcast_S_S25 (constantI S_ 32 25#32))) ord)

/-- The support embeddings' rows gathered in the order `ord` and grouped five to a class. -/
def grp (T : S25x56x1024.Idx → EReal) (ord : IVec S25 32) : S5x280x1024.Idx → EReal :=
  shapeCast S5x280x1024
    (shapeCast S5x5x56x1024
      (Host.gather gather_S25x56x1024_S25x1_S25x56x1024_12_0_n_n_0_1_1561024 T (wrapCol ord))
      shapeCasts_S25x56x1024_S5x5x56x1024)
    shapeCasts_S5x5x56x1024_S5x280x1024

variable (V : Valuation τ sig (Elt Ideal))

/-- The first stretch leaves the stacked weights of what it found in the weights' array. -/
theorem after0_v7 : (StableHlo.after (hostOps0 (F := Ideal)) V (Proc.devRef .tc main_v7) : S3x1024x2048.Idx → EReal)
    = stackW (V (Proc.devRef .tc main_arg3)) := by
  after_results3
  rfl

/-- The first stretch leaves the bias as one row. -/
theorem after0_v8 : (StableHlo.after (hostOps0 (F := Ideal)) V (Proc.devRef .tc main_v8) : S1x1024.Idx → EReal)
    = shapeCast S1x1024 (V (Proc.devRef .tc main_arg4) : S1024.Idx → EReal) shapeCasts_S1024_S1x1024 := by
  after_results3
  rfl

/-- The sorting and the grouping stretches leave the grouped rows of what they found in the support embeddings' array,
    in the sorted order of what they found in the labels' array. -/
theorem after2_v20 : (StableHlo.after (hostOps2_1 (F := Ideal)) (StableHlo.after hostOps2 V) (Proc.devRef .tc main_v20) : S5x280x1024.Idx → EReal)
    = grp (V (Proc.devRef .tc main_v10)) (kord (V (Proc.devRef .tc main_arg1))) := by
  after_results3
  simp only [StableHlo.TRef.ofBuf, StableHlo.TRef.toBuf, cast_eq]
  rfl

/-! ## Three arrays with a unit leading axis laid along that axis -/

section Cat3
variable {α : Type} {n w : Nat}

/-- Read in the first piece. -/
theorem cat3_lead_fst (X0 X1 X2 : (⟨3, ![1, n, w]⟩ : Shape).Idx → α)
    (h : Shape.Concatenates [(⟨3, ![1, n, w]⟩ : Shape), ⟨3, ![1, n, w]⟩, ⟨3, ![1, n, w]⟩] ⟨3, ![3, n, w]⟩ 0)
    (p : Fin 3) (hp : p.val = 0) (r : Fin n) (c : Fin w) :
    concatenate ⟨3, ![3, n, w]⟩ 0 [⟨⟨3, ![1, n, w]⟩, X0⟩, ⟨⟨3, ![1, n, w]⟩, X1⟩, ⟨⟨3, ![1, n, w]⟩, X2⟩] h (ix3 p r c) = X0 (ix3 (0 : Fin 1) r c) :=
  concatenate_apply_piece (t := (⟨3, ![3, n, w]⟩ : Shape)) (0 : Fin 3) ([⟨⟨3, ![1, n, w]⟩, X0⟩, ⟨⟨3, ![1, n, w]⟩, X1⟩, ⟨⟨3, ![1, n, w]⟩, X2⟩] : List ((s : Shape) × (s.Idx → α))) h (ix3 p r c) 0 (by show (0 : ℕ) < 3; omega) ⟨3, ![1, n, w]⟩ X0 rfl rfl 0 rfl (ix3 (0 : Fin 1) r c)
    (fun b hb => by match b with | ⟨0, _⟩ => exact absurd rfl hb | ⟨1, _⟩ => rfl | ⟨2, _⟩ => rfl) (by show 0 + 0 = p.val; omega)

/-- Read in the second piece. -/
theorem cat3_lead_snd (X0 X1 X2 : (⟨3, ![1, n, w]⟩ : Shape).Idx → α)
    (h : Shape.Concatenates [(⟨3, ![1, n, w]⟩ : Shape), ⟨3, ![1, n, w]⟩, ⟨3, ![1, n, w]⟩] ⟨3, ![3, n, w]⟩ 0)
    (p : Fin 3) (hp : p.val = 1) (r : Fin n) (c : Fin w) :
    concatenate ⟨3, ![3, n, w]⟩ 0 [⟨⟨3, ![1, n, w]⟩, X0⟩, ⟨⟨3, ![1, n, w]⟩, X1⟩, ⟨⟨3, ![1, n, w]⟩, X2⟩] h (ix3 p r c) = X1 (ix3 (0 : Fin 1) r c) :=
  concatenate_apply_piece (t := (⟨3, ![3, n, w]⟩ : Shape)) (0 : Fin 3) ([⟨⟨3, ![1, n, w]⟩, X0⟩, ⟨⟨3, ![1, n, w]⟩, X1⟩, ⟨⟨3, ![1, n, w]⟩, X2⟩] : List ((s : Shape) × (s.Idx → α))) h (ix3 p r c) 1 (by show (1 : ℕ) < 3; omega) ⟨3, ![1, n, w]⟩ X1 rfl rfl 1 rfl (ix3 (0 : Fin 1) r c)
    (fun b hb => by match b with | ⟨0, _⟩ => exact absurd rfl hb | ⟨1, _⟩ => rfl | ⟨2, _⟩ => rfl) (by show 1 + 0 = p.val; omega)

/-- Read in the third piece. -/
theorem cat3_lead_trd (X0 X1 X2 : (⟨3, ![1, n, w]⟩ : Shape).Idx → α)
    (h : Shape.Concatenates [(⟨3, ![1, n, w]⟩ : Shape), ⟨3, ![1, n, w]⟩, ⟨3, ![1, n, w]⟩] ⟨3, ![3, n, w]⟩ 0)
    (p : Fin 3) (hp : p.val = 2) (r : Fin n) (c : Fin w) :
    concatenate ⟨3, ![3, n, w]⟩ 0 [⟨⟨3, ![1, n, w]⟩, X0⟩, ⟨⟨3, ![1, n, w]⟩, X1⟩, ⟨⟨3, ![1, n, w]⟩, X2⟩] h (ix3 p r c) = X2 (ix3 (0 : Fin 1) r c) :=
  concatenate_apply_piece (t := (⟨3, ![3, n, w]⟩ : Shape)) (0 : Fin 3) ([⟨⟨3, ![1, n, w]⟩, X0⟩, ⟨⟨3, ![1, n, w]⟩, X1⟩, ⟨⟨3, ![1, n, w]⟩, X2⟩] : List ((s : Shape) × (s.Idx → α))) h (ix3 p r c) 2 (by show (2 : ℕ) < 3; omega) ⟨3, ![1, n, w]⟩ X2 rfl rfl (1 + 1) rfl (ix3 (0 : Fin 1) r c)
    (fun b hb => by match b with | ⟨0, _⟩ => exact absurd rfl hb | ⟨1, _⟩ => rfl | ⟨2, _⟩ => rfl) (by show 1 + 1 + 0 = p.val; omega)

end Cat3

/-! ## The functions read at an index -/

/-- One column block read at (u, o, d): the weights at (o, off + d). -/
theorem wpiece_apply (W : S1024x6144.Idx → EReal) (off : ℕ) (h : S1024x6144.Slices ![0, off] S1024x2048)
    (u : Fin 1) (o : Fin 1024) (d : Fin 2048) (k : Fin 6144) (hk : k.val = off + d.val) :
    wpiece W off h (ix3 u o d) = W (ix2 o k) := by
  unfold wpiece
  refine (broadcastInDim_apply _ _ _ (ix3 u o d) (ix2 o d) (fun a => ?_)).trans (slice2_axis1_apply off W h o d k hk)
  match a with
  | ⟨0, _⟩ =>
    show o.val = if (1024 : ℕ) = 1 then 0 else o.val
    rw [if_neg (by decide)]
  | ⟨1, _⟩ =>
    show d.val = if (2048 : ℕ) = 1 then 0 else d.val
    rw [if_neg (by decide)]

/-- The stacked weights at (p, o, d): the weights at (o, 2048 p + d). -/
theorem stackW_apply (W : S1024x6144.Idx → EReal) (p : Fin 3) (o : Fin 1024) (d : Fin 2048) :
    stackW W (ix3 p o d) = W (ix2 o ⟨2048 * p.val + d.val, by omega⟩) := by
  unfold stackW
  match p with
  | ⟨0, hp⟩ =>
    exact (cat3_lead_fst _ _ _ _ ⟨0, hp⟩ rfl o d).trans
      (wpiece_apply W 0 _ 0 o d _ (by show 2048 * 0 + d.val = 0 + d.val; omega))
  | ⟨1, hp⟩ =>
    exact (cat3_lead_snd _ _ _ _ ⟨1, hp⟩ rfl o d).trans
      (wpiece_apply W 2048 _ 0 o d _ (by show 2048 * 1 + d.val = 2048 + d.val; omega))
  | ⟨2, hp⟩ =>
    exact (cat3_lead_trd _ _ _ _ ⟨2, hp⟩ rfl o d).trans
      (wpiece_apply W 4096 _ 0 o d _ (by show 2048 * 2 + d.val = 4096 + d.val; omega))

/-- The place gathered for sorted position e: the word there, wrapped by 25 if negative. -/
theorem wrapCol_apply (ord : IVec S25 32) (e : Fin 25) :
    wrapCol ord (ix2 e (0 : Fin 1))
      = Scalar.select (IntOp.cmpi .slt (ord (ix1 e)) 0#32) (IntOp.addi (ord (ix1 e)) 25#32) (ord (ix1 e)) := by
  unfold wrapCol
  refine (broadcastInDim_apply _ _ _ (ix2 e (0 : Fin 1)) (ix1 e) (fun a => ?_)).trans rfl
  match a with
  | ⟨0, _⟩ =>
    show e.val = if (25 : ℕ) = 1 then 0 else e.val
    rw [if_neg (by decide)]

/-- The grouped rows at (k, s, o): row `clsRow ord k s`, tuple `clsTup s` of the table. -/
theorem grp_apply (T : S25x56x1024.Idx → EReal) (ord : IVec S25 32) (k : Fin 5) (s : Fin 280) (o : Fin 1024) :
    grp T ord (ix3 k s o) = T (ix3 (Cert.Spec.clsRow ord k s) (Cert.Spec.clsTup s) o) := by
  have hs := s.isLt
  have hk := k.isLt
  unfold grp
  refine (shapeCast_apply _ _ (ix3 k s o)
    (ix4 k (⟨s.val / 56, by omega⟩ : Fin 5) (⟨s.val % 56, Nat.mod_lt _ (by norm_num)⟩ : Fin 56) o) ?_).trans ?_
  · rw [Shape.rowMajor_val_four, Shape.rowMajor_val_three]
    show ((k.val * 5 + s.val / 56) * 56 + s.val % 56) * 1024 + o.val = (k.val * 280 + s.val) * 1024 + o.val
    omega
  refine (shapeCast_apply _ _ (ix4 k (⟨s.val / 56, by omega⟩ : Fin 5) (⟨s.val % 56, Nat.mod_lt _ (by norm_num)⟩ : Fin 56) o)
    (ix3 (⟨5 * k.val + s.val / 56, by omega⟩ : Fin 25) (⟨s.val % 56, Nat.mod_lt _ (by norm_num)⟩ : Fin 56) o) ?_).trans ?_
  · rw [Shape.rowMajor_val_four, Shape.rowMajor_val_three]
    show ((5 * k.val + s.val / 56) * 56 + s.val % 56) * 1024 + o.val = ((k.val * 5 + s.val / 56) * 56 + s.val % 56) * 1024 + o.val
    omega
  refine (Cert.Bridge.GS3.gather3_apply (by norm_num) gather_S25x56x1024_S25x1_S25x56x1024_12_0_n_n_0_1_1561024 rfl rfl rfl rfl rfl
    T (wrapCol ord) (⟨5 * k.val + s.val / 56, by omega⟩ : Fin 25) (⟨s.val % 56, Nat.mod_lt _ (by norm_num)⟩ : Fin 56) o).trans ?_
  refine congrArg (fun r : Fin 25 => T (ix3 r (Cert.Spec.clsTup s) o)) (Fin.ext ?_)
  show min (wrapCol ord (ix2 (⟨5 * k.val + s.val / 56, by omega⟩ : Fin 25) (0 : Fin 1))).toInt.toNat (25 - 1)
    = (Cert.Spec.clsRow ord k s).val
  rw [wrapCol_apply]
  rfl

/-! ## The boundary contents read at an index -/

/-- The stacked weights the embedding regions read. -/
theorem W1_v7 (p : Fin 3) (o : Fin 1024) (d : Fin 2048) :
    (W1 m ρ c (Proc.devRef .tc main_v7) : S3x1024x2048.Idx → EReal) (ix3 p o d)
      = m ((c : Thread nD τ).loc main_arg3) (ix2 o ⟨2048 * p.val + d.val, by omega⟩) := by
  show (StableHlo.after (hostOps0 (F := Ideal)) (W0 m ρ c) (Proc.devRef .tc main_v7) : S3x1024x2048.Idx → EReal) (ix3 p o d) = _
  rw [after0_v7]
  exact stackW_apply _ p o d

/-- The bias row the embedding regions read. -/
theorem W1_v8 (o : Fin 1024) :
    (W1 m ρ c (Proc.devRef .tc main_v8) : S1x1024.Idx → EReal) (ix2 0 o) = m ((c : Thread nD τ).loc main_arg4) (ix1 o) := by
  show (StableHlo.after (hostOps0 (F := Ideal)) (W0 m ρ c) (Proc.devRef .tc main_v8) : S1x1024.Idx → EReal) (ix2 0 o) = _
  rw [after0_v8]
  exact shapeCast_a_1a_apply _ _ 0 o

/-- The class rows the distances region reads: rows of the support embeddings, in the sorted order of the labels. -/
theorem W5_v20 (k : Fin 5) (s : Fin 280) (o : Fin 1024) :
    (W5 m ρ c (Proc.devRef .tc main_v20) : S5x280x1024.Idx → EReal) (ix3 k s o)
      = (W3 m ρ c (Proc.devRef .tc main_v10) : S25x56x1024.Idx → EReal)
          (ix3 (Cert.Spec.clsRow (kord (m ((c : Thread nD τ).loc main_arg1))) k s) (Cert.Spec.clsTup s) o) := by
  show (StableHlo.after (hostOps2_1 (F := Ideal)) (StableHlo.after hostOps2 (W3 m ρ c)) (Proc.devRef .tc main_v20) : S5x280x1024.Idx → EReal) (ix3 k s o) = _
  rw [after2_v20, W3_arg1 m ρ c]
  exact grp_apply _ _ k s o

end Cert.KernelIdeal.Val
end
-- ==== Proof.EmbedBlock.lean ====
/-
  The first embedding call's output block, read at an index, at the ideal values.

  The body truncates the clips block to the weights' format (the identity on the extended reals), flattens clips and
  frames into 320 rows (row 8 n + f is frame f of clip n), multiplies the rows by each of the three weight blocks
  (contracting the 2048 features, into a zero accumulator), and reads the three products back as [40, 8, 1024]: each
  product at (n, f, o) is the sum over d of x[n, f, d] w[o, d]. The row of the triple (i, j, k) at (n, o) is the
  maximum of p0[n, i, o] + p1[n, j, o] + p2[n, k, o] + bias[o] and zero; the 56 rows lie side by side along the tuple
  axis, row t being that of the t-th triple. With the three weight blocks read off the stacked weights (block p at
  (o, d) is the stack at (p, o, d)) this is the specification's embedding.
-/
import proofs.«102215_j23794118820340_1_alg».proof.Proof.EmbedQRegion
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Frame Idealize.ShloMosaic Idealize.ShloMosaic.ValueIdx

/-! ## The matrix product at an index -/

theorem dot320_contr_rank : dot_S320x2048_S1024x2048_S320x1024_1_1_0_0_n_n.contr.rank = 1 := rfl
theorem dot320_contr_size : dot_S320x2048_S1024x2048_S320x1024_1_1_0_0_n_n.contr.size ⟨0, by rw [dot320_contr_rank]; exact Nat.one_pos⟩ = 2048 := rfl

theorem lhs_dot320_0 (j : S320x1024.Idx) (k : dot_S320x2048_S1024x2048_S320x1024_1_1_0_0_n_n.contr.Idx) :
    ((dot_S320x2048_S1024x2048_S320x1024_1_1_0_0_n_n.lhsIdx j k) 0).val = (j 0).val := by
  simp [DotDims.lhsIdx, dot_S320x2048_S1024x2048_S320x1024_1_1_0_0_n_n]; rfl

theorem lhs_dot320_1 (j : S320x1024.Idx) (k : dot_S320x2048_S1024x2048_S320x1024_1_1_0_0_n_n.contr.Idx) :
    ((dot_S320x2048_S1024x2048_S320x1024_1_1_0_0_n_n.lhsIdx j k) 1).val = (k ⟨0, by rw [dot320_contr_rank]; exact Nat.one_pos⟩).val :=
  DotDims.lhsIdx_val_of_single dot_S320x2048_S1024x2048_S320x1024_1_1_0_0_n_n (cl := 1) rfl j k

theorem rhs_dot320_0 (j : S320x1024.Idx) (k : dot_S320x2048_S1024x2048_S320x1024_1_1_0_0_n_n.contr.Idx) :
    ((dot_S320x2048_S1024x2048_S320x1024_1_1_0_0_n_n.rhsIdx j k) 0).val = (j 1).val := by
  simp [DotDims.rhsIdx, dot_S320x2048_S1024x2048_S320x1024_1_1_0_0_n_n]; rfl

theorem rhs_dot320_1 (j : S320x1024.Idx) (k : dot_S320x2048_S1024x2048_S320x1024_1_1_0_0_n_n.contr.Idx) :
    ((dot_S320x2048_S1024x2048_S320x1024_1_1_0_0_n_n.rhsIdx j k) 1).val = (k ⟨0, by rw [dot320_contr_rank]; exact Nat.one_pos⟩).val :=
  DotDims.rhsIdx_val_of_single dot_S320x2048_S1024x2048_S320x1024_1_1_0_0_n_n (cr := 1) rfl j k

/-- The product of a [320, 2048] array with a [1024, 2048] array contracted on their second axes, into the zero
    accumulator, at (p, o): the sum over d of l[p, d] r[o, d]. -/
theorem matmul320_apply (l : FVec Ideal S320x2048 .bf16) (r : FVec Ideal S1024x2048 .bf16) (p : Fin 320) (o : Fin 1024) :
    matmul dot_S320x2048_S1024x2048_S320x1024_1_1_0_0_n_n none l r (constant (F := Ideal) S320x1024 .f32 0x00000000#32) (ix2 p o)
      = ∑ d : Fin 2048, l (ix2 p d) * r (ix2 o d) := by
  refine (Ideal.matmul_constant_zero_apply dot_S320x2048_S1024x2048_S320x1024_1_1_0_0_n_n none l r (ix2 p o)).trans ?_
  rw [← Equiv.sum_comp (contrEquiv1 dot_S320x2048_S1024x2048_S320x1024_1_1_0_0_n_n 2048 dot320_contr_rank dot320_contr_size).symm]
  refine Finset.sum_congr rfl fun d _ => ?_
  have hk := contrEquiv1_symm_val dot_S320x2048_S1024x2048_S320x1024_1_1_0_0_n_n 2048 dot320_contr_rank dot320_contr_size d
  congr 1
  · refine congrArg l (funext fun a => Fin.ext ?_)
    match a with
    | ⟨0, _⟩ => exact lhs_dot320_0 _ _
    | ⟨1, _⟩ => exact (lhs_dot320_1 _ _).trans hk
  · refine congrArg r (funext fun a => Fin.ext ?_)
    match a with
    | ⟨0, _⟩ => exact rhs_dot320_0 _ _
    | ⟨1, _⟩ => exact (rhs_dot320_1 _ _).trans hk

/-! ## The flattened clips and the three per-position products at an index -/

/-- Row 8 n + f of the [320, ·] arrays is frame f of clip n. -/
def emb0_row (n : Fin 40) (f : Fin 8) : Fin 320 := ⟨8 * n.val + f.val, by have := n.isLt; have := f.isLt; omega⟩

theorem k0_pay2_apply (x : Vec Ideal S40x8x2048 .f32) (n : Fin 40) (f : Fin 8) (d : Fin 2048) :
    k0_pay2 (F := Ideal) x (ix2 (emb0_row n f) d) = x (ix3 n f d) := by
  unfold k0_pay2
  refine (shapeCast_apply _ _ (ix2 (emb0_row n f) d) (ix3 n f d) ?_).trans ?_
  · rw [Shape.rowMajor_val_three, Shape.rowMajor_val_two]
    show (n.val * 8 + f.val) * 2048 + d.val = (8 * n.val + f.val) * 2048 + d.val
    omega
  · rfl

/-- A per-position product at (n, f, o): frame f of clip n against row o of the weight block. -/
theorem k0_pay3_apply (x : Vec Ideal S40x8x2048 .f32) (w : Vec Ideal S1x1024x2048 .bf16) (n : Fin 40) (f : Fin 8) (o : Fin 1024) :
    k0_pay3 (F := Ideal) x w (ix3 n f o) = ∑ d : Fin 2048, x (ix3 n f d) * w (ix3 (0 : Fin 1) o d) := by
  unfold k0_pay3
  refine (shapeCast_apply _ _ (ix3 n f o) (ix2 (emb0_row n f) o) ?_).trans ?_
  · rw [Shape.rowMajor_val_two, Shape.rowMajor_val_three]
    show (8 * n.val + f.val) * 1024 + o.val = (n.val * 8 + f.val) * 1024 + o.val
    omega
  refine (matmul320_apply _ _ _ _).trans ?_
  refine Finset.sum_congr rfl fun d _ => ?_
  rw [k0_pay2_apply, shapeCast_1ab_ab_apply]

theorem k0_pay4_apply (x : Vec Ideal S40x8x2048 .f32) (w : Vec Ideal S1x1024x2048 .bf16) (n : Fin 40) (f : Fin 8) (o : Fin 1024) :
    k0_pay4 (F := Ideal) x w (ix3 n f o) = ∑ d : Fin 2048, x (ix3 n f d) * w (ix3 (0 : Fin 1) o d) :=
  k0_pay3_apply x w n f o

theorem k0_pay5_apply (x : Vec Ideal S40x8x2048 .f32) (w : Vec Ideal S1x1024x2048 .bf16) (n : Fin 40) (f : Fin 8) (o : Fin 1024) :
    k0_pay5 (F := Ideal) x w (ix3 n f o) = ∑ d : Fin 2048, x (ix3 n f d) * w (ix3 (0 : Fin 1) o d) :=
  k0_pay3_apply x w n f o

theorem k0_pay6_eq (b : Vec Ideal S1x1024 .f32) : k0_pay6 (F := Ideal) b = b := shapeCast_self b _

/-! ## One triple's row at an index -/

/-- Frame i of a [40, 8, 1024] array, flattened to [40, 1024], at (n, o). -/
theorem emb0_frame_apply (p : FVec Ideal S40x8x1024 .f32) (i : Fin 8) (n : Fin 40) (o : Fin 1024) :
    shapeCast S40x1024 (extractStridedSlice S40x1x1024 ![0, i.val, 0] p (frameSlice0 i)) shapeCasts_S40x1x1024_S40x1024 (ix2 n o)
      = p (ix3 n i o) := by
  refine (shapeCast_apply _ _ (ix2 n o) (ix3 n (0 : Fin 1) o) ?_).trans ?_
  · rw [Shape.rowMajor_val_three, Shape.rowMajor_val_two]
    show (n.val * 1 + 0) * 1024 + o.val = n.val * 1024 + o.val
    omega
  · exact slice3_axis1_apply i.val p (frameSlice0 i) n (0 : Fin 1) o i (by show i.val = i.val + 0; omega)

theorem tup0_apply (p0 p1 p2 : FVec Ideal S40x8x1024 .f32) (bias : FVec Ideal S1x1024 .f32) (i j k : Fin 8)
    (n : Fin 40) (u : Fin 1) (o : Fin 1024) :
    tup0 p0 p1 p2 bias i j k (ix3 n u o)
      = max (p0 (ix3 n i o) + p1 (ix3 n j o) + p2 (ix3 n k o) + bias (ix2 (0 : Fin 1) o)) 0 := by
  unfold tup0
  refine (shapeCast_apply _ _ (ix3 n u o) (ix2 n o) ?_).trans ?_
  · have hu : u.val = 0 := by omega
    rw [Shape.rowMajor_val_two, Shape.rowMajor_val_three]
    show n.val * 1024 + o.val = (n.val * 1 + u.val) * 1024 + o.val
    rw [hu]; omega
  rw [truncf_apply, maximumf_apply, addf_apply, addf_apply, addf_apply, emb0_frame_apply, emb0_frame_apply, emb0_frame_apply,
    broadcastTo_1b_ab_apply, broadcast_apply]
  show max _ (Ideal.ofBits .f32 0x00000000#32) = _
  rw [Ideal.ofBits_zero_f32]

/-! ## The 56 rows side by side -/

theorem val0_apply (x : Vec Ideal S40x8x2048 .f32) (w0 w1 w2 : Vec Ideal S1x1024x2048 .bf16) (b : Vec Ideal S1x1024 .f32)
    (n : Fin 40) (t : Fin 56) (o : Fin 1024) :
    val0 x w0 w1 w2 b (ix3 n t o)
      = tup0 (k0_pay3 x w0) (k0_pay4 x w1) (k0_pay5 x w2) (k0_pay6 b)
          (Cert.Spec.combo t 0) (Cert.Spec.combo t 1) (Cert.Spec.combo t 2) (ix3 n (0 : Fin 1) o) := by
  unfold val0 pieces0
  refine concatenate_ofFn_unit_apply (t := S40x56x1024) (s₁ := S40x1x1024) 1
    (fun t : Fin 56 => tup0 (k0_pay3 x w0) (k0_pay4 x w1) (k0_pay5 x w2) (k0_pay6 b)
      (Cert.Spec.combo t 0) (Cert.Spec.combo t 1) (Cert.Spec.combo t 2))
    _ rfl rfl (ix3 n t o) t rfl (ix3 n (0 : Fin 1) o) (fun bx hb => ?_)
  match bx with
  | ⟨0, _⟩ => rfl
  | ⟨1, _⟩ => exact absurd rfl hb
  | ⟨2, _⟩ => rfl

/-! ## The loads -/

theorem emb0_hz3 : (![0, 0, 0] : Fin 3 → Nat) = fun _ => 0 := funext fun a => by fin_cases a <;> rfl
theorem emb0_hz2 : (![0, 0] : Fin 2 → Nat) = fun _ => 0 := funext fun a => by fin_cases a <;> rfl

theorem ld_rw0_apply (x1 : Vec Ideal S3x1024x2048 .bf16) (o : Fin 1024) (d : Fin 2048) :
    View.ld x1 rw0 (ix3 (0 : Fin 1) o d) = x1 (ix3 (0 : Fin 3) o d) :=
  congrArg x1 (funext fun a => Fin.ext (match a with
    | ⟨0, _⟩ => by show 0 + 1 * 0 = 0; omega
    | ⟨1, _⟩ => by show 0 + 1 * o.val = o.val; omega
    | ⟨2, _⟩ => by show 0 + 1 * d.val = d.val; omega))

theorem ld_rw1_apply (x1 : Vec Ideal S3x1024x2048 .bf16) (o : Fin 1024) (d : Fin 2048) :
    View.ld x1 rw1 (ix3 (0 : Fin 1) o d) = x1 (ix3 (1 : Fin 3) o d) :=
  congrArg x1 (funext fun a => Fin.ext (match a with
    | ⟨0, _⟩ => by show 1 + 1 * 0 = 1; omega
    | ⟨1, _⟩ => by show 0 + 1 * o.val = o.val; omega
    | ⟨2, _⟩ => by show 0 + 1 * d.val = d.val; omega))

theorem ld_rw2_apply (x1 : Vec Ideal S3x1024x2048 .bf16) (o : Fin 1024) (d : Fin 2048) :
    View.ld x1 rw2 (ix3 (0 : Fin 1) o d) = x1 (ix3 (2 : Fin 3) o d) :=
  congrArg x1 (funext fun a => Fin.ext (match a with
    | ⟨0, _⟩ => by show 2 + 1 * 0 = 2; omega
    | ⟨1, _⟩ => by show 0 + 1 * o.val = o.val; omega
    | ⟨2, _⟩ => by show 0 + 1 * d.val = d.val; omega))

/-- The three products over the three weight blocks as the body loads them. -/
theorem pay3_rw0_apply (x : Vec Ideal S40x8x2048 .f32) (x1 : Vec Ideal S3x1024x2048 .bf16) (n : Fin 40) (f : Fin 8) (o : Fin 1024) :
    k0_pay3 (F := Ideal) x (View.ld x1 rw0) (ix3 n f o) = ∑ d : Fin 2048, x (ix3 n f d) * x1 (ix3 (0 : Fin 3) o d) :=
  (k0_pay3_apply x _ n f o).trans (Finset.sum_congr rfl fun d _ => congrArg (x (ix3 n f d) * ·) (ld_rw0_apply x1 o d))

theorem pay4_rw1_apply (x : Vec Ideal S40x8x2048 .f32) (x1 : Vec Ideal S3x1024x2048 .bf16) (n : Fin 40) (f : Fin 8) (o : Fin 1024) :
    k0_pay4 (F := Ideal) x (View.ld x1 rw1) (ix3 n f o) = ∑ d : Fin 2048, x (ix3 n f d) * x1 (ix3 (1 : Fin 3) o d) :=
  (k0_pay4_apply x _ n f o).trans (Finset.sum_congr rfl fun d _ => congrArg (x (ix3 n f d) * ·) (ld_rw1_apply x1 o d))

theorem pay5_rw2_apply (x : Vec Ideal S40x8x2048 .f32) (x1 : Vec Ideal S3x1024x2048 .bf16) (n : Fin 40) (f : Fin 8) (o : Fin 1024) :
    k0_pay5 (F := Ideal) x (View.ld x1 rw2) (ix3 n f o) = ∑ d : Fin 2048, x (ix3 n f d) * x1 (ix3 (2 : Fin 3) o d) :=
  (k0_pay5_apply x _ n f o).trans (Finset.sum_congr rfl fun d _ => congrArg (x (ix3 n f d) * ·) (ld_rw2_apply x1 o d))

/-! ## The block the body stores, at an index -/

/-- The output block of the first embedding call at (n, t, o) is the specification's embedding of tuple t of clip n of
    the clips block, over the stacked weights and the bias row. -/
theorem out0_3_apply (x0 : Vec Ideal S40x8x2048 .f32) (x1 : Vec Ideal S3x1024x2048 .bf16) (x2 : Vec Ideal S1x1024 .f32)
    (n : Fin 40) (t : Fin 56) (o : Fin 1024) :
    out0_3 (F := Ideal) x0 x1 x2 (ix3 n t o) = Cert.Spec.emb3 x0 x1 x2 n t o := by
  unfold out0_3
  rw [View.canon_unit_zero emb0_hz3, View.ld_unit_zero (S := S40x8x2048) emb0_hz3, View.ld_unit_zero (S := S1x1024) emb0_hz2]
  rw [val0_apply, tup0_apply, pay3_rw0_apply, pay4_rw1_apply, pay5_rw2_apply, k0_pay6_eq]
  rfl

end Cert.KernelIdeal.Val

end
-- ==== Proof.EmbedArray.lean ====
/-
  From the blocks of the first pallas_call to its result array, on the extended reals. Each of the grid's ten points
  writes back one block of 40 clips: the embedding (Spec.emb3) of clips 40 t … 40 t + 39 of the clips' array with the
  whole stacked weights and the whole bias row. That is block t of one function of the arrays as the region finds them,
  and the ten blocks cover the result, so the result's array ends holding that function at every index.
-/
import proofs.«102215_j23794118820340_1_alg».proof.Proof.EmbedQRegion
import proofs.«102215_j23794118820340_1_alg».proof.Proof.EmbedBlock
import Idealize.ShloMosaic.Lib.Pipeline.Value
import Idealize.ShloMosaic.Lib.ValueIdx

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The printed index maps over the grid: the clips' and the result's blocks move with the point along the clip axis,
    the weights' and the bias's stay. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The clips' block at point t is clips 40 t … 40 t + 39 of the array. -/
theorem iblk0_0_apply (c : Dev nD) (t : Fin cfg0.N) (p : Fin 40) (f : Fin 8) (d : Fin 2048) (n : Fin 400)
    (hn : n.val = 40 * t.val + p.val) :
    (iblk0 V c 0 t : Vec Ideal S40x8x2048 .f32) (ix3 p f d) = (V c main_arg2 : S400x8x2048.Idx → EReal) (ix3 n f d) := by
  obtain ⟨e0, e1, e2, -⟩ := idx_facts0 t
  unfold iblk0
  rw [View.read_apply]
  show V c main_arg2 _ = V c main_arg2 _
  congr 1
  funext a
  apply Fin.ext
  match a with
  | ⟨0, _⟩ => show win0_0.index t (0 : Fin 3) * 40 + 1 * p.val = n.val; rw [e0, hn]; omega
  | ⟨1, _⟩ => show win0_0.index t (1 : Fin 3) * 8 + 1 * f.val = f.val; rw [e1]; omega
  | ⟨2, _⟩ => show win0_0.index t (2 : Fin 3) * 2048 + 1 * d.val = d.val; rw [e2]; omega

/-- The weights' block at every point is the whole stacked weights. -/
theorem iblk0_1_eq (c : Dev nD) (t : Fin cfg0.N) :
    (iblk0 V c 1 t : Vec Ideal S3x1024x2048 .bf16) = (V c main_v7 : S3x1024x2048.Idx → EReal) := by
  obtain ⟨-, -, -, e0, e1, e2, -⟩ := idx_facts0 t
  funext j
  unfold iblk0
  rw [View.read_apply]
  show V c main_v7 _ = V c main_v7 _
  congr 1
  funext a
  apply Fin.ext
  match a with
  | ⟨0, _⟩ => show win0_1.index t (0 : Fin 3) * 3 + 1 * (j 0).val = (j 0).val; rw [e0]; omega
  | ⟨1, _⟩ => show win0_1.index t (1 : Fin 3) * 1024 + 1 * (j 1).val = (j 1).val; rw [e1]; omega
  | ⟨2, _⟩ => show win0_1.index t (2 : Fin 3) * 2048 + 1 * (j 2).val = (j 2).val; rw [e2]; omega

/-- The bias's block at every point is the whole bias row. -/
theorem iblk0_2_eq (c : Dev nD) (t : Fin cfg0.N) :
    (iblk0 V c 2 t : Vec Ideal S1x1024 .f32) = (V c main_v8 : S1x1024.Idx → EReal) := by
  obtain ⟨-, -, -, -, -, -, e0, e1, -⟩ := idx_facts0 t
  funext j
  unfold iblk0
  rw [View.read_apply]
  show V c main_v8 _ = V c main_v8 _
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 1024 + 1 * (j 1).val = (j 1).val; rw [e1]; omega

/-- The embedding of clip n reads the clips' array at clip n only. -/
theorem emb3_congr {N M : Nat} (x : (⟨3, ![N, 8, 2048]⟩ : Shape).Idx → EReal) (x' : (⟨3, ![M, 8, 2048]⟩ : Shape).Idx → EReal)
    (ws : (⟨3, ![3, 1024, 2048]⟩ : Shape).Idx → EReal) (b2 : (⟨2, ![1, 1024]⟩ : Shape).Idx → EReal)
    (n : Fin N) (n' : Fin M) (hx : ∀ (f : Fin 8) (d : Fin 2048), x (ix3 n f d) = x' (ix3 n' f d)) (t : Fin 56) (o : Fin 1024) :
    Cert.Spec.emb3 x ws b2 n t o = Cert.Spec.emb3 x' ws b2 n' t o := by
  unfold Cert.Spec.emb3
  simp only [hx]

/-- What the result's array ends holding: the embedding of every tuple of every query clip. -/
abbrev G0 (c : Dev nD) : S400x56x1024.Idx → EReal := fun j =>
  Cert.Spec.emb3 (V c main_arg2 : S400x8x2048.Idx → EReal) (V c main_v7 : S3x1024x2048.Idx → EReal)
    (V c main_v8 : S1x1024.Idx → EReal) (j 0) (j 1) (j 2)

/-- The body's result at point t, read at (p, tuple, o), is the embedding of clip 40 t + p. -/
theorem out0_3_blocks (c : Dev nD) (t : Fin cfg0.N) (p : Fin 40) (tt : Fin 56) (o : Fin 1024) (n : Fin 400)
    (hn : n.val = 40 * t.val + p.val) :
    out0_3 (F := Ideal) (iblk0 V c 0 t) (iblk0 V c 1 t) (iblk0 V c 2 t) (ix3 p tt o)
      = Cert.Spec.emb3 (V c main_arg2 : S400x8x2048.Idx → EReal) (V c main_v7 : S3x1024x2048.Idx → EReal)
          (V c main_v8 : S1x1024.Idx → EReal) n tt o := by
  rw [out0_3_apply, iblk0_1_eq, iblk0_2_eq]
  exact emb3_congr _ _ _ _ p n (fun f d => iblk0_0_apply V c t p f d n hn) tt o

/-- The body's result at point t, read at a block index, is G0 read where the block's index lies in the array. -/
theorem flushed0_pt (c : Dev nD) (t : Fin cfg0.N) (y : S40x56x1024.Idx) :
    out0_3 (F := Ideal) (iblk0 V c 0 t) (iblk0 V c 1 t) (iblk0 V c 2 t) y = G0 V c (((cfg0.win 3).blk t).view.emb y) := by
  obtain ⟨-, -, -, -, -, -, -, -, e0, e1, e2⟩ := idx_facts0 t
  obtain ⟨p, tt, o, rfl⟩ : ∃ (p : Fin 40) (tt : Fin 56) (o : Fin 1024), y = ix3 p tt o := ⟨y 0, y 1, y 2, eq_ix3 y⟩
  have ht : t.val < 10 := t.isLt
  rw [out0_3_blocks V c t p tt o ⟨40 * t.val + p.val, by omega⟩ rfl]
  have h0 : (((cfg0.win 3).blk t).view.emb (ix3 p tt o)) 0 = (⟨40 * t.val + p.val, by omega⟩ : Fin 400) :=
    Fin.ext (by show win0_3.index t (0 : Fin 3) * 40 + 1 * p.val = 40 * t.val + p.val; rw [e0]; omega)
  have h1 : (((cfg0.win 3).blk t).view.emb (ix3 p tt o)) 1 = tt :=
    Fin.ext (by show win0_3.index t (1 : Fin 3) * 56 + 1 * tt.val = tt.val; rw [e1]; omega)
  have h2 : (((cfg0.win 3).blk t).view.emb (ix3 p tt o)) 2 = o :=
    Fin.ext (by show win0_3.index t (2 : Fin 3) * 1024 + 1 * o.val = o.val; rw [e2]; omega)
  show _ = Cert.Spec.emb3 _ _ _ ((((cfg0.win 3).blk t).view.emb (ix3 p tt o)) 0) ((((cfg0.win 3).blk t).view.emb (ix3 p tt o)) 1) ((((cfg0.win 3).blk t).view.emb (ix3 p tt o)) 2)
  rw [h0, h1, h2]
  rfl

/-- What point t writes back is block t of G0. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  funext y
  rw [View.read_apply]
  exact flushed0_pt V c t y

/-- An index of the result's array is in point t's block iff each coordinate is in the block's range on its axis. -/
theorem mem_blk0 (t : Fin cfg0.N) (i : S400x56x1024.Idx) :
    i ∈ ((cfg0.win 3).blk t).view.set ↔ ∀ a : Fin 3, win0_3.index t a * S40x56x1024.size a ≤ (i a).val
      ∧ (i a).val < win0_3.index t a * S40x56x1024.size a + S40x56x1024.size a := by
  show i ∈ ((View.whole main_v9).slice (win0_3.rect t)).set ↔ _
  rw [View.set_slice_whole, Rect.mem_set_unit]
  exact Iff.rfl

/-- Clip n of the result lies in the block of point n / 40: the ten blocks cover the array. -/
theorem cover0 (i : S400x56x1024.Idx) :
    ∃ t : Fin cfg0.N, (cfg0.win 3).flush t = true ∧ i ∈ ((cfg0.win 3).blk t).view.set := by
  have hi0 : (i 0).val < 400 := (i 0).isLt
  have hi1 : (i 1).val < 56 := (i 1).isLt
  have hi2 : (i 2).val < 1024 := (i 2).isLt
  obtain ⟨t, ht⟩ : ∃ t : Fin cfg0.N, t.val = (i 0).val / 40 := ⟨⟨(i 0).val / 40, by show _ < 10; omega⟩, rfl⟩
  obtain ⟨-, -, -, -, -, -, -, -, e0, e1, e2⟩ := idx_facts0 t
  refine ⟨t, flush0_3 t, ?_⟩
  rw [mem_blk0]
  intro a
  match a with
  | ⟨0, _⟩ =>
    show win0_3.index t (0 : Fin 3) * 40 ≤ (i 0).val ∧ (i 0).val < win0_3.index t (0 : Fin 3) * 40 + 40
    rw [e0, ht]; omega
  | ⟨1, _⟩ =>
    show win0_3.index t (1 : Fin 3) * 56 ≤ (i 1).val ∧ (i 1).val < win0_3.index t (1 : Fin 3) * 56 + 56
    rw [e1]; omega
  | ⟨2, _⟩ =>
    show win0_3.index t (2 : Fin 3) * 1024 ≤ (i 2).val ∧ (i 2).val < win0_3.index t (2 : Fin 3) * 1024 + 1024
    rw [e2]; omega

/-- The result's array after the region: the embedding of every tuple of every query clip. -/
theorem arr0_eq (c : Dev nD) : (dat0 V c).arrAt 3 cfg0.N = G0 V c :=
  (dat0 V c).arrAt_eq_of_cover 3 (G0 V c) (fun t _ => flushed0_eq V c t) cover0

/-- The result's array after the region, read at an index. -/
theorem arr0 (c : Dev nD) (n : Fin 400) (t : Fin 56) (o : Fin 1024) :
    (dat0 V c).arrAt 3 cfg0.N (ix3 n t o)
      = Cert.Spec.emb3 (V c main_arg2 : S400x8x2048.Idx → EReal) (V c main_v7 : S3x1024x2048.Idx → EReal)
          (V c main_v8 : S1x1024.Idx → EReal) n t o := by
  rw [arr0_eq]

end Cert.KernelIdeal.Val

end
-- ==== Proof.EmbedBlockS.lean ====
/-
  The second embedding call's output block, read at an index, at the ideal values.

  The body truncates the clips block to the weights' format (the identity on the extended reals), flattens clips and
  frames into 200 rows (row 8 n + f is frame f of clip n), multiplies the rows by each of the three weight blocks
  (contracting the 2048 features, into a zero accumulator), and reads the three products back as [25, 8, 1024]: each
  product at (n, f, o) is the sum over d of x[n, f, d] w[o, d]. The row of the triple (i, j, k) at (n, o) is the
  maximum of p0[n, i, o] + p1[n, j, o] + p2[n, k, o] + bias[o] and zero; the 56 rows lie side by side along the tuple
  axis, row t being that of the t-th triple. With the three weight blocks read off the stacked weights (block p at
  (o, d) is the stack at (p, o, d)) this is the specification's embedding.
-/
import proofs.«102215_j23794118820340_1_alg».proof.Proof.EmbedSRegion
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Frame Idealize.ShloMosaic Idealize.ShloMosaic.ValueIdx

/-! ## The matrix product at an index -/

theorem dot200_contr_rank : dot_S200x2048_S1024x2048_S200x1024_1_1_0_0_n_n.contr.rank = 1 := rfl
theorem dot200_contr_size : dot_S200x2048_S1024x2048_S200x1024_1_1_0_0_n_n.contr.size ⟨0, by rw [dot200_contr_rank]; exact Nat.one_pos⟩ = 2048 := rfl

theorem lhs_dot200_0 (j : S200x1024.Idx) (k : dot_S200x2048_S1024x2048_S200x1024_1_1_0_0_n_n.contr.Idx) :
    ((dot_S200x2048_S1024x2048_S200x1024_1_1_0_0_n_n.lhsIdx j k) 0).val = (j 0).val := by
  simp [DotDims.lhsIdx, dot_S200x2048_S1024x2048_S200x1024_1_1_0_0_n_n]; rfl

theorem lhs_dot200_1 (j : S200x1024.Idx) (k : dot_S200x2048_S1024x2048_S200x1024_1_1_0_0_n_n.contr.Idx) :
    ((dot_S200x2048_S1024x2048_S200x1024_1_1_0_0_n_n.lhsIdx j k) 1).val = (k ⟨0, by rw [dot200_contr_rank]; exact Nat.one_pos⟩).val :=
  DotDims.lhsIdx_val_of_single dot_S200x2048_S1024x2048_S200x1024_1_1_0_0_n_n (cl := 1) rfl j k

theorem rhs_dot200_0 (j : S200x1024.Idx) (k : dot_S200x2048_S1024x2048_S200x1024_1_1_0_0_n_n.contr.Idx) :
    ((dot_S200x2048_S1024x2048_S200x1024_1_1_0_0_n_n.rhsIdx j k) 0).val = (j 1).val := by
  simp [DotDims.rhsIdx, dot_S200x2048_S1024x2048_S200x1024_1_1_0_0_n_n]; rfl

theorem rhs_dot200_1 (j : S200x1024.Idx) (k : dot_S200x2048_S1024x2048_S200x1024_1_1_0_0_n_n.contr.Idx) :
    ((dot_S200x2048_S1024x2048_S200x1024_1_1_0_0_n_n.rhsIdx j k) 1).val = (k ⟨0, by rw [dot200_contr_rank]; exact Nat.one_pos⟩).val :=
  DotDims.rhsIdx_val_of_single dot_S200x2048_S1024x2048_S200x1024_1_1_0_0_n_n (cr := 1) rfl j k

/-- The product of a [200, 2048] array with a [1024, 2048] array contracted on their second axes, into the zero
    accumulator, at (p, o): the sum over d of l[p, d] r[o, d]. -/
theorem matmul200_apply (l : FVec Ideal S200x2048 .bf16) (r : FVec Ideal S1024x2048 .bf16) (p : Fin 200) (o : Fin 1024) :
    matmul dot_S200x2048_S1024x2048_S200x1024_1_1_0_0_n_n none l r (constant (F := Ideal) S200x1024 .f32 0x00000000#32) (ix2 p o)
      = ∑ d : Fin 2048, l (ix2 p d) * r (ix2 o d) := by
  refine (Ideal.matmul_constant_zero_apply dot_S200x2048_S1024x2048_S200x1024_1_1_0_0_n_n none l r (ix2 p o)).trans ?_
  rw [← Equiv.sum_comp (contrEquiv1 dot_S200x2048_S1024x2048_S200x1024_1_1_0_0_n_n 2048 dot200_contr_rank dot200_contr_size).symm]
  refine Finset.sum_congr rfl fun d _ => ?_
  have hk := contrEquiv1_symm_val dot_S200x2048_S1024x2048_S200x1024_1_1_0_0_n_n 2048 dot200_contr_rank dot200_contr_size d
  congr 1
  · refine congrArg l (funext fun a => Fin.ext ?_)
    match a with
    | ⟨0, _⟩ => exact lhs_dot200_0 _ _
    | ⟨1, _⟩ => exact (lhs_dot200_1 _ _).trans hk
  · refine congrArg r (funext fun a => Fin.ext ?_)
    match a with
    | ⟨0, _⟩ => exact rhs_dot200_0 _ _
    | ⟨1, _⟩ => exact (rhs_dot200_1 _ _).trans hk

/-! ## The flattened clips and the three per-position products at an index -/

/-- Row 8 n + f of the [200, ·] arrays is frame f of clip n. -/
def emb1_row (n : Fin 25) (f : Fin 8) : Fin 200 := ⟨8 * n.val + f.val, by have := n.isLt; have := f.isLt; omega⟩

theorem k1_pay2_apply (x : Vec Ideal S25x8x2048 .f32) (n : Fin 25) (f : Fin 8) (d : Fin 2048) :
    k1_pay2 (F := Ideal) x (ix2 (emb1_row n f) d) = x (ix3 n f d) := by
  unfold k1_pay2
  refine (shapeCast_apply _ _ (ix2 (emb1_row n f) d) (ix3 n f d) ?_).trans ?_
  · rw [Shape.rowMajor_val_three, Shape.rowMajor_val_two]
    show (n.val * 8 + f.val) * 2048 + d.val = (8 * n.val + f.val) * 2048 + d.val
    omega
  · rfl

/-- A per-position product at (n, f, o): frame f of clip n against row o of the weight block. -/
theorem k1_pay3_apply (x : Vec Ideal S25x8x2048 .f32) (w : Vec Ideal S1x1024x2048 .bf16) (n : Fin 25) (f : Fin 8) (o : Fin 1024) :
    k1_pay3 (F := Ideal) x w (ix3 n f o) = ∑ d : Fin 2048, x (ix3 n f d) * w (ix3 (0 : Fin 1) o d) := by
  unfold k1_pay3
  refine (shapeCast_apply _ _ (ix3 n f o) (ix2 (emb1_row n f) o) ?_).trans ?_
  · rw [Shape.rowMajor_val_two, Shape.rowMajor_val_three]
    show (8 * n.val + f.val) * 1024 + o.val = (n.val * 8 + f.val) * 1024 + o.val
    omega
  refine (matmul200_apply _ _ _ _).trans ?_
  refine Finset.sum_congr rfl fun d _ => ?_
  rw [k1_pay2_apply, shapeCast_1ab_ab_apply]

theorem k1_pay4_apply (x : Vec Ideal S25x8x2048 .f32) (w : Vec Ideal S1x1024x2048 .bf16) (n : Fin 25) (f : Fin 8) (o : Fin 1024) :
    k1_pay4 (F := Ideal) x w (ix3 n f o) = ∑ d : Fin 2048, x (ix3 n f d) * w (ix3 (0 : Fin 1) o d) :=
  k1_pay3_apply x w n f o

theorem k1_pay5_apply (x : Vec Ideal S25x8x2048 .f32) (w : Vec Ideal S1x1024x2048 .bf16) (n : Fin 25) (f : Fin 8) (o : Fin 1024) :
    k1_pay5 (F := Ideal) x w (ix3 n f o) = ∑ d : Fin 2048, x (ix3 n f d) * w (ix3 (0 : Fin 1) o d) :=
  k1_pay3_apply x w n f o

theorem k1_pay6_eq (b : Vec Ideal S1x1024 .f32) : k1_pay6 (F := Ideal) b = b := shapeCast_self b _

/-! ## One triple's row at an index -/

/-- Frame i of a [25, 8, 1024] array, flattened to [25, 1024], at (n, o). -/
theorem emb1_frame_apply (p : FVec Ideal S25x8x1024 .f32) (i : Fin 8) (n : Fin 25) (o : Fin 1024) :
    shapeCast S25x1024 (extractStridedSlice S25x1x1024 ![0, i.val, 0] p (frameSlice1 i)) shapeCasts_S25x1x1024_S25x1024 (ix2 n o)
      = p (ix3 n i o) := by
  refine (shapeCast_apply _ _ (ix2 n o) (ix3 n (0 : Fin 1) o) ?_).trans ?_
  · rw [Shape.rowMajor_val_three, Shape.rowMajor_val_two]
    show (n.val * 1 + 0) * 1024 + o.val = n.val * 1024 + o.val
    omega
  · exact slice3_axis1_apply i.val p (frameSlice1 i) n (0 : Fin 1) o i (by show i.val = i.val + 0; omega)

theorem tup1_apply (p0 p1 p2 : FVec Ideal S25x8x1024 .f32) (bias : FVec Ideal S1x1024 .f32) (i j k : Fin 8)
    (n : Fin 25) (u : Fin 1) (o : Fin 1024) :
    tup1 p0 p1 p2 bias i j k (ix3 n u o)
      = max (p0 (ix3 n i o) + p1 (ix3 n j o) + p2 (ix3 n k o) + bias (ix2 (0 : Fin 1) o)) 0 := by
  unfold tup1
  refine (shapeCast_apply _ _ (ix3 n u o) (ix2 n o) ?_).trans ?_
  · have hu : u.val = 0 := by omega
    rw [Shape.rowMajor_val_two, Shape.rowMajor_val_three]
    show n.val * 1024 + o.val = (n.val * 1 + u.val) * 1024 + o.val
    rw [hu]; omega
  rw [truncf_apply, maximumf_apply, addf_apply, addf_apply, addf_apply, emb1_frame_apply, emb1_frame_apply, emb1_frame_apply,
    broadcastTo_1b_ab_apply, broadcast_apply]
  show max _ (Ideal.ofBits .f32 0x00000000#32) = _
  rw [Ideal.ofBits_zero_f32]

/-! ## The 56 rows side by side -/

theorem val1_apply (x : Vec Ideal S25x8x2048 .f32) (w0 w1 w2 : Vec Ideal S1x1024x2048 .bf16) (b : Vec Ideal S1x1024 .f32)
    (n : Fin 25) (t : Fin 56) (o : Fin 1024) :
    val1 x w0 w1 w2 b (ix3 n t o)
      = tup1 (k1_pay3 x w0) (k1_pay4 x w1) (k1_pay5 x w2) (k1_pay6 b)
          (Cert.Spec.combo t 0) (Cert.Spec.combo t 1) (Cert.Spec.combo t 2) (ix3 n (0 : Fin 1) o) := by
  unfold val1 pieces1
  refine concatenate_ofFn_unit_apply (t := S25x56x1024) (s₁ := S25x1x1024) 1
    (fun t : Fin 56 => tup1 (k1_pay3 x w0) (k1_pay4 x w1) (k1_pay5 x w2) (k1_pay6 b)
      (Cert.Spec.combo t 0) (Cert.Spec.combo t 1) (Cert.Spec.combo t 2))
    _ rfl rfl (ix3 n t o) t rfl (ix3 n (0 : Fin 1) o) (fun bx hb => ?_)
  match bx with
  | ⟨0, _⟩ => rfl
  | ⟨1, _⟩ => exact absurd rfl hb
  | ⟨2, _⟩ => rfl

/-! ## The loads -/

theorem emb1_hz3 : (![0, 0, 0] : Fin 3 → Nat) = fun _ => 0 := funext fun a => by fin_cases a <;> rfl
theorem emb1_hz2 : (![0, 0] : Fin 2 → Nat) = fun _ => 0 := funext fun a => by fin_cases a <;> rfl

theorem ld_sw0_apply (x1 : Vec Ideal S3x1024x2048 .bf16) (o : Fin 1024) (d : Fin 2048) :
    View.ld x1 sw0 (ix3 (0 : Fin 1) o d) = x1 (ix3 (0 : Fin 3) o d) :=
  congrArg x1 (funext fun a => Fin.ext (match a with
    | ⟨0, _⟩ => by show 0 + 1 * 0 = 0; omega
    | ⟨1, _⟩ => by show 0 + 1 * o.val = o.val; omega
    | ⟨2, _⟩ => by show 0 + 1 * d.val = d.val; omega))

theorem ld_sw1_apply (x1 : Vec Ideal S3x1024x2048 .bf16) (o : Fin 1024) (d : Fin 2048) :
    View.ld x1 sw1 (ix3 (0 : Fin 1) o d) = x1 (ix3 (1 : Fin 3) o d) :=
  congrArg x1 (funext fun a => Fin.ext (match a with
    | ⟨0, _⟩ => by show 1 + 1 * 0 = 1; omega
    | ⟨1, _⟩ => by show 0 + 1 * o.val = o.val; omega
    | ⟨2, _⟩ => by show 0 + 1 * d.val = d.val; omega))

theorem ld_sw2_apply (x1 : Vec Ideal S3x1024x2048 .bf16) (o : Fin 1024) (d : Fin 2048) :
    View.ld x1 sw2 (ix3 (0 : Fin 1) o d) = x1 (ix3 (2 : Fin 3) o d) :=
  congrArg x1 (funext fun a => Fin.ext (match a with
    | ⟨0, _⟩ => by show 2 + 1 * 0 = 2; omega
    | ⟨1, _⟩ => by show 0 + 1 * o.val = o.val; omega
    | ⟨2, _⟩ => by show 0 + 1 * d.val = d.val; omega))

/-- The three products over the three weight blocks as the body loads them. -/
theorem pay3_sw0_apply (x : Vec Ideal S25x8x2048 .f32) (x1 : Vec Ideal S3x1024x2048 .bf16) (n : Fin 25) (f : Fin 8) (o : Fin 1024) :
    k1_pay3 (F := Ideal) x (View.ld x1 sw0) (ix3 n f o) = ∑ d : Fin 2048, x (ix3 n f d) * x1 (ix3 (0 : Fin 3) o d) :=
  (k1_pay3_apply x _ n f o).trans (Finset.sum_congr rfl fun d _ => congrArg (x (ix3 n f d) * ·) (ld_sw0_apply x1 o d))

theorem pay4_sw1_apply (x : Vec Ideal S25x8x2048 .f32) (x1 : Vec Ideal S3x1024x2048 .bf16) (n : Fin 25) (f : Fin 8) (o : Fin 1024) :
    k1_pay4 (F := Ideal) x (View.ld x1 sw1) (ix3 n f o) = ∑ d : Fin 2048, x (ix3 n f d) * x1 (ix3 (1 : Fin 3) o d) :=
  (k1_pay4_apply x _ n f o).trans (Finset.sum_congr rfl fun d _ => congrArg (x (ix3 n f d) * ·) (ld_sw1_apply x1 o d))

theorem pay5_sw2_apply (x : Vec Ideal S25x8x2048 .f32) (x1 : Vec Ideal S3x1024x2048 .bf16) (n : Fin 25) (f : Fin 8) (o : Fin 1024) :
    k1_pay5 (F := Ideal) x (View.ld x1 sw2) (ix3 n f o) = ∑ d : Fin 2048, x (ix3 n f d) * x1 (ix3 (2 : Fin 3) o d) :=
  (k1_pay5_apply x _ n f o).trans (Finset.sum_congr rfl fun d _ => congrArg (x (ix3 n f d) * ·) (ld_sw2_apply x1 o d))

/-! ## The block the body stores, at an index -/

/-- The output block of the second embedding call at (n, t, o) is the specification's embedding of tuple t of clip n of
    the clips block, over the stacked weights and the bias row. -/
theorem out1_3_apply (x0 : Vec Ideal S25x8x2048 .f32) (x1 : Vec Ideal S3x1024x2048 .bf16) (x2 : Vec Ideal S1x1024 .f32)
    (n : Fin 25) (t : Fin 56) (o : Fin 1024) :
    out1_3 (F := Ideal) x0 x1 x2 (ix3 n t o) = Cert.Spec.emb3 x0 x1 x2 n t o := by
  unfold out1_3
  rw [View.canon_unit_zero emb1_hz3, View.ld_unit_zero (S := S25x8x2048) emb1_hz3, View.ld_unit_zero (S := S1x1024) emb1_hz2]
  rw [val1_apply, tup1_apply, pay3_sw0_apply, pay4_sw1_apply, pay5_sw2_apply, k1_pay6_eq]
  rfl

end Cert.KernelIdeal.Val

end
-- ==== Proof.EmbedArrayS.lean ====
/-
  From the block of the second pallas_call to its result array, on the extended reals. The grid has one point and
  every window is its whole array: what the point writes back is the embedding (Spec.emb3) of the 25 support clips
  with the whole stacked weights and the whole bias row, and its one block covers the result, so the result's array
  ends holding that function at every index.
-/
import proofs.«102215_j23794118820340_1_alg».proof.Proof.EmbedSRegion
import proofs.«102215_j23794118820340_1_alg».proof.Proof.EmbedBlockS
import Idealize.ShloMosaic.Lib.Pipeline.Value
import Idealize.ShloMosaic.Lib.ValueIdx

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The printed index maps over the grid: at the one point every block index is zero. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The clips' one block is the whole array of support clips. -/
theorem iblk1_0_apply (c : Dev nD) (t : Fin cfg1.N) (p : Fin 25) (f : Fin 8) (d : Fin 2048) (n : Fin 25)
    (hn : n.val = 25 * t.val + p.val) :
    (iblk1 V c 0 t : Vec Ideal S25x8x2048 .f32) (ix3 p f d) = (V c main_arg0 : S25x8x2048.Idx → EReal) (ix3 n f d) := by
  obtain ⟨e0, e1, e2, -⟩ := idx_facts1 t
  unfold iblk1
  rw [View.read_apply]
  show V c main_arg0 _ = V c main_arg0 _
  congr 1
  funext a
  apply Fin.ext
  match a with
  | ⟨0, _⟩ => show win1_0.index t (0 : Fin 3) * 25 + 1 * p.val = n.val; rw [e0, hn]; omega
  | ⟨1, _⟩ => show win1_0.index t (1 : Fin 3) * 8 + 1 * f.val = f.val; rw [e1]; omega
  | ⟨2, _⟩ => show win1_0.index t (2 : Fin 3) * 2048 + 1 * d.val = d.val; rw [e2]; omega

/-- The weights' block at every point is the whole stacked weights. -/
theorem iblk1_1_eq (c : Dev nD) (t : Fin cfg1.N) :
    (iblk1 V c 1 t : Vec Ideal S3x1024x2048 .bf16) = (V c main_v7 : S3x1024x2048.Idx → EReal) := by
  obtain ⟨-, -, -, e0, e1, e2, -⟩ := idx_facts1 t
  funext j
  unfold iblk1
  rw [View.read_apply]
  show V c main_v7 _ = V c main_v7 _
  congr 1
  funext a
  apply Fin.ext
  match a with
  | ⟨0, _⟩ => show win1_1.index t (0 : Fin 3) * 3 + 1 * (j 0).val = (j 0).val; rw [e0]; omega
  | ⟨1, _⟩ => show win1_1.index t (1 : Fin 3) * 1024 + 1 * (j 1).val = (j 1).val; rw [e1]; omega
  | ⟨2, _⟩ => show win1_1.index t (2 : Fin 3) * 2048 + 1 * (j 2).val = (j 2).val; rw [e2]; omega

/-- The bias's block at every point is the whole bias row. -/
theorem iblk1_2_eq (c : Dev nD) (t : Fin cfg1.N) :
    (iblk1 V c 2 t : Vec Ideal S1x1024 .f32) = (V c main_v8 : S1x1024.Idx → EReal) := by
  obtain ⟨-, -, -, -, -, -, e0, e1, -⟩ := idx_facts1 t
  funext j
  unfold iblk1
  rw [View.read_apply]
  show V c main_v8 _ = V c main_v8 _
  congr 1
  funext a
  apply Fin.ext
  match a with
  | ⟨0, _⟩ => show win1_2.index t (0 : Fin 2) * 1 + 1 * (j 0).val = (j 0).val; rw [e0]; omega
  | ⟨1, _⟩ => show win1_2.index t (1 : Fin 2) * 1024 + 1 * (j 1).val = (j 1).val; rw [e1]; omega

/-- The embedding of clip n reads the clips' array at clip n only. -/
theorem emb3_congr1 {N M : Nat} (x : (⟨3, ![N, 8, 2048]⟩ : Shape).Idx → EReal) (x' : (⟨3, ![M, 8, 2048]⟩ : Shape).Idx → EReal)
    (ws : (⟨3, ![3, 1024, 2048]⟩ : Shape).Idx → EReal) (b2 : (⟨2, ![1, 1024]⟩ : Shape).Idx → EReal)
    (n : Fin N) (n' : Fin M) (hx : ∀ (f : Fin 8) (d : Fin 2048), x (ix3 n f d) = x' (ix3 n' f d)) (t : Fin 56) (o : Fin 1024) :
    Cert.Spec.emb3 x ws b2 n t o = Cert.Spec.emb3 x' ws b2 n' t o := by
  unfold Cert.Spec.emb3
  simp only [hx]

/-- What the result's array ends holding: the embedding of every tuple of every support clip. -/
abbrev G1 (c : Dev nD) : S25x56x1024.Idx → EReal := fun j =>
  Cert.Spec.emb3 (V c main_arg0 : S25x8x2048.Idx → EReal) (V c main_v7 : S3x1024x2048.Idx → EReal)
    (V c main_v8 : S1x1024.Idx → EReal) (j 0) (j 1) (j 2)

/-- The body's result at point t, read at (p, tuple, o), is the embedding of clip p. -/
theorem out1_3_blocks (c : Dev nD) (t : Fin cfg1.N) (p : Fin 25) (tt : Fin 56) (o : Fin 1024) (n : Fin 25)
    (hn : n.val = 25 * t.val + p.val) :
    out1_3 (F := Ideal) (iblk1 V c 0 t) (iblk1 V c 1 t) (iblk1 V c 2 t) (ix3 p tt o)
      = Cert.Spec.emb3 (V c main_arg0 : S25x8x2048.Idx → EReal) (V c main_v7 : S3x1024x2048.Idx → EReal)
          (V c main_v8 : S1x1024.Idx → EReal) n tt o := by
  rw [out1_3_apply, iblk1_1_eq, iblk1_2_eq]
  exact emb3_congr1 _ _ _ _ p n (fun f d => iblk1_0_apply V c t p f d n hn) tt o

/-- The body's result at point t, read at a block index, is G1 read where the block's index lies in the array. -/
theorem flushed1_pt (c : Dev nD) (t : Fin cfg1.N) (y : S25x56x1024.Idx) :
    out1_3 (F := Ideal) (iblk1 V c 0 t) (iblk1 V c 1 t) (iblk1 V c 2 t) y = G1 V c (((cfg1.win 3).blk t).view.emb y) := by
  obtain ⟨-, -, -, -, -, -, -, -, e0, e1, e2⟩ := idx_facts1 t
  obtain ⟨p, tt, o, rfl⟩ : ∃ (p : Fin 25) (tt : Fin 56) (o : Fin 1024), y = ix3 p tt o := ⟨y 0, y 1, y 2, eq_ix3 y⟩
  have ht : t.val < 1 := t.isLt
  rw [out1_3_blocks V c t p tt o ⟨25 * t.val + p.val, by omega⟩ rfl]
  have h0 : (((cfg1.win 3).blk t).view.emb (ix3 p tt o)) 0 = (⟨25 * t.val + p.val, by omega⟩ : Fin 25) :=
    Fin.ext (by show win1_3.index t (0 : Fin 3) * 25 + 1 * p.val = 25 * t.val + p.val; rw [e0]; omega)
  have h1 : (((cfg1.win 3).blk t).view.emb (ix3 p tt o)) 1 = tt :=
    Fin.ext (by show win1_3.index t (1 : Fin 3) * 56 + 1 * tt.val = tt.val; rw [e1]; omega)
  have h2 : (((cfg1.win 3).blk t).view.emb (ix3 p tt o)) 2 = o :=
    Fin.ext (by show win1_3.index t (2 : Fin 3) * 1024 + 1 * o.val = o.val; rw [e2]; omega)
  show _ = Cert.Spec.emb3 _ _ _ ((((cfg1.win 3).blk t).view.emb (ix3 p tt o)) 0) ((((cfg1.win 3).blk t).view.emb (ix3 p tt o)) 1) ((((cfg1.win 3).blk t).view.emb (ix3 p tt o)) 2)
  rw [h0, h1, h2]
  rfl

/-- What point t writes back is block t of G1. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  funext y
  rw [View.read_apply]
  exact flushed1_pt V c t y

/-- An index of the result's array is in point t's block iff each coordinate is in the block's range on its axis. -/
theorem mem_blk1 (t : Fin cfg1.N) (i : S25x56x1024.Idx) :
    i ∈ ((cfg1.win 3).blk t).view.set ↔ ∀ a : Fin 3, win1_3.index t a * S25x56x1024.size a ≤ (i a).val
      ∧ (i a).val < win1_3.index t a * S25x56x1024.size a + S25x56x1024.size a := by
  show i ∈ ((View.whole main_v10).slice (win1_3.rect t)).set ↔ _
  rw [View.set_slice_whole, Rect.mem_set_unit]
  exact Iff.rfl

/-- The one point's block covers the array. -/
theorem cover1 (i : S25x56x1024.Idx) :
    ∃ t : Fin cfg1.N, (cfg1.win 3).flush t = true ∧ i ∈ ((cfg1.win 3).blk t).view.set := by
  have hi0 : (i 0).val < 25 := (i 0).isLt
  have hi1 : (i 1).val < 56 := (i 1).isLt
  have hi2 : (i 2).val < 1024 := (i 2).isLt
  obtain ⟨t, ht⟩ : ∃ t : Fin cfg1.N, t.val = (i 0).val / 25 := ⟨⟨(i 0).val / 25, by show _ < 1; omega⟩, rfl⟩
  obtain ⟨-, -, -, -, -, -, -, -, e0, e1, e2⟩ := idx_facts1 t
  refine ⟨t, flush1_3 t, ?_⟩
  rw [mem_blk1]
  intro a
  match a with
  | ⟨0, _⟩ =>
    show win1_3.index t (0 : Fin 3) * 25 ≤ (i 0).val ∧ (i 0).val < win1_3.index t (0 : Fin 3) * 25 + 25
    rw [e0, ht]; omega
  | ⟨1, _⟩ =>
    show win1_3.index t (1 : Fin 3) * 56 ≤ (i 1).val ∧ (i 1).val < win1_3.index t (1 : Fin 3) * 56 + 56
    rw [e1]; omega
  | ⟨2, _⟩ =>
    show win1_3.index t (2 : Fin 3) * 1024 ≤ (i 2).val ∧ (i 2).val < win1_3.index t (2 : Fin 3) * 1024 + 1024
    rw [e2]; omega

/-- The result's array after the region: the embedding of every tuple of every support clip. -/
theorem arr1_eq (c : Dev nD) : (dat1 V c).arrAt 3 cfg1.N = G1 V c :=
  (dat1 V c).arrAt_eq_of_cover 3 (G1 V c) (fun t _ => flushed1_eq V c t) cover1

/-- The result's array after the region, read at an index. -/
theorem arr1 (c : Dev nD) (n : Fin 25) (t : Fin 56) (o : Fin 1024) :
    (dat1 V c).arrAt 3 cfg1.N (ix3 n t o)
      = Cert.Spec.emb3 (V c main_arg0 : S25x8x2048.Idx → EReal) (V c main_v7 : S3x1024x2048.Idx → EReal)
          (V c main_v8 : S1x1024.Idx → EReal) n t o := by
  rw [arr1_eq]

end Cert.KernelIdeal.Val

end
-- ==== Proof.DistBlock.lean ====
/-
  What the distances kernel's body leaves in its output block, read at one (clip, class), is the specification's logit.

  The body flattens the query block [40, 56, 1024] to 2240 rows (row 56 n + t is tuple t of clip n) and takes each row's
  squared norm once. For each of the five classes it loads the class's slab of 280 rows, takes their squared norms,
  multiplies the query rows by the slab's rows (a sum over the 1024 features), forms |q|² + |s|² - 2 q·s, rectifies it,
  takes the square root, then per query row the least of the 280 values, per clip the sum of its 56 tuples' least values,
  divides by 56 and subtracts from zero. The five columns [40] are laid side by side as [40, 5].

  The printed body cuts the five classes' arithmetic at different places; each cut is the same function (`colNeg`) of the
  flattened block, its squared norms and the slab as a matrix, by unfolding. That function is then read at an index, one
  operation at a time: the keepdims broadcasts, the row sums, the product, the minimum over the slab's rows as a fold of
  `min` from +∞, the sum over the tuples; zero minus the mean is its negation on the extended reals.
-/
import proofs.«102215_j23794118820340_1_alg».proof.Proof.DistRegion
import proofs.«102215_j23794118820340_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Val

open Cert.KernelIdeal Cert.KernelIdeal.Gen Cert.KernelIdeal.Frame
open Idealize.ShloMosaic Idealize.ShloMosaic.ValueIdx
open scoped BigOperators

namespace Dist

/-! ## Layout operations at coordinates: the keepdims column forms and the two flattenings -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, c]` array flattened to `[a * b, c]` reads, at row `b n + t`, the operand at `(n, t)`. -/
theorem shapeCast_abc_ab_c_apply {a b c m : ℕ} (x : (⟨3, ![a, b, c]⟩ : Shape).Idx → α)
    (h : (⟨3, ![a, b, c]⟩ : Shape).ShapeCasts ⟨2, ![m, c]⟩) (n : Fin a) (t : Fin b) (o : Fin c) (r : Fin m)
    (hr : r.val = b * n.val + t.val) : shapeCast ⟨2, ![m, c]⟩ x h (ix2 r o) = x (ix3 n t o) :=
  shapeCast_apply x h _ _ (by
    rw [Shape.rowMajor_val_three, Shape.rowMajor_val_two]
    show (n.val * b + t.val) * c + o.val = r.val * c + o.val
    rw [hr, Nat.mul_comm b n.val])

/-- An `[m, c]` array cut into `[a, b, c]` reads, at `(n, t)`, the operand at row `b n + t`. -/
theorem shapeCast_ab_c_abc_apply {a b c m : ℕ} (x : (⟨2, ![m, c]⟩ : Shape).Idx → α)
    (h : (⟨2, ![m, c]⟩ : Shape).ShapeCasts ⟨3, ![a, b, c]⟩) (n : Fin a) (t : Fin b) (o : Fin c) (r : Fin m)
    (hr : r.val = b * n.val + t.val) : shapeCast ⟨3, ![a, b, c]⟩ x h (ix3 n t o) = x (ix2 r o) :=
  shapeCast_apply x h _ _ (by
    rw [Shape.rowMajor_val_three, Shape.rowMajor_val_two]
    show r.val * c + o.val = (n.val * b + t.val) * c + o.val
    rw [hr, Nat.mul_comm b n.val])

end Layout

/-! ## Reductions over the last axis of a matrix and of a rank-3 array, at the ideal values -/

/-- A row sum: the `add` reduction of an `[a, b]` matrix over its columns, at row `r`. -/
theorem rowSum_apply {a b : ℕ} (y : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction (F := Ideal) .add [1] ⟨1, ![a]⟩ y 0x00000000#32 h hφ hacc (ix1 r) = ∑ o : Fin b, y (ix2 r o) :=
  (Ideal.multiReduction_add_single y 0x00000000#32 h hφ hacc (ix1 r)).trans
    (Finset.sum_congr rfl fun o _ => congrArg y (funext fun ax => match ax with
      | ⟨0, _⟩ => rfl
      | ⟨1, _⟩ => rfl))

/-- The minimum over the last axis of an `[a, b, c]` array, at `(p, t)`: the fold of `min` from the accumulator's value
    over the `c` entries. -/
theorem lastMin_apply {a b c : ℕ} (y : FVec Ideal ⟨3, ![a, b, c]⟩ .f32) (acc : BitVec 32)
    (h : Shape.Reduces ⟨3, ![a, b, c]⟩ [2] ⟨2, ![a, b]⟩)
    (hφ : FKind.Formats .f32) (hacc : acc = FKind.minimumf.neutral .f32 hφ) (p : Fin a) (t : Fin b) :
    multiReduction (F := Ideal) .minimumf [2] ⟨2, ![a, b]⟩ y acc h hφ hacc (ix2 p t)
      = (Finset.univ : Finset (Fin c)).fold min (Ideal.ofBits .f32 acc) (fun k => y (ix3 p t k)) := by
  refine (multiReduction_minimumf_eq_fold y acc h hφ hacc (ix2 p t)).trans ?_
  refine (h.fold_filter_drop_single _ _ y (ix2 p t)).trans ?_
  refine congrArg (Finset.fold min (Ideal.ofBits .f32 acc) · (Finset.univ : Finset (Fin c))) ?_
  funext k
  exact congrArg y (funext fun ax => match ax with
      | ⟨0, _⟩ => rfl
      | ⟨1, _⟩ => rfl
      | ⟨2, _⟩ => rfl)

/-! ## The product of the query rows with a slab's rows -/

/-- The dot's left operand index at a result index and a contraction index: the result's row on axis 0 … -/
theorem lhs_dot_S2240x1024_S280x1024_S2240x280_1_1_0_0_n_n_0 (j : S2240x280.Idx)
    (k : dot_S2240x1024_S280x1024_S2240x280_1_1_0_0_n_n.contr.Idx) :
    (dot_S2240x1024_S280x1024_S2240x280_1_1_0_0_n_n.lhsIdx j k 0).val = (j 0).val := by
  simp [DotDims.lhsIdx, dot_S2240x1024_S280x1024_S2240x280_1_1_0_0_n_n]; rfl

/-- … and the contraction's one coordinate on axis 1. -/
theorem lhs_dot_S2240x1024_S280x1024_S2240x280_1_1_0_0_n_n_1 (j : S2240x280.Idx)
    (k : dot_S2240x1024_S280x1024_S2240x280_1_1_0_0_n_n.contr.Idx) :
    (dot_S2240x1024_S280x1024_S2240x280_1_1_0_0_n_n.lhsIdx j k 1).val = (k ⟨0, by decide⟩).val :=
  dot_S2240x1024_S280x1024_S2240x280_1_1_0_0_n_n.lhsIdx_val_of_single rfl j k

/-- The right operand's: the result's column on axis 0 … -/
theorem rhs_dot_S2240x1024_S280x1024_S2240x280_1_1_0_0_n_n_0 (j : S2240x280.Idx)
    (k : dot_S2240x1024_S280x1024_S2240x280_1_1_0_0_n_n.contr.Idx) :
    (dot_S2240x1024_S280x1024_S2240x280_1_1_0_0_n_n.rhsIdx j k 0).val = (j 1).val := by
  simp [DotDims.rhsIdx, dot_S2240x1024_S280x1024_S2240x280_1_1_0_0_n_n]; rfl

/-- … and the contraction's one coordinate on axis 1. -/
theorem rhs_dot_S2240x1024_S280x1024_S2240x280_1_1_0_0_n_n_1 (j : S2240x280.Idx)
    (k : dot_S2240x1024_S280x1024_S2240x280_1_1_0_0_n_n.contr.Idx) :
    (dot_S2240x1024_S280x1024_S2240x280_1_1_0_0_n_n.rhsIdx j k 1).val = (k ⟨0, by decide⟩).val :=
  dot_S2240x1024_S280x1024_S2240x280_1_1_0_0_n_n.rhsIdx_val_of_single rfl j k

/-- The kernel's matrix product into a zero accumulator, at `(r, c)`: the sum over the 1024 features of the products of
    row `r` of the left operand and row `c` of the right one. -/
theorem matmul_rows_apply (A : FVec Ideal S2240x1024 .bf16) (B : FVec Ideal S280x1024 .bf16) (r : Fin 2240) (c : Fin 280) :
    matmul (F := Ideal) dot_S2240x1024_S280x1024_S2240x280_1_1_0_0_n_n none A B (constant (F := Ideal) S2240x280 .f32 0x00000000#32) (ix2 r c)
      = ∑ o : Fin 1024, A (ix2 r o) * B (ix2 c o) := by
  show FloatOps.matmul dot_S2240x1024_S280x1024_S2240x280_1_1_0_0_n_n none A B (constant (F := Ideal) S2240x280 .f32 0x00000000#32) (ix2 r c) = _
  rw [Ideal.matmul_constant_zero_apply,
    ← Equiv.sum_comp (contrEquiv1 dot_S2240x1024_S280x1024_S2240x280_1_1_0_0_n_n 1024 rfl rfl).symm]
  refine Finset.sum_congr rfl fun o _ => ?_
  have hk := contrEquiv1_symm_val dot_S2240x1024_S280x1024_S2240x280_1_1_0_0_n_n 1024 rfl rfl o
  have l2 : dot_S2240x1024_S280x1024_S2240x280_1_1_0_0_n_n.lhsIdx (ix2 r c)
      ((contrEquiv1 dot_S2240x1024_S280x1024_S2240x280_1_1_0_0_n_n 1024 rfl rfl).symm o) = ix2 r o := by
    funext ax; apply Fin.ext
    match ax with
    | ⟨0, _⟩ => exact lhs_dot_S2240x1024_S280x1024_S2240x280_1_1_0_0_n_n_0 _ _
    | ⟨1, _⟩ => exact (lhs_dot_S2240x1024_S280x1024_S2240x280_1_1_0_0_n_n_1 _ _).trans hk
  have r2 : dot_S2240x1024_S280x1024_S2240x280_1_1_0_0_n_n.rhsIdx (ix2 r c)
      ((contrEquiv1 dot_S2240x1024_S280x1024_S2240x280_1_1_0_0_n_n 1024 rfl rfl).symm o) = ix2 c o := by
    funext ax; apply Fin.ext
    match ax with
    | ⟨0, _⟩ => exact rhs_dot_S2240x1024_S280x1024_S2240x280_1_1_0_0_n_n_0 _ _
    | ⟨1, _⟩ => exact (rhs_dot_S2240x1024_S280x1024_S2240x280_1_1_0_0_n_n_1 _ _).trans hk
  rw [l2, r2]

/-! ## One class's column from the flattened query block, its squared norms and the class's slab -/

/-- The distances from the 2240 query rows to a slab's 280 rows, as the kernel computes them: the square root of the
    rectified |q|² + |s|² - 2 q·s. -/
def rowDists (v2 : FVec Ideal S2240x1024 .bf16) (v6 : FVec Ideal S2240x1 .f32) (s : FVec Ideal S280x1024 .bf16) : FVec Ideal S2240x280 .f32 :=
  sqrt (maximumf
    (subf
      (addf (broadcastTo S2240x280 v6 broadcasts_S2240x1_S2240x280)
        (broadcastTo S2240x280
          (shapeCast S1x280
            (multiReduction .add [1] S280 (mulf (extf .f32 s bitsLt_bf16_f32) (extf .f32 s bitsLt_bf16_f32)) 0x00000000#32 reduces_S280x1024_S280 (.inl rfl) rfl)
            shapeCasts_S280_S1x280)
          broadcasts_S1x280_S2240x280))
      (mulf (broadcast S2240x280 (Scalar.ofBits .f32 0x40000000#32))
        (matmul dot_S2240x1024_S280x1024_S2240x280_1_1_0_0_n_n none v2 s (constant S2240x280 .f32 0x00000000#32))))
    (broadcast S2240x280 (Scalar.ofBits .f32 0x00000000#32)))

/-- The mean over a clip's 56 tuples of the least distance to the slab's rows. -/
def colMean (v2 : FVec Ideal S2240x1024 .bf16) (v6 : FVec Ideal S2240x1 .f32) (s : FVec Ideal S280x1024 .bf16) : FVec Ideal S40 .f32 :=
  divf
    (multiReduction .add [1] S40
      (multiReduction .minimumf [2] S40x56 (shapeCast S40x56x280 (rowDists v2 v6 s) shapeCasts_S2240x280_S40x56x280)
        0x7F800000#32 reduces_S40x56x280_S40x56 (.inl rfl) rfl)
      0x00000000#32 reduces_S40x56_S40 (.inl rfl) rfl)
    (broadcast S40 (Scalar.ofBits .f32 0x42600000#32))

/-- The column of a class: zero minus that mean. -/
def colNeg (v2 : FVec Ideal S2240x1024 .bf16) (v6 : FVec Ideal S2240x1 .f32) (s : FVec Ideal S280x1024 .bf16) : FVec Ideal S40 .f32 :=
  subf (broadcast S40 (Scalar.ofBits .f32 0x00000000#32)) (colMean v2 v6 s)

/-- The five ways the printed body cuts a class's column are that one function of the flattened query block, its squared
    norms and the class's slab as a matrix. -/
theorem pay4_eq (q : Vec Ideal S40x56x1024 .bf16) (s : Vec Ideal S1x280x1024 .bf16) :
    k2_pay4 q s = colNeg (k2_pay2 q) (k2_pay3 q) (shapeCast S280x1024 s shapeCasts_S1x280x1024_S280x1024) := rfl

theorem pay9_eq (q : Vec Ideal S40x56x1024 .bf16) (s : Vec Ideal S1x280x1024 .bf16) :
    k2_pay9 (k2_pay6 q s) (k2_pay7 q) (k2_pay8 s) = colNeg (k2_pay2 q) (k2_pay3 q) (shapeCast S280x1024 s shapeCasts_S1x280x1024_S280x1024) := rfl

theorem pay10_eq (v2 : FVec Ideal S2240x1024 .bf16) (v6 : FVec Ideal S2240x1 .f32) (s : Vec Ideal S1x280x1024 .bf16) :
    k2_pay10 v2 v6 s = colNeg v2 v6 (shapeCast S280x1024 s shapeCasts_S1x280x1024_S280x1024) := rfl

theorem pay13_eq (v2 : FVec Ideal S2240x1024 .bf16) (v6 : FVec Ideal S2240x1 .f32) (s : Vec Ideal S1x280x1024 .bf16) :
    k2_pay13 v2 v6 (k2_pay11 s) (k2_pay12 s) = colNeg v2 v6 (shapeCast S280x1024 s shapeCasts_S1x280x1024_S280x1024) := rfl

theorem pay14_eq (v2 : FVec Ideal S2240x1024 .bf16) (v6 : FVec Ideal S2240x1 .f32) (s : Vec Ideal S1x280x1024 .bf16) :
    k2_pay14 v2 v6 s = colMean v2 v6 (shapeCast S280x1024 s shapeCasts_S1x280x1024_S280x1024) := rfl

/-- A distance read at (row, slab row). -/
theorem rowDists_apply (v2 : FVec Ideal S2240x1024 .bf16) (v6 : FVec Ideal S2240x1 .f32) (s : FVec Ideal S280x1024 .bf16)
    (r : Fin 2240) (c : Fin 280) :
    rowDists v2 v6 s (ix2 r c)
      = Ideal.sqrt (max ((v6 (ix2 r (0 : Fin 1)) + ∑ o : Fin 1024, s (ix2 c o) * s (ix2 c o))
          - Ideal.ofBits .f32 0x40000000#32 * ∑ o : Fin 1024, v2 (ix2 r o) * s (ix2 c o)) 0) := by
  have e1 : broadcastTo S2240x280 v6 broadcasts_S2240x1_S2240x280 (ix2 r c) = v6 (ix2 r (0 : Fin 1)) :=
    broadcastTo_a1_ab_apply v6 broadcasts_S2240x1_S2240x280 r c
  have e2 : broadcastTo S2240x280
        (shapeCast S1x280
          (multiReduction (F := Ideal) .add [1] S280 (mulf (extf .f32 s bitsLt_bf16_f32) (extf .f32 s bitsLt_bf16_f32)) 0x00000000#32 reduces_S280x1024_S280 (.inl rfl) rfl)
          shapeCasts_S280_S1x280)
        broadcasts_S1x280_S2240x280 (ix2 r c)
      = ∑ o : Fin 1024, s (ix2 c o) * s (ix2 c o) :=
    (broadcastTo_1b_ab_apply _ broadcasts_S1x280_S2240x280 r c).trans
      ((shapeCast_a_1a_apply _ shapeCasts_S280_S1x280 (0 : Fin 1) c).trans
        (rowSum_apply _ reduces_S280x1024_S280 (.inl rfl) rfl c))
  have e3 := matmul_rows_apply v2 s r c
  show Ideal.sqrt (max ((broadcastTo S2240x280 v6 broadcasts_S2240x1_S2240x280 (ix2 r c)
        + broadcastTo S2240x280
            (shapeCast S1x280
              (multiReduction (F := Ideal) .add [1] S280 (mulf (extf .f32 s bitsLt_bf16_f32) (extf .f32 s bitsLt_bf16_f32)) 0x00000000#32 reduces_S280x1024_S280 (.inl rfl) rfl)
              shapeCasts_S280_S1x280)
            broadcasts_S1x280_S2240x280 (ix2 r c))
      - Ideal.ofBits .f32 0x40000000#32
        * matmul (F := Ideal) dot_S2240x1024_S280x1024_S2240x280_1_1_0_0_n_n none v2 s (constant (F := Ideal) S2240x280 .f32 0x00000000#32) (ix2 r c))
      (Ideal.ofBits .f32 0x00000000#32)) = _
  rw [e1, e2, e3, Ideal.ofBits_zero_f32]

/-- A class's mean read at a query clip: the sum over the clip's 56 tuples of the least of the 280 distances from the
    tuple's row, divided by 56. -/
theorem colMean_apply (v2 : FVec Ideal S2240x1024 .bf16) (v6 : FVec Ideal S2240x1 .f32) (s : FVec Ideal S280x1024 .bf16) (p : Fin 40) :
    colMean v2 v6 s (ix1 p)
      = Ideal.div (∑ t : Fin 56, (Finset.univ : Finset (Fin 280)).fold min (Ideal.ofBits .f32 0x7F800000#32)
          (fun c => rowDists v2 v6 s (ix2 (⟨56 * p.val + t.val, by omega⟩ : Fin 2240) c))) (Ideal.ofBits .f32 0x42600000#32) := by
  have e1 : multiReduction (F := Ideal) .add [1] S40
        (multiReduction (F := Ideal) .minimumf [2] S40x56 (shapeCast S40x56x280 (rowDists v2 v6 s) shapeCasts_S2240x280_S40x56x280)
          0x7F800000#32 reduces_S40x56x280_S40x56 (.inl rfl) rfl)
        0x00000000#32 reduces_S40x56_S40 (.inl rfl) rfl (ix1 p)
      = ∑ t : Fin 56, (Finset.univ : Finset (Fin 280)).fold min (Ideal.ofBits .f32 0x7F800000#32)
          (fun c => rowDists v2 v6 s (ix2 (⟨56 * p.val + t.val, by omega⟩ : Fin 2240) c)) :=
    (rowSum_apply _ reduces_S40x56_S40 (.inl rfl) rfl p).trans
      (Finset.sum_congr rfl fun t _ =>
        (lastMin_apply _ 0x7F800000#32 reduces_S40x56x280_S40x56 (.inl rfl) rfl p t).trans
          (congrArg (Finset.fold min (Ideal.ofBits .f32 0x7F800000#32) · (Finset.univ : Finset (Fin 280)))
            (funext fun c => shapeCast_ab_c_abc_apply (rowDists v2 v6 s) shapeCasts_S2240x280_S40x56x280 p t c
              (⟨56 * p.val + t.val, by omega⟩ : Fin 2240) rfl)))
  show Ideal.div (multiReduction (F := Ideal) .add [1] S40
        (multiReduction (F := Ideal) .minimumf [2] S40x56 (shapeCast S40x56x280 (rowDists v2 v6 s) shapeCasts_S2240x280_S40x56x280)
          0x7F800000#32 reduces_S40x56x280_S40x56 (.inl rfl) rfl)
        0x00000000#32 reduces_S40x56_S40 (.inl rfl) rfl (ix1 p)) (Ideal.ofBits .f32 0x42600000#32) = _
  rw [e1]

/-- A class's column read at a query clip: minus that mean. -/
theorem colNeg_apply (v2 : FVec Ideal S2240x1024 .bf16) (v6 : FVec Ideal S2240x1 .f32) (s : FVec Ideal S280x1024 .bf16) (p : Fin 40) :
    colNeg v2 v6 s (ix1 p) = -colMean v2 v6 s (ix1 p) := by
  show Ideal.ofBits .f32 0x00000000#32 - colMean v2 v6 s (ix1 p) = _
  rw [Ideal.ofBits_zero_f32, zero_sub]

/-! ## The query block's rows and squared norms, and a class's slab -/

/-- Row `56 n + t` of the flattened query block is tuple `t` of clip `n`. -/
theorem pay2_apply (q : Vec Ideal S40x56x1024 .bf16) (n : Fin 40) (t : Fin 56) (o : Fin 1024) :
    k2_pay2 q (ix2 (⟨56 * n.val + t.val, by omega⟩ : Fin 2240) o) = q (ix3 n t o) := by
  unfold k2_pay2
  rw [shapeCast_self]
  exact shapeCast_abc_ab_c_apply q shapeCasts_S40x56x1024_S2240x1024 n t o _ rfl

/-- Its squared norm is the sum of the squares of the tuple's 1024 features. -/
theorem pay3_apply (q : Vec Ideal S40x56x1024 .bf16) (n : Fin 40) (t : Fin 56) :
    k2_pay3 q (ix2 (⟨56 * n.val + t.val, by omega⟩ : Fin 2240) (0 : Fin 1)) = ∑ o : Fin 1024, q (ix3 n t o) * q (ix3 n t o) := by
  unfold k2_pay3
  refine (shapeCast_a_a1_apply _ shapeCasts_S2240_S2240x1 _ (0 : Fin 1)).trans ?_
  refine (rowSum_apply _ reduces_S2240x1024_S2240 (.inl rfl) rfl _).trans ?_
  refine Finset.sum_congr rfl fun o _ => ?_
  show k2_pay2 q (ix2 (⟨56 * n.val + t.val, by omega⟩ : Fin 2240) o) * k2_pay2 q (ix2 (⟨56 * n.val + t.val, by omega⟩ : Fin 2240) o) = _
  rw [pay2_apply]

/-- Row `r` of class `cl`'s slab, as the body loads and flattens it, is row `r` of the class in the slabs' array. -/
theorem slab_apply (x1 : Vec Ideal S5x280x1024 .bf16) (cl : Fin 5)
    (inb : ∀ a, (![cl.val, 0, 0] : Fin 3 → Nat) a + S1x280x1024.size a ≤ S5x280x1024.size a) (r : Fin 280) (o : Fin 1024) :
    shapeCast S280x1024 (View.ld x1 (Rect.unit (s := S5x280x1024) ![cl.val, 0, 0] S1x280x1024.size inb) : Vec Ideal S1x280x1024 .bf16)
        shapeCasts_S1x280x1024_S280x1024 (ix2 r o) = x1 (ix3 cl r o) := by
  refine (shapeCast_1ab_ab_apply _ shapeCasts_S1x280x1024_S280x1024 r o).trans ?_
  show x1 ((Rect.unit (s := S5x280x1024) ![cl.val, 0, 0] S1x280x1024.size inb).idx (ix3 (0 : Fin 1) r o)) = _
  refine congrArg x1 (funext fun ax => Fin.ext ?_)
  match ax with
  | ⟨0, _⟩ => show cl.val + 1 * 0 = cl.val; omega
  | ⟨1, _⟩ => show 0 + 1 * r.val = r.val; omega
  | ⟨2, _⟩ => show 0 + 1 * o.val = o.val; omega

/-! ## A class's column is the specification's logit -/

/-- From the query block and a slab whose rows are class `cl`'s, the column read at clip `p` is the logit. -/
theorem colNeg_eq_logit (x0 : Vec Ideal S40x56x1024 .bf16) (x1 : Vec Ideal S5x280x1024 .bf16) (p : Fin 40) (cl : Fin 5)
    (s : FVec Ideal S280x1024 .bf16) (hs : ∀ (r : Fin 280) (o : Fin 1024), s (ix2 r o) = x1 (ix3 cl r o)) :
    colNeg (k2_pay2 x0) (k2_pay3 x0) s (ix1 p)
      = Cert.Spec.logit (fun n t o => x0 (ix3 n t o)) (fun c s o => x1 (ix3 c s o)) p cl := by
  rw [colNeg_apply, colMean_apply]
  unfold Cert.Spec.logit Cert.Spec.dist
  refine congrArg (fun S => -Ideal.div S (Ideal.ofBits .f32 0x42600000#32)) (Finset.sum_congr rfl fun t _ => ?_)
  refine congrArg (Finset.fold min (Ideal.ofBits .f32 0x7F800000#32) · (Finset.univ : Finset (Fin 280))) (funext fun r => ?_)
  rw [rowDists_apply, pay3_apply]
  simp only [pay2_apply, hs]

/-! ## The five columns side by side -/

/-- The concatenation of the five columns read at `(p, cl)`: column `cl` at `p`; the last column is zero minus the fifth
    argument. -/
theorem pay1_apply (c0 c1 c2 c3 c4 : FVec Ideal S40 .f32) (z : Ideal .f32) (p : Fin 40) (cl : Fin 5) :
    k2_pay1 c0 c1 c2 c3 c4 z (ix2 p cl) = (![c0, c1, c2, c3, subf (broadcast S40 z) c4] cl) (ix1 p) := by
  unfold k2_pay1
  have hi : ∀ (c : Fin 5) (b : Fin S40x1.rank), b.cast (rfl : S40x1.rank = S40x5.rank) ≠ (1 : Fin S40x5.rank) →
      ((ix2 p (0 : Fin 1) : S40x1.Idx) b).val = ((ix2 p c : S40x5.Idx) (b.cast (rfl : S40x1.rank = S40x5.rank))).val := fun c b hb =>
    match b with
    | ⟨0, _⟩ => rfl
    | ⟨1, _⟩ => absurd rfl hb
  have key := concatenate_apply_piece (1 : Fin S40x5.rank)
    [⟨S40x1, shapeCast S40x1 c0 shapeCasts_S40_S40x1⟩, ⟨S40x1, shapeCast S40x1 c1 shapeCasts_S40_S40x1⟩,
      ⟨S40x1, shapeCast S40x1 c2 shapeCasts_S40_S40x1⟩, ⟨S40x1, shapeCast S40x1 c3 shapeCasts_S40_S40x1⟩,
      ⟨S40x1, shapeCast S40x1 (subf (broadcast S40 z) c4) shapeCasts_S40_S40x1⟩]
    concatenates_S40x1_S40x1_S40x1_S40x1_S40x1_S40x5_d1
  match cl with
  | ⟨0, _⟩ =>
    exact (key (ix2 p _) 0 (by decide : (0 : ℕ) < 5) S40x1 _ rfl rfl 0 rfl (ix2 p (0 : Fin 1)) (hi _) rfl).trans
      (shapeCast_a_a1_apply c0 shapeCasts_S40_S40x1 p 0)
  | ⟨1, _⟩ =>
    exact (key (ix2 p _) 1 (by decide : (1 : ℕ) < 5) S40x1 _ rfl rfl 1 rfl (ix2 p (0 : Fin 1)) (hi _) rfl).trans
      (shapeCast_a_a1_apply c1 shapeCasts_S40_S40x1 p 0)
  | ⟨2, _⟩ =>
    exact (key (ix2 p _) 2 (by decide : (2 : ℕ) < 5) S40x1 _ rfl rfl 2 rfl (ix2 p (0 : Fin 1)) (hi _) rfl).trans
      (shapeCast_a_a1_apply c2 shapeCasts_S40_S40x1 p 0)
  | ⟨3, _⟩ =>
    exact (key (ix2 p _) 3 (by decide : (3 : ℕ) < 5) S40x1 _ rfl rfl 3 rfl (ix2 p (0 : Fin 1)) (hi _) rfl).trans
      (shapeCast_a_a1_apply c3 shapeCasts_S40_S40x1 p 0)
  | ⟨4, _⟩ =>
    exact (key (ix2 p _) 4 (by decide : (4 : ℕ) < 5) S40x1 _ rfl rfl 4 rfl (ix2 p (0 : Fin 1)) (hi _) rfl).trans
      (shapeCast_a_a1_apply (subf (broadcast S40 z) c4) shapeCasts_S40_S40x1 p 0)

/-- The zero offsets of the two whole-buffer accesses, as functions. -/
theorem zeros2 : (![0, 0] : Fin 2 → Nat) = fun _ => 0 := funext fun a => match a with | ⟨0, _⟩ => rfl | ⟨1, _⟩ => rfl
theorem zeros3 : (![0, 0, 0] : Fin 3 → Nat) = fun _ => 0 := funext fun a => match a with | ⟨0, _⟩ => rfl | ⟨1, _⟩ => rfl | ⟨2, _⟩ => rfl

end Dist

open Dist

/-! ## What the body leaves in the output block, read at (clip, class) -/

/-- The body's one store, over the query block `x0` and the slabs' array `x1`, read at clip `p` and class `cl`, is the
    specification's logit of the block's embeddings against the slabs. -/
theorem out2_2_apply (x0 : Vec Ideal S40x56x1024 .bf16) (x1 : Vec Ideal S5x280x1024 .bf16) (p : Fin 40) (cl : Fin 5) :
    out2_2 (F := Ideal) x0 x1 (ix2 p cl)
      = Cert.Spec.logit (fun n t o => x0 (ix3 n t o)) (fun c s o => x1 (ix3 c s o)) p cl := by
  unfold out2_2
  rw [View.canon_unit_zero zeros2, View.ld_unit_zero (S := S40x56x1024) zeros3]
  unfold val2
  rw [pay4_eq, pay9_eq, pay10_eq, pay13_eq, pay14_eq]
  refine (pay1_apply _ _ _ _ _ _ p cl).trans ?_
  match cl with
  | ⟨0, h⟩ => exact colNeg_eq_logit x0 x1 p ⟨0, h⟩ _ (slab_apply x1 ⟨0, h⟩ inb_S5x280x1024_S1x280x1024_0_0_0)
  | ⟨1, h⟩ => exact colNeg_eq_logit x0 x1 p ⟨1, h⟩ _ (slab_apply x1 ⟨1, h⟩ inb_S5x280x1024_S1x280x1024_1_0_0)
  | ⟨2, h⟩ => exact colNeg_eq_logit x0 x1 p ⟨2, h⟩ _ (slab_apply x1 ⟨2, h⟩ inb_S5x280x1024_S1x280x1024_2_0_0)
  | ⟨3, h⟩ => exact colNeg_eq_logit x0 x1 p ⟨3, h⟩ _ (slab_apply x1 ⟨3, h⟩ inb_S5x280x1024_S1x280x1024_3_0_0)
  | ⟨4, h⟩ => exact colNeg_eq_logit x0 x1 p ⟨4, h⟩ _ (slab_apply x1 ⟨4, h⟩ inb_S5x280x1024_S1x280x1024_4_0_0)

end Cert.KernelIdeal.Val

end
-- ==== Proof.DistArray.lean ====
/-
  The distances region, from blocks to the array. Point t of the grid reads clips 40 t … 40 t + 39 of the query
  embeddings and all of the class rows, and writes rows 40 t … 40 t + 39 of the result. What the body leaves at row p
  of its block is the logit of clip 40 t + p (the block-level value, read where the query block lies: a logit reads
  the query embeddings at its own clip only). Every row n of the result lies in the block of point n / 40, so after the
  region the result array holds the logit of every clip for every class, whatever it held before.
-/
import proofs.«102215_j23794118820340_1_alg».proof.Proof.DistRegion
import proofs.«102215_j23794118820340_1_alg».proof.Proof.DistBlock
import proofs.«102215_j23794118820340_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The block index of each window at each point of the grid: the query window and the result window move with the
    point along the clips, the class window stays. -/
theorem block_indices : ∀ t : Fin cfg2.N, win2_0.index t (0 : Fin 3) = t.val ∧ win2_0.index t (1 : Fin 3) = 0
    ∧ win2_0.index t (2 : Fin 3) = 0
    ∧ win2_1.index t (0 : Fin 3) = 0 ∧ win2_1.index t (1 : Fin 3) = 0 ∧ win2_1.index t (2 : Fin 3) = 0
    ∧ win2_2.index t (0 : Fin 2) = t.val ∧ win2_2.index t (1 : Fin 2) = 0 ∧ t.val < 10 :=
  (by decide +kernel : ∀ t : Fin grid2.N, _)

/-- The logits of all 400 query clips against the five classes, from the query embeddings and the class rows as the
    region finds them. -/
def logits (c : Dev nD) : S400x5.Idx → EReal := fun j =>
  Cert.Spec.logit (fun n t o => V c main_v9 (ix3 n t o)) (fun k s o => V c main_v20 (ix3 k s o)) (j 0) (j 1)

/-- The query window's block at point t is clips 40 t … 40 t + 39 of the query embeddings. -/
theorem iblk_query (c : Dev nD) (t : Fin cfg2.N) (p : Fin 40) (u : Fin 56) (o : Fin 1024) (h : 40 * t.val + p.val < 400) :
    (iblk2 V c 0 t : Vec Ideal S40x56x1024 .bf16) (ix3 p u o)
      = (V c main_v9 : S400x56x1024.Idx → Elt Ideal .bf16) (ix3 ⟨40 * t.val + p.val, h⟩ u o) := by
  obtain ⟨e0, e1, e2, -⟩ := block_indices t
  unfold iblk2
  rw [View.read_apply]
  show V c main_v9 _ = V c main_v9 _
  congr 1
  funext a
  apply Fin.ext
  match a with
  | ⟨0, _⟩ => show win2_0.index t (0 : Fin 3) * 40 + 1 * p.val = 40 * t.val + p.val; omega
  | ⟨1, _⟩ => show win2_0.index t (1 : Fin 3) * 56 + 1 * u.val = u.val; omega
  | ⟨2, _⟩ => show win2_0.index t (2 : Fin 3) * 1024 + 1 * o.val = o.val; omega

/-- The class window's block at every point is the whole array of class rows. -/
theorem iblk_class (c : Dev nD) (t : Fin cfg2.N) (j : S5x280x1024.Idx) :
    (iblk2 V c 1 t : Vec Ideal S5x280x1024 .bf16) j = (V c main_v20 : S5x280x1024.Idx → Elt Ideal .bf16) j := by
  obtain ⟨-, -, -, e0, e1, e2, -⟩ := block_indices t
  unfold iblk2
  rw [View.read_apply]
  show V c main_v20 _ = V c main_v20 _
  congr 1
  funext a
  apply Fin.ext
  match a with
  | ⟨0, _⟩ => show win2_1.index t (0 : Fin 3) * 5 + 1 * (j 0).val = (j 0).val; omega
  | ⟨1, _⟩ => show win2_1.index t (1 : Fin 3) * 280 + 1 * (j 1).val = (j 1).val; omega
  | ⟨2, _⟩ => show win2_1.index t (2 : Fin 3) * 1024 + 1 * (j 2).val = (j 2).val; omega

/-- The logit of a clip reads the query embeddings at that clip only, and the class rows at its class only. -/
theorem logit_congr {N M : Nat} (qe : Fin N → Fin 56 → Fin 1024 → EReal) (qe' : Fin M → Fin 56 → Fin 1024 → EReal)
    (cls cls' : Fin 5 → Fin 280 → Fin 1024 → EReal) (n : Fin N) (n' : Fin M) (cl : Fin 5)
    (hq : qe n = qe' n') (hc : cls cl = cls' cl) :
    Cert.Spec.logit qe cls n cl = Cert.Spec.logit qe' cls' n' cl := by
  unfold Cert.Spec.logit
  rw [hq, hc]

/-- What the body leaves at row p of the result block at point t is the logit of clip 40 t + p. -/
theorem point_logits (c : Dev nD) (t : Fin cfg2.N) (p : Fin 40) (cl : Fin 5) (h : 40 * t.val + p.val < 400) :
    out2_2 (F := Ideal) (iblk2 V c 0 t) (iblk2 V c 1 t) (ix2 p cl) = logits V c (ix2 ⟨40 * t.val + p.val, h⟩ cl) := by
  refine (out2_2_apply _ _ p cl).trans ?_
  show _ = Cert.Spec.logit (fun n t o => V c main_v9 (ix3 n t o)) (fun k s o => V c main_v20 (ix3 k s o)) ⟨40 * t.val + p.val, h⟩ cl
  refine logit_congr _ _ _ _ p ⟨40 * t.val + p.val, h⟩ cl ?_ ?_
  · funext u o
    exact iblk_query V c t p u o h
  · funext s o
    exact iblk_class V c t (ix3 cl s o)

/-- The same at any index y of the block and any index i of the array that lies 40 t rows further down. -/
theorem point_logits_at (c : Dev nD) (t : Fin cfg2.N) (y : S40x5.Idx) (i : S400x5.Idx)
    (h0 : (i 0).val = 40 * t.val + (y 0).val) (h1 : (i 1).val = (y 1).val) :
    out2_2 (F := Ideal) (iblk2 V c 0 t) (iblk2 V c 1 t) y = logits V c i := by
  obtain ⟨p, cl, rfl⟩ : ∃ (p : Fin 40) (cl : Fin 5), y = ix2 p cl := ⟨y 0, y 1, eq_ix2 y⟩
  obtain ⟨n, k, rfl⟩ : ∃ (n : Fin 400) (k : Fin 5), i = ix2 n k := ⟨i 0, i 1, eq_ix2 i⟩
  have h0' : n.val = 40 * t.val + p.val := h0
  have h1' : k.val = cl.val := h1
  have h : 40 * t.val + p.val < 400 := by have := n.isLt; omega
  obtain rfl : k = cl := Fin.ext h1'
  obtain rfl : n = ⟨40 * t.val + p.val, h⟩ := Fin.ext h0'
  exact point_logits V c t p k h

/-- What point t writes back is its block of the logits. -/
theorem flushed_logits (c : Dev nD) (t : Fin cfg2.N) :
    (dat2 V c).flushed 2 t = ((cfg2.win 2).blk t).view.read (Elt Ideal) (logits V c) := by
  obtain ⟨-, -, -, -, -, -, e0, e1, ht⟩ := block_indices t
  show (cfg2.win 2).cut (grid2.coords t) ((dat2 V c).after 2 t) = _
  rw [after2_2]
  funext j
  rw [View.read_apply]
  refine point_logits_at V c t j _ ?_ ?_
  · show win2_2.index t (0 : Fin 2) * 40 + 1 * (j 0).val = 40 * t.val + (j 0).val
    omega
  · show win2_2.index t (1 : Fin 2) * 5 + 1 * (j 1).val = (j 1).val
    omega

/-- An index of the result array is in point t's block iff each coordinate is in the block's range on its axis. -/
theorem mem_block (t : Fin cfg2.N) (i : S400x5.Idx) :
    i ∈ ((cfg2.win 2).blk t).view.set ↔ ∀ a : Fin 2, win2_2.index t a * S40x5.size a ≤ (i a).val
      ∧ (i a).val < win2_2.index t a * S40x5.size a + S40x5.size a := by
  show i ∈ ((View.whole main_v21).slice (win2_2.rect t)).set ↔ _
  rw [View.set_slice_whole, Rect.mem_set_unit]
  exact Iff.rfl

/-- Row n of the result array is in the block of point n / 40. -/
theorem cover (i : S400x5.Idx) :
    ∃ t : Fin cfg2.N, (cfg2.win 2).flush t = true ∧ i ∈ ((cfg2.win 2).blk t).view.set := by
  have hi0 : (i 0).val < 400 := (i 0).isLt
  have hi1 : (i 1).val < 5 := (i 1).isLt
  obtain ⟨t, ht⟩ : ∃ t : Fin cfg2.N, t.val = (i 0).val / 40 :=
    ⟨⟨(i 0).val / 40, lt_of_lt_of_eq (by omega : (i 0).val / 40 < 10) N_2.symm⟩, rfl⟩
  obtain ⟨-, -, -, -, -, -, e0, e1, -⟩ := block_indices t
  refine ⟨t, flush2_2 t, ?_⟩
  rw [mem_block]
  intro a
  match a with
  | ⟨0, _⟩ =>
    show win2_2.index t (0 : Fin 2) * 40 ≤ (i 0).val ∧ (i 0).val < win2_2.index t (0 : Fin 2) * 40 + 40
    omega
  | ⟨1, _⟩ =>
    show win2_2.index t (1 : Fin 2) * 5 ≤ (i 1).val ∧ (i 1).val < win2_2.index t (1 : Fin 2) * 5 + 5
    omega

/-- The result array after the region: the logits, whatever the region found in it. -/
theorem arr_logits (c : Dev nD) : (dat2 V c).arrAt 2 cfg2.N = logits V c :=
  (dat2 V c).arrAt_eq_of_cover 2 (logits V c) (fun t _ => flushed_logits V c t) cover

/-- Read at an index. -/
theorem arr2 (c : Dev nD) (n : Fin 400) (cl : Fin 5) :
    (dat2 V c).arrAt 2 cfg2.N (ix2 n cl)
      = Cert.Spec.logit (fun n t o => V c main_v9 (ix3 n t o)) (fun k s o => V c main_v20 (ix3 k s o)) n cl :=
  congrFun (arr_logits V c) (ix2 n cl)

end Cert.KernelIdeal.Val

end
-- ==== Proof.KernelValue.lean ====
/-
  The kernel program's result, index by index, as the function of the five argument arrays that Cert.Spec states:
  the distances region's output array is the logits of the query embeddings it reads against the class rows it reads;
  the query embeddings are what the first embedding region left of the query clips, the stacked weights and the bias
  row; the class rows are rows of what the second embedding region left of the support clips, picked by the sorted
  order of the labels; the stacked weights and the bias row are W's three column blocks and b.
-/
import proofs.«102215_j23794118820340_1_alg».proof.Proof.KernelTransport
import proofs.«102215_j23794118820340_1_alg».proof.Proof.KernelHost
import proofs.«102215_j23794118820340_1_alg».proof.Proof.EmbedArray
import proofs.«102215_j23794118820340_1_alg».proof.Proof.EmbedArrayS
import proofs.«102215_j23794118820340_1_alg».proof.Proof.DistArray

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The embedding over the stacked weights and the bias row as the first host stretch leaves them is the embedding
    over W and b. -/
theorem emb3_W1 {N : Nat} (x : (⟨3, ![N, 8, 2048]⟩ : Shape).Idx → EReal) (n : Fin N) (t : Fin 56) (o : Fin 1024) :
    Cert.Spec.emb3 x (W1 m ρ c (Proc.devRef .tc main_v7)) (W1 m ρ c (Proc.devRef .tc main_v8)) n t o
      = Cert.Spec.emb x (m ((c : Thread nD τ).loc main_arg3)) (m ((c : Thread nD τ).loc main_arg4)) n t o :=
  Cert.Spec.emb3_eq_emb x _ _ _ _ (fun p o d => W1_v7 m ρ c p o d) (fun o => W1_v8 m ρ c o) n t o

/-- The query embeddings the distances region reads. -/
theorem qe_kernel (n : Fin 400) (t : Fin 56) (o : Fin 1024) :
    (W5 m ρ c (Proc.devRef .tc main_v9) : S400x56x1024.Idx → EReal) (ix3 n t o)
      = Cert.Spec.emb (m ((c : Thread nD τ).loc main_arg2)) (m ((c : Thread nD τ).loc main_arg3)) (m ((c : Thread nD τ).loc main_arg4)) n t o := by
  rw [V5_v9 m ρ c]
  refine (arr0 (V1 m ρ) c n t o).trans ?_
  rw [show V1 m ρ c main_arg2 = m ((c : Thread nD τ).loc main_arg2) from V1_arg2 m ρ c]
  exact emb3_W1 m ρ c _ n t o

/-- The support embeddings the grouping stretch reads. -/
theorem se_kernel (n : Fin 25) (t : Fin 56) (o : Fin 1024) :
    (W3 m ρ c (Proc.devRef .tc main_v10) : S25x56x1024.Idx → EReal) (ix3 n t o)
      = Cert.Spec.emb (m ((c : Thread nD τ).loc main_arg0)) (m ((c : Thread nD τ).loc main_arg3)) (m ((c : Thread nD τ).loc main_arg4)) n t o := by
  rw [W3_v10 m ρ c]
  refine (arr1 (V2 m ρ) c n t o).trans ?_
  rw [show V2 m ρ c main_arg0 = m ((c : Thread nD τ).loc main_arg0) from V2_arg0 m ρ c,
    show V2 m ρ c main_v7 = W1 m ρ c (Proc.devRef .tc main_v7) from V2_v7 m ρ c,
    show V2 m ρ c main_v8 = W1 m ρ c (Proc.devRef .tc main_v8) from V2_v8 m ρ c]
  exact emb3_W1 m ρ c _ n t o

/-- THE RESULT at (n, k). -/
theorem kernel_result (n : Fin 400) (k : Fin 5) :
    (W6 m ρ c (Proc.devRef .tc main_v21) : S400x5.Idx → EReal) (ix2 n k)
      = Cert.Spec.result (m ((c : Thread nD τ).loc main_arg0)) (kord (m ((c : Thread nD τ).loc main_arg1)))
          (m ((c : Thread nD τ).loc main_arg2)) (m ((c : Thread nD τ).loc main_arg3)) (m ((c : Thread nD τ).loc main_arg4)) n k := by
  rw [W6_main_v21 m ρ c]
  refine (arr2 (V5 m ρ) c n k).trans ?_
  unfold Cert.Spec.result
  congr 1
  · funext n t o; exact qe_kernel m ρ c n t o
  · funext k s o
    exact (W5_v20 m ρ c k s o).trans (se_kernel m ρ c _ _ o)

/-- The kernel program's run with its result named and its arguments unchanged. -/
theorem kernel_run : θ_run (defs (F := Ideal)) (onTc (τ := τ) (main (F := Ideal))) ⟨m, fun _ => 0, ρ⟩ (fun r => ∀ c : Dev nD,
      r.2.mem ((c.tc : Thread nD τ).loc main_v21)
        = (fun j : S400x5.Idx => Cert.Spec.result (m ((c : Thread nD τ).loc main_arg0)) (kord (m ((c : Thread nD τ).loc main_arg1)))
            (m ((c : Thread nD τ).loc main_arg2)) (m ((c : Thread nD τ).loc main_arg3)) (m ((c : Thread nD τ).loc main_arg4)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v21 (by decide))).trans (funext fun j => by
        rw [eq_ix2 j]; exact kernel_result m ρ c (j 0) (j 1)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Val

end
-- ==== Proof.RefEmbedLemmas.lean ====
/-
  Index and sum facts the embedding stages' reads rest on, free of any program.

  * A sum over 6144 columns is the sum of its three runs of 2048 columns, in the association ((first + second) + third).
  * The gather that picks whole frames of a clip by a [56, 3, 1] table of frame numbers, read at (n, t, p, d): the operand at
    (n, table[t, p, 0] read signed and clamped into 0 … 7, d).
  * That gather under the two reshapes [N, 56, 3, 2048] → [N, 56, 6144] → [56 N, 6144], read at row 56 n + t and column
    2048 p + d: the same operand element (the row-major positions agree).
  * The plain product of [M, 6144] by [6144, 1024] at the extended reals, read at (r, o): the sum over the 6144 columns.
  * A vector broadcast to one row and then down M rows reads the vector at the column; a scalar broadcast reads the scalar.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Idealize.ShloMosaic Idealize.ShloMosaic.ValueIdx
open scoped BigOperators

/-! ## A sum over 6144 columns in three runs -/

theorem sum_three_runs {M : Type*} [AddCommMonoid M] (f : Fin 6144 → M) :
    ∑ c, f c = ((∑ d : Fin 2048, f ⟨d.val, by omega⟩) + ∑ d : Fin 2048, f ⟨2048 + d.val, by omega⟩)
      + ∑ d : Fin 2048, f ⟨4096 + d.val, by omega⟩ := by
  rw [← Fin.sum_congr' f (show 2048 + 2048 + 2048 = 6144 from rfl), Fin.sum_univ_add, Fin.sum_univ_add]
  rfl

/-! ## The gather of whole frames -/

/-- The gather's dimension numbers for an operand [N, 8, 2048], start indices [56, 3, 1] and a result [N, 56, 3, 2048]:
    the clip and feature axes are offset axes, the frame axis is collapsed and is the one the start index names. -/
abbrev framesDims (N : Nat)
    (wf : GatherDims.WF ⟨3, ![N, 8, 2048]⟩ ⟨3, ![56, 3, 1]⟩ ⟨4, ![N, 56, 3, 2048]⟩ [0, 3] [1] [] [1] [] 2 ![N, 1, 2048]) :
    GatherDims ⟨3, ![N, 8, 2048]⟩ ⟨3, ![56, 3, 1]⟩ ⟨4, ![N, 56, 3, 2048]⟩ where
  offsetDims := [0, 3]
  collapsedSliceDims := [1]
  operandBatchingDims := []
  startIndicesBatchingDims := []
  startIndexMap := [1]
  indexVectorDim := 2
  sliceSizes := ![N, 1, 2048]
  wf := wf

/-- Read at (n, t, p, d) the gather is the operand at clip n, frame table[t, p, 0] (signed, clamped into 0 … 7), feature d. -/
theorem gather_frames_apply {α : Type} {N w : Nat}
    (wf : GatherDims.WF ⟨3, ![N, 8, 2048]⟩ ⟨3, ![56, 3, 1]⟩ ⟨4, ![N, 56, 3, 2048]⟩ [0, 3] [1] [] [1] [] 2 ![N, 1, 2048])
    (x : (⟨3, ![N, 8, 2048]⟩ : Shape).Idx → α) (idx : IVec ⟨3, ![56, 3, 1]⟩ w)
    (n : Fin N) (t : Fin 56) (p : Fin 3) (d : Fin 2048) :
    Host.gather (framesDims N wf) x idx (ix4 n t p d)
      = x (ix3 n ⟨min (idx (ix3 t p (0 : Fin 1))).toInt.toNat 7, by omega⟩ d) := by
  unfold Host.gather
  congr 1
  funext a
  refine Fin.ext ?_
  show (framesDims N wf).start (ix4 n t p d) idx a + (framesDims N wf).batchCoord (ix4 n t p d) a
    + (framesDims N wf).offCoord (ix4 n t p d) a = _
  rw [GatherDims.batchCoord_eq_zero _ _ _ List.not_mem_nil, Nat.add_zero]
  match a with
  | ⟨0, h0⟩ =>
    have hm : (⟨0, h0⟩ : Fin 3) ∉ (framesDims N wf).startIndexMap := fun h =>
      absurd (congrArg Fin.val (List.mem_singleton.mp h)) Nat.zero_ne_one
    have hk : (⟨0, h0⟩ : Fin 3) ∈ (framesDims N wf).sKept := (GatherDims.mem_sKept _ _).2
      ⟨fun h => absurd (congrArg Fin.val (List.mem_singleton.mp h)) Nat.zero_ne_one, List.not_mem_nil⟩
    unfold GatherDims.start GatherDims.offCoord
    rw [dif_neg hm, dif_pos hk, Nat.zero_add]
    rfl
  | ⟨1, h1⟩ =>
    have hm : (⟨1, h1⟩ : Fin 3) ∈ (framesDims N wf).startIndexMap := List.mem_singleton.mpr rfl
    rw [GatherDims.offCoord_eq_zero _ _ _ (fun h => ((GatherDims.mem_sKept _ _).1 h).1 (List.mem_singleton.mpr rfl)),
      Nat.add_zero]
    unfold GatherDims.start
    rw [dif_pos hm]
    have hsi : (framesDims N wf).siIdx (ix4 n t p d) ⟨List.idxOf (⟨1, h1⟩ : Fin 3) (framesDims N wf).startIndexMap,
        List.idxOf_lt_length_iff.2 hm⟩ = ix3 t p (0 : Fin 1) := by
      funext b; refine Fin.ext ?_
      match b with
      | ⟨0, _⟩ => rfl
      | ⟨1, _⟩ => rfl
      | ⟨2, _⟩ => rfl
    rw [hsi]
    rfl
  | ⟨2, h2⟩ =>
    have hm : (⟨2, h2⟩ : Fin 3) ∉ (framesDims N wf).startIndexMap := fun h =>
      absurd (congrArg Fin.val (List.mem_singleton.mp h)) (show (2 : ℕ) ≠ 1 by decide)
    have hk : (⟨2, h2⟩ : Fin 3) ∈ (framesDims N wf).sKept := (GatherDims.mem_sKept _ _).2
      ⟨fun h => absurd (congrArg Fin.val (List.mem_singleton.mp h)) (show (2 : ℕ) ≠ 1 by decide), List.not_mem_nil⟩
    unfold GatherDims.start GatherDims.offCoord
    rw [dif_neg hm, dif_pos hk, Nat.zero_add]
    rfl

/-- The same under the two reshapes that lay a triple's frames end to end and the (clip, triple) pairs into rows. -/
theorem rows_apply {α : Type} {N M w : Nat}
    (wf : GatherDims.WF ⟨3, ![N, 8, 2048]⟩ ⟨3, ![56, 3, 1]⟩ ⟨4, ![N, 56, 3, 2048]⟩ [0, 3] [1] [] [1] [] 2 ![N, 1, 2048])
    (h1 : (⟨4, ![N, 56, 3, 2048]⟩ : Shape).ShapeCasts ⟨3, ![N, 56, 6144]⟩)
    (h2 : (⟨3, ![N, 56, 6144]⟩ : Shape).ShapeCasts ⟨2, ![M, 6144]⟩)
    (x : (⟨3, ![N, 8, 2048]⟩ : Shape).Idx → α) (idx : IVec ⟨3, ![56, 3, 1]⟩ w)
    (n : Fin N) (t : Fin 56) (p : Fin 3) (d : Fin 2048) (r : Fin M) (c : Fin 6144)
    (hr : r.val = 56 * n.val + t.val) (hc : c.val = 2048 * p.val + d.val) :
    shapeCast ⟨2, ![M, 6144]⟩ (shapeCast ⟨3, ![N, 56, 6144]⟩ (Host.gather (framesDims N wf) x idx) h1) h2 (ix2 r c)
      = x (ix3 n ⟨min (idx (ix3 t p (0 : Fin 1))).toInt.toNat 7, by omega⟩ d) := by
  rw [shapeCast_apply _ h2 (ix2 r c) (ix3 n t c) (by
        rw [Shape.rowMajor_val_three, Shape.rowMajor_val_two]
        show (n.val * 56 + t.val) * 6144 + c.val = r.val * 6144 + c.val
        rw [hr]; omega),
    shapeCast_apply _ h1 (ix3 n t c) (ix4 n t p d) (by
        rw [Shape.rowMajor_val_four, Shape.rowMajor_val_three]
        show ((n.val * 56 + t.val) * 3 + p.val) * 2048 + d.val = (n.val * 56 + t.val) * 6144 + c.val
        rw [hc]; omega),
    gather_frames_apply]

/-! ## The plain product, as a sum over the columns -/

/-- The dimension numbers of [M, 6144] times [6144, 1024]: no batch axis, the columns of the left against the rows of the right. -/
abbrev plainDot (M : Nat)
    (wf : DotDims.WF ⟨2, ![M, 6144]⟩ ⟨2, ![6144, 1024]⟩ ⟨2, ![M, 1024]⟩ [1] [0] [0] [1] [] []) :
    DotDims ⟨2, ![M, 6144]⟩ ⟨2, ![6144, 1024]⟩ ⟨2, ![M, 1024]⟩ where
  lhsContracting := [1]
  rhsContracting := [0]
  lhsNonContracting := [0]
  rhsNonContracting := [1]
  lhsBatch := []
  rhsBatch := []
  wf := wf

theorem plainDot_apply {M : Nat}
    (wf : DotDims.WF ⟨2, ![M, 6144]⟩ ⟨2, ![6144, 1024]⟩ ⟨2, ![M, 1024]⟩ [1] [0] [0] [1] [] [])
    (L : FVec Ideal ⟨2, ![M, 6144]⟩ .f32) (R : FVec Ideal ⟨2, ![6144, 1024]⟩ .f32) (r : Fin M) (o : Fin 1024) :
    Host.dotGeneral (plainDot M wf) none L R (ix2 r o) = ∑ c : Fin 6144, L (ix2 r c) * R (ix2 c o) := by
  show FloatOps.dotGeneral (plainDot M wf) none .single L R (ix2 r o) = _
  rw [Ideal.dotGeneral_apply, ← Equiv.sum_comp (contrEquiv1 (plainDot M wf) 6144 rfl rfl).symm]
  refine Finset.sum_congr rfl fun c _ => ?_
  have hl : (plainDot M wf).lhsIdx (ix2 r o) ((contrEquiv1 (plainDot M wf) 6144 rfl rfl).symm c) = ix2 r c := by
    funext a; refine Fin.ext ?_
    match a with
    | ⟨0, _⟩ => rfl
    | ⟨1, _⟩ => exact contrEquiv1_symm_val (plainDot M wf) 6144 rfl rfl c
  have hr : (plainDot M wf).rhsIdx (ix2 r o) ((contrEquiv1 (plainDot M wf) 6144 rfl rfl).symm c) = ix2 c o := by
    funext a; refine Fin.ext ?_
    match a with
    | ⟨0, _⟩ => exact contrEquiv1_symm_val (plainDot M wf) 6144 rfl rfl c
    | ⟨1, _⟩ => rfl
  rw [hl, hr]

/-! ## The bias and the zero, broadcast -/

/-- A vector of 1024 entries made one row and then repeated down M rows reads, at (r, o), entry o. -/
theorem bias_apply {α : Type} {M : Nat}
    (h1 : (⟨1, ![1024]⟩ : Shape).BroadcastsInDim ⟨2, ![1, 1024]⟩ ![1])
    (h2 : (⟨2, ![1, 1024]⟩ : Shape).BroadcastsInDim ⟨2, ![M, 1024]⟩ ![0, 1])
    (b : (⟨1, ![1024]⟩ : Shape).Idx → α) (r : Fin M) (o : Fin 1024) :
    broadcastInDim ⟨2, ![M, 1024]⟩ ![0, 1] h2 (broadcastInDim ⟨2, ![1, 1024]⟩ ![1] h1 b) (ix2 r o) = b (ix1 o) := by
  rw [broadcastInDim_apply _ h2 _ (ix2 r o) (ix2 (0 : Fin 1) o) (fun a => match a with | ⟨0, _⟩ => rfl | ⟨1, _⟩ => rfl),
    broadcastInDim_apply _ h1 _ (ix2 (0 : Fin 1) o) (ix1 o) (fun a => match a with | ⟨0, _⟩ => rfl)]

/-- The rectifier's zero: the f32 constant 0 broadcast to any shape is the extended real 0 everywhere. -/
theorem zero_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

end Cert.ReferenceIdeal.RefValue

end
-- ==== Proof.RefEmbed.lean ====
/-
  The reference's two embedding stages as pure functions of the argument arrays, each read at an index.

  Both stages do the same thing to a stack of clips x : [N, 8, 2048]. A table of 56 rows of 3 frame numbers (the
  increasing triples of the 8 frames, in lexicographic order) goes through the wrap of negative indices (compare with 0,
  add 8, select) and is laid out as [56, 3, 1]. The gather reads, for clip n, triple t and position p, frame
  table[t, p] of the clip (clamped into 0 … 7), all 2048 features: [N, 56, 3, 2048]. A reshape lays the three frames of a
  triple end to end (column e = 2048 p + d of [N, 56, 6144]), another flattens clips and triples into rows (row 56 n + t).
  The rows are multiplied by the transpose of W : [1024, 6144], the bias is added (broadcast along the rows) and the
  result is rectified (maximum with a broadcast zero). The query stage stops there ([22400, 1024]); the support stage
  (N = 25) reshapes its [1400, 1024] back to [25, 56, 1024].

  Read at row 56 n + t and feature o, the product is a sum over the 6144 columns; the columns split into three runs of
  2048, one per position of the triple, which is the sum of three products of the specification's embedding.
-/
import proofs.«102215_j23794118820340_1_alg».proof.Proof.Gen.ReferenceIdeal
import proofs.«102215_j23794118820340_1_alg».proof.Proof.Spec
import proofs.«102215_j23794118820340_1_alg».proof.Proof.RefEmbedLemmas
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Facts₀
open Idealize.ShloMosaic Idealize.ShloMosaic.ValueIdx
open scoped BigOperators

variable {F : FTy → Type} [FloatOps F]

/-- The table of frame numbers as both gathers take it: the literal table, wrapped where negative (compare with 0, add 8,
    select), laid out as [56, 3, 1]. -/
def tupIdx : (⟨S56x3x1, .i32⟩ : BufTy).Contents (Elt F) :=
  (broadcastInDim S56x3x1 ![0, 1] bcast_S56x3_S56x3x1_0_1 : (⟨S56x3, .i32⟩ : BufTy).Contents (Elt F) → (⟨S56x3x1, .i32⟩ : BufTy).Contents (Elt F))
    ((select : (⟨S56x3, .i1⟩ : BufTy).Contents (Elt F) → (⟨S56x3, .i32⟩ : BufTy).Contents (Elt F) → (⟨S56x3, .i32⟩ : BufTy).Contents (Elt F) → (⟨S56x3, .i32⟩ : BufTy).Contents (Elt F))
      ((cmpi .slt : (⟨S56x3, .i32⟩ : BufTy).Contents (Elt F) → (⟨S56x3, .i32⟩ : BufTy).Contents (Elt F) → (⟨S56x3, .i1⟩ : BufTy).Contents (Elt F)) (fun i => lit0 (S56x3.rowMajor i) : (⟨S56x3, .i32⟩ : BufTy).Contents (Elt F)) ((broadcastInDim S56x3 ![] bcast_S_S56x3 : (⟨S_, .i32⟩ : BufTy).Contents (Elt F) → (⟨S56x3, .i32⟩ : BufTy).Contents (Elt F)) (constantI S_ 32 0#32)))
      ((addi : (⟨S56x3, .i32⟩ : BufTy).Contents (Elt F) → (⟨S56x3, .i32⟩ : BufTy).Contents (Elt F) → (⟨S56x3, .i32⟩ : BufTy).Contents (Elt F)) (fun i => lit0 (S56x3.rowMajor i) : (⟨S56x3, .i32⟩ : BufTy).Contents (Elt F)) ((broadcastInDim S56x3 ![] bcast_S_S56x3 : (⟨S_, .i32⟩ : BufTy).Contents (Elt F) → (⟨S56x3, .i32⟩ : BufTy).Contents (Elt F)) (constantI S_ 32 8#32)))
      (fun i => lit0 (S56x3.rowMajor i) : (⟨S56x3, .i32⟩ : BufTy).Contents (Elt F)))

/-- The query stage: the 400 query clips' tuple embeddings, one row per (clip, tuple): [22400, 1024]. -/
def qeStage (a2 : FVec F S400x8x2048 .f32) (a3 : FVec F S1024x6144 .f32) (a4 : FVec F S1024 .f32) : FVec F S22400x1024 .f32 :=
  (maximumf : (⟨S22400x1024, .f32⟩ : BufTy).Contents (Elt F) → (⟨S22400x1024, .f32⟩ : BufTy).Contents (Elt F) → (⟨S22400x1024, .f32⟩ : BufTy).Contents (Elt F))
    ((addf : (⟨S22400x1024, .f32⟩ : BufTy).Contents (Elt F) → (⟨S22400x1024, .f32⟩ : BufTy).Contents (Elt F) → (⟨S22400x1024, .f32⟩ : BufTy).Contents (Elt F))
      (((fun l r => Host.dotGeneral dot_S22400x6144_S6144x1024_S22400x1024_1_0_0_1_n_n none l r) : (⟨S22400x6144, .f32⟩ : BufTy).Contents (Elt F) → (⟨S6144x1024, .f32⟩ : BufTy).Contents (Elt F) → (⟨S22400x1024, .f32⟩ : BufTy).Contents (Elt F))
        (shapeCast S22400x6144
          (shapeCast S400x56x6144
            (((fun x i => Host.gather gather_S400x8x2048_S56x3x1_S400x56x3x2048_03_1_n_n_1_2_40012048 x i) : (⟨S400x8x2048, .f32⟩ : BufTy).Contents (Elt F) → (⟨S56x3x1, .i32⟩ : BufTy).Contents (Elt F) → (⟨S400x56x3x2048, .f32⟩ : BufTy).Contents (Elt F)) a2 tupIdx)
            shapeCasts_S400x56x3x2048_S400x56x6144)
          shapeCasts_S400x56x6144_S22400x6144)
        (((transpose S6144x1024 [1, 0] · transposes_S1024x6144_S6144x1024_1_0) : (⟨S1024x6144, .f32⟩ : BufTy).Contents (Elt F) → (⟨S6144x1024, .f32⟩ : BufTy).Contents (Elt F)) a3))
      ((broadcastInDim S22400x1024 ![0, 1] bcast_S1x1024_S22400x1024_0_1 : (⟨S1x1024, .f32⟩ : BufTy).Contents (Elt F) → (⟨S22400x1024, .f32⟩ : BufTy).Contents (Elt F))
        ((broadcastInDim S1x1024 ![1] bcast_S1024_S1x1024_1 : (⟨S1024, .f32⟩ : BufTy).Contents (Elt F) → (⟨S1x1024, .f32⟩ : BufTy).Contents (Elt F)) a4)))
    ((broadcastInDim S22400x1024 ![] bcast_S_S22400x1024 : (⟨S_, .f32⟩ : BufTy).Contents (Elt F) → (⟨S22400x1024, .f32⟩ : BufTy).Contents (Elt F)) (constant S_ .f32 0x00000000#32))

/-- The support stage: the 25 support clips' tuple embeddings: [25, 56, 1024]. -/
def seStage (a0 : FVec F S25x8x2048 .f32) (a3 : FVec F S1024x6144 .f32) (a4 : FVec F S1024 .f32) : FVec F S25x56x1024 .f32 :=
  shapeCast S25x56x1024
    ((maximumf : (⟨S1400x1024, .f32⟩ : BufTy).Contents (Elt F) → (⟨S1400x1024, .f32⟩ : BufTy).Contents (Elt F) → (⟨S1400x1024, .f32⟩ : BufTy).Contents (Elt F))
      ((addf : (⟨S1400x1024, .f32⟩ : BufTy).Contents (Elt F) → (⟨S1400x1024, .f32⟩ : BufTy).Contents (Elt F) → (⟨S1400x1024, .f32⟩ : BufTy).Contents (Elt F))
        (((fun l r => Host.dotGeneral dot_S1400x6144_S6144x1024_S1400x1024_1_0_0_1_n_n none l r) : (⟨S1400x6144, .f32⟩ : BufTy).Contents (Elt F) → (⟨S6144x1024, .f32⟩ : BufTy).Contents (Elt F) → (⟨S1400x1024, .f32⟩ : BufTy).Contents (Elt F))
          (shapeCast S1400x6144
            (shapeCast S25x56x6144
              (((fun x i => Host.gather gather_S25x8x2048_S56x3x1_S25x56x3x2048_03_1_n_n_1_2_2512048 x i) : (⟨S25x8x2048, .f32⟩ : BufTy).Contents (Elt F) → (⟨S56x3x1, .i32⟩ : BufTy).Contents (Elt F) → (⟨S25x56x3x2048, .f32⟩ : BufTy).Contents (Elt F)) a0 tupIdx)
              shapeCasts_S25x56x3x2048_S25x56x6144)
            shapeCasts_S25x56x6144_S1400x6144)
          (((transpose S6144x1024 [1, 0] · transposes_S1024x6144_S6144x1024_1_0) : (⟨S1024x6144, .f32⟩ : BufTy).Contents (Elt F) → (⟨S6144x1024, .f32⟩ : BufTy).Contents (Elt F)) a3))
        ((broadcastInDim S1400x1024 ![0, 1] bcast_S1x1024_S1400x1024_0_1 : (⟨S1x1024, .f32⟩ : BufTy).Contents (Elt F) → (⟨S1400x1024, .f32⟩ : BufTy).Contents (Elt F))
          ((broadcastInDim S1x1024 ![1] bcast_S1024_S1x1024_1 : (⟨S1024, .f32⟩ : BufTy).Contents (Elt F) → (⟨S1x1024, .f32⟩ : BufTy).Contents (Elt F)) a4)))
      ((broadcastInDim S1400x1024 ![] bcast_S_S1400x1024 : (⟨S_, .f32⟩ : BufTy).Contents (Elt F) → (⟨S1400x1024, .f32⟩ : BufTy).Contents (Elt F)) (constant S_ .f32 0x00000000#32)))
    shapeCasts_S1400x1024_S25x56x1024

/-! ## The table of frame numbers, read -/

/-- Entry (t, p) of the table the gathers take: the literal at row-major position 3 t + p, wrapped where negative. -/
theorem tupIdx_apply (t : Fin 56) (p : Fin 3) :
    tupIdx (F := F) (ix3 t p (0 : Fin 1))
      = Scalar.select (IntOp.cmpi .slt (lit0 ⟨3 * t.val + p.val, by omega⟩) 0#32)
          (IntOp.addi (lit0 ⟨3 * t.val + p.val, by omega⟩) 8#32) (lit0 ⟨3 * t.val + p.val, by omega⟩) := by
  have hpos : S56x3.rowMajor (ix2 t p) = (⟨3 * t.val + p.val, by omega⟩ : Fin 168) :=
    Fin.ext (by rw [Shape.rowMajor_val_two]; show t.val * 3 + p.val = 3 * t.val + p.val; omega)
  unfold tupIdx
  rw [broadcastInDim_apply _ bcast_S56x3_S56x3x1_0_1 _ (ix3 t p (0 : Fin 1)) (ix2 t p)
    (fun a => match a with | ⟨0, _⟩ => rfl | ⟨1, _⟩ => rfl)]
  show Scalar.select (IntOp.cmpi .slt (lit0 (S56x3.rowMajor (ix2 t p)))
      (broadcastInDim S56x3 ![] bcast_S_S56x3 (constantI S_ 32 0#32) (ix2 t p)))
    (IntOp.addi (lit0 (S56x3.rowMajor (ix2 t p))) (broadcastInDim S56x3 ![] bcast_S_S56x3 (constantI S_ 32 8#32) (ix2 t p)))
    (lit0 (S56x3.rowMajor (ix2 t p))) = _
  rw [hpos, broadcastInDim_scalar_apply, broadcastInDim_scalar_apply]
  rfl

/-- The literal table is the table of increasing triples: every entry is a frame number 0 … 7, so neither the wrap nor
    the gather's clamp changes it. -/
theorem table_eq_combo : ∀ (t : Fin 56) (p : Fin 3),
    min (Scalar.select (IntOp.cmpi .slt (lit0 ⟨3 * t.val + p.val, by omega⟩) 0#32)
        (IntOp.addi (lit0 ⟨3 * t.val + p.val, by omega⟩) 8#32) (lit0 ⟨3 * t.val + p.val, by omega⟩)).toInt.toNat 7
      = (Cert.Spec.combo t p).val := by
  decide +kernel

/-- The frame the gather reads for triple t at position p, as a number. -/
theorem frame_val (t : Fin 56) (p : Fin 3) :
    min (tupIdx (F := F) (ix3 t p (0 : Fin 1))).toInt.toNat 7 = (Cert.Spec.combo t p).val := by
  rw [tupIdx_apply]
  exact table_eq_combo t p

/-- The same as a frame of the clip. -/
theorem frame_eq_combo (t : Fin 56) (p : Fin 3) (h : min (tupIdx (F := F) (ix3 t p (0 : Fin 1))).toInt.toNat 7 < 8) :
    (⟨min (tupIdx (F := F) (ix3 t p (0 : Fin 1))).toInt.toNat 7, h⟩ : Fin 8) = Cert.Spec.combo t p :=
  Fin.ext (frame_val t p)

/-! ## The rows the product takes: a triple's three frames end to end -/

theorem qeRows_apply (a2 : FVec F S400x8x2048 .f32) (n : Fin 400) (t : Fin 56) (p : Fin 3) (d : Fin 2048) (c : Fin 6144)
    (hc : c.val = 2048 * p.val + d.val) :
    shapeCast S22400x6144 (shapeCast S400x56x6144 (Host.gather gather_S400x8x2048_S56x3x1_S400x56x3x2048_03_1_n_n_1_2_40012048 a2 (tupIdx (F := F)))
        shapeCasts_S400x56x3x2048_S400x56x6144) shapeCasts_S400x56x6144_S22400x6144 (ix2 ⟨56 * n.val + t.val, by omega⟩ c)
      = a2 (ix3 n (Cert.Spec.combo t p) d) := by
  refine (rows_apply (N := 400) (M := 22400) gather_S400x8x2048_S56x3x1_S400x56x3x2048_03_1_n_n_1_2_40012048_wf shapeCasts_S400x56x3x2048_S400x56x6144
    shapeCasts_S400x56x6144_S22400x6144 a2 (tupIdx (F := F)) n t p d ⟨56 * n.val + t.val, by omega⟩ c rfl hc).trans ?_
  rw [frame_eq_combo]

theorem seRows_apply (a0 : FVec F S25x8x2048 .f32) (n : Fin 25) (t : Fin 56) (p : Fin 3) (d : Fin 2048) (c : Fin 6144)
    (hc : c.val = 2048 * p.val + d.val) :
    shapeCast S1400x6144 (shapeCast S25x56x6144 (Host.gather gather_S25x8x2048_S56x3x1_S25x56x3x2048_03_1_n_n_1_2_2512048 a0 (tupIdx (F := F)))
        shapeCasts_S25x56x3x2048_S25x56x6144) shapeCasts_S25x56x6144_S1400x6144 (ix2 ⟨56 * n.val + t.val, by omega⟩ c)
      = a0 (ix3 n (Cert.Spec.combo t p) d) := by
  refine (rows_apply (N := 25) (M := 1400) gather_S25x8x2048_S56x3x1_S25x56x3x2048_03_1_n_n_1_2_2512048_wf shapeCasts_S25x56x3x2048_S25x56x6144
    shapeCasts_S25x56x6144_S1400x6144 a0 (tupIdx (F := F)) n t p d ⟨56 * n.val + t.val, by omega⟩ c rfl hc).trans ?_
  rw [frame_eq_combo]

/-! ## The two stages at an index -/

/-- The rectified sum both stages end in, from the rows' reads: the product over 6144 columns in three runs, plus the bias. -/
theorem emb_of_rows {N : Nat} (x : (⟨3, ![N, 8, 2048]⟩ : Shape).Idx → EReal) (a3 : FVec Ideal S1024x6144 .f32)
    (a4 : FVec Ideal S1024 .f32) (n : Fin N) (t : Fin 56) (o : Fin 1024) (row : Fin 6144 → EReal)
    (hrow : ∀ (p : Fin 3) (d : Fin 2048) (c : Fin 6144), c.val = 2048 * p.val + d.val → row c = x (ix3 n (Cert.Spec.combo t p) d)) :
    max ((∑ c : Fin 6144, row c * transpose S6144x1024 [1, 0] a3 transposes_S1024x6144_S6144x1024_1_0 (ix2 c o)) + a4 (ix1 o)) 0
      = Cert.Spec.emb x a3 a4 n t o := by
  unfold Cert.Spec.emb
  rw [sum_three_runs]
  congr 2
  congr 1
  congr 1
  · refine Finset.sum_congr rfl fun d _ => ?_
    rw [transpose_ix2_apply, hrow 0 d _ (by simp)]
  · refine Finset.sum_congr rfl fun d _ => ?_
    rw [transpose_ix2_apply, hrow 1 d _ (by simp)]
  · refine Finset.sum_congr rfl fun d _ => ?_
    rw [transpose_ix2_apply, hrow 2 d _ (by simp)]

/-- The query stage at row 56 n + t, feature o, is the specification's embedding of tuple t of query clip n. -/
theorem qeStage_apply (a2 : FVec Ideal S400x8x2048 .f32) (a3 : FVec Ideal S1024x6144 .f32) (a4 : FVec Ideal S1024 .f32)
    (n : Fin 400) (t : Fin 56) (o : Fin 1024) :
    qeStage (F := Ideal) a2 a3 a4 (ix2 ⟨56 * n.val + t.val, by omega⟩ o) = Cert.Spec.emb a2 a3 a4 n t o := by
  refine Eq.trans ?_ (emb_of_rows a2 a3 a4 n t o
    (fun c => shapeCast S22400x6144 (shapeCast S400x56x6144 (Host.gather gather_S400x8x2048_S56x3x1_S400x56x3x2048_03_1_n_n_1_2_40012048 a2 (tupIdx (F := Ideal)))
        shapeCasts_S400x56x3x2048_S400x56x6144) shapeCasts_S400x56x6144_S22400x6144 (ix2 ⟨56 * n.val + t.val, by omega⟩ c))
    (fun p d c hc => qeRows_apply a2 n t p d c hc))
  unfold qeStage
  rw [maximumf_apply, addf_apply, zero_apply, bias_apply]
  congr 2
  exact plainDot_apply (M := 22400) dot_S22400x6144_S6144x1024_S22400x1024_1_0_0_1_n_n_wf _ _ _ o

/-- The support stage at (n, t, o) is the specification's embedding of tuple t of support clip n. -/
theorem seStage_apply (a0 : FVec Ideal S25x8x2048 .f32) (a3 : FVec Ideal S1024x6144 .f32) (a4 : FVec Ideal S1024 .f32)
    (n : Fin 25) (t : Fin 56) (o : Fin 1024) :
    seStage (F := Ideal) a0 a3 a4 (ix3 n t o) = Cert.Spec.emb a0 a3 a4 n t o := by
  refine Eq.trans ?_ (emb_of_rows a0 a3 a4 n t o
    (fun c => shapeCast S1400x6144 (shapeCast S25x56x6144 (Host.gather gather_S25x8x2048_S56x3x1_S25x56x3x2048_03_1_n_n_1_2_2512048 a0 (tupIdx (F := Ideal)))
        shapeCasts_S25x56x3x2048_S25x56x6144) shapeCasts_S25x56x6144_S1400x6144 (ix2 ⟨56 * n.val + t.val, by omega⟩ c))
    (fun p d c hc => seRows_apply a0 n t p d c hc))
  unfold seStage
  rw [shapeCast_apply _ shapeCasts_S1400x1024_S25x56x1024 (ix3 n t o) (ix2 ⟨56 * n.val + t.val, by omega⟩ o) (by
    rw [Shape.rowMajor_val_two, Shape.rowMajor_val_three]
    show (56 * n.val + t.val) * 1024 + o.val = (n.val * 56 + t.val) * 1024 + o.val
    omega)]
  rw [maximumf_apply, addf_apply, zero_apply, bias_apply]
  congr 2
  exact plainDot_apply (M := 1400) dot_S1400x6144_S6144x1024_S1400x1024_1_0_0_1_n_n_wf _ _ _ o

end Cert.ReferenceIdeal.RefValue

end
-- ==== Proof.RefDist.lean ====
/-
  The reference's last two stages as pure functions, and their values index by index.

  After the support embeddings se : [25, 56, 1024] and the query embeddings qe : [22400, 1024] are computed, the
  reference sorts the 25 labels stably (the argsort `ord`), reshapes the order to [5, 5], wraps negative words
  (w + 25), gathers the rows of se at those words (each clamped into [0, 24]) into [5, 5, 56, 1024] and reshapes to
  the class rows cls : [5, 280, 1024]: row s = 56 r + t of class c is tuple t of the clip at place 5 c + r.
  The logits are minus the mean, over a query clip's 56 tuples, of the least distance from the tuple's embedding to a
  class row, the distance sqrt(max(|q|^2 + |s|^2 - 2 q.s, 0)) with the dot products from one dot_general.
-/
import proofs.«102215_j23794118820340_1_alg».proof.Proof.Gen.ReferenceIdeal
import proofs.«102215_j23794118820340_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Cert.ReferenceIdeal Cert.ReferenceIdeal.Facts₀
open Idealize.ShloMosaic Idealize.ShloMosaic.ValueIdx

/-! ## The stages -/

/-- The stable argsort of the labels: the iota sorted along with them. -/
def ordStage (a1 : IVec S25 32) : IVec S25 32 :=
  (Host.sort2 S25 0 comparator_i32_i32_d0 a1 (iotaInDim S25 32 0)).2

/-- The class rows from the support embeddings and the sorted order. -/
def clsStage {F : FTy → Type} [FloatOps F] (se : FVec F S25x56x1024 .f32) (ord : IVec S25 32) : FVec F S5x280x1024 .f32 :=
  shapeCast S5x280x1024
    (Host.gather gather_S25x56x1024_S5x5x1_S5x5x56x1024_23_0_n_n_0_2_1561024 se
      (broadcastInDim S5x5x1 ![0, 1] bcast_S5x5_S5x5x1_0_1
        (select
          (cmpi .slt (shapeCast S5x5 ord shapeCasts_S25_S5x5) (broadcastInDim S5x5 ![] bcast_S_S5x5 (constantI S_ 32 0#32)))
          (addi (shapeCast S5x5 ord shapeCasts_S25_S5x5) (broadcastInDim S5x5 ![] bcast_S_S5x5 (constantI S_ 32 25#32)))
          (shapeCast S5x5 ord shapeCasts_S25_S5x5))))
    shapeCasts_S5x5x56x1024_S5x280x1024

/-- The logits from the query embeddings and the class rows. -/
def outStage {F : FTy → Type} [FloatOps F] (qe : FVec F S22400x1024 .f32) (cls : FVec F S5x280x1024 .f32) : FVec F S400x5 .f32 :=
  Host.negf
    (transpose S400x5 [1, 0]
      (Host.divf
        (Host.reduceAdd
          (shapeCast S5x400x56
            (Host.reduce FloatOps.minimumf
              (Host.sqrt
                (maximumf
                  (subf
                    (addf
                      (broadcastInDim S5x22400x280 ![0, 1, 2] bcast_S1x22400x1_S5x22400x280_0_1_2
                        (broadcastInDim S1x22400x1 ![1] bcast_S22400_S1x22400x1_1
                          (Host.reduceAdd (mulf qe qe) (constant S_ .f32 0x00000000#32) reducesTo_S22400x1024_S22400_d1 h_S_)))
                      (broadcastInDim S5x22400x280 ![0, 1, 2] bcast_S5x1x280_S5x22400x280_0_1_2
                        (broadcastInDim S5x1x280 ![0, 2] bcast_S5x280_S5x1x280_0_2
                          (Host.reduceAdd (mulf cls cls) (constant S_ .f32 0x00000000#32) reducesTo_S5x280x1024_S5x280_d2 h_S_))))
                    (mulf
                      (broadcastInDim S5x22400x280 ![] bcast_S_S5x22400x280 (constant S_ .f32 0x40000000#32))
                      (transpose S5x22400x280 [0, 2, 1]
                        (Host.dotGeneral dot_S5x280x1024_S22400x1024_S5x280x22400_2_1_01_0_n_n none cls qe)
                        transposes_S5x280x22400_S5x22400x280_0_2_1)))
                  (broadcastInDim S5x22400x280 ![] bcast_S_S5x22400x280 (constant S_ .f32 0x00000000#32))))
              (constant S_ .f32 0x7F800000#32) reducesTo_S5x22400x280_S5x22400_d2 h_S_)
            shapeCasts_S5x22400_S5x400x56)
          (constant S_ .f32 0x00000000#32) reducesTo_S5x400x56_S5x400_d2 h_S_)
        (broadcastInDim S5x400 ![] bcast_S_S5x400 (constant S_ .f32 0x42600000#32)))
      transposes_S5x400_S400x5_1_0)

/-! ## The gather of rows -/

section Gather
variable {α : Type}

/-- The gather of whole [56, 1024] rows of the operand at a [5, 5, 1] array of start indices, read at (c, r, t, o): the
    operand's row at the start index (c, r, 0) read signed and clamped into [0, 24], at (t, o). -/
theorem gather_rows_apply (se : S25x56x1024.Idx → α) (idx : IVec S5x5x1 32) (c r : Fin 5) (t : Fin 56) (o : Fin 1024) :
    Host.gather gather_S25x56x1024_S5x5x1_S5x5x56x1024_23_0_n_n_0_2_1561024 se idx (ix4 c r t o)
      = se (ix3 ⟨min (idx (ix3 c r 0)).toInt.toNat 24, by omega⟩ t o) := by
  unfold Host.gather
  congr 1
  funext a
  apply Fin.ext
  match a with
  | ⟨0, _⟩ =>
    show gather_S25x56x1024_S5x5x1_S5x5x56x1024_23_0_n_n_0_2_1561024.start (ix4 c r t o) idx 0
      + gather_S25x56x1024_S5x5x1_S5x5x56x1024_23_0_n_n_0_2_1561024.batchCoord (ix4 c r t o) 0
      + gather_S25x56x1024_S5x5x1_S5x5x56x1024_23_0_n_n_0_2_1561024.offCoord (ix4 c r t o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S25x56x1024_S5x5x1_S5x5x56x1024_23_0_n_n_0_2_1561024.startIndexMap
      from List.mem_singleton.mpr rfl)]
    have hsi : gather_S25x56x1024_S5x5x1_S5x5x56x1024_23_0_n_n_0_2_1561024.siIdx (ix4 c r t o)
        ⟨List.idxOf (0 : Fin 3) gather_S25x56x1024_S5x5x1_S5x5x56x1024_23_0_n_n_0_2_1561024.startIndexMap,
          List.idxOf_lt_length_iff.2 (List.mem_singleton.mpr rfl)⟩ = ix3 c r 0 := by
      funext b; refine Fin.ext ?_
      match b with
      | ⟨0, _⟩ => rfl
      | ⟨1, _⟩ => rfl
      | ⟨2, _⟩ => rfl
    rw [hsi]
    rfl
  | ⟨1, _⟩ =>
    show gather_S25x56x1024_S5x5x1_S5x5x56x1024_23_0_n_n_0_2_1561024.start (ix4 c r t o) idx 1
      + gather_S25x56x1024_S5x5x1_S5x5x56x1024_23_0_n_n_0_2_1561024.batchCoord (ix4 c r t o) 1
      + gather_S25x56x1024_S5x5x1_S5x5x56x1024_23_0_n_n_0_2_1561024.offCoord (ix4 c r t o) 1 = t.val
    rw [GatherDims.batchCoord_eq_zero _ _ _ List.not_mem_nil]
    unfold GatherDims.start
    rw [dif_neg (show (1 : Fin 3) ∉ gather_S25x56x1024_S5x5x1_S5x5x56x1024_23_0_n_n_0_2_1561024.startIndexMap by decide)]
    unfold GatherDims.offCoord
    rw [dif_pos (show (1 : Fin 3) ∈ gather_S25x56x1024_S5x5x1_S5x5x56x1024_23_0_n_n_0_2_1561024.sKept by decide)]
    simp only [Nat.add_zero, Nat.zero_add]
    rfl
  | ⟨2, _⟩ =>
    show gather_S25x56x1024_S5x5x1_S5x5x56x1024_23_0_n_n_0_2_1561024.start (ix4 c r t o) idx 2
      + gather_S25x56x1024_S5x5x1_S5x5x56x1024_23_0_n_n_0_2_1561024.batchCoord (ix4 c r t o) 2
      + gather_S25x56x1024_S5x5x1_S5x5x56x1024_23_0_n_n_0_2_1561024.offCoord (ix4 c r t o) 2 = o.val
    rw [GatherDims.batchCoord_eq_zero _ _ _ List.not_mem_nil]
    unfold GatherDims.start
    rw [dif_neg (show (2 : Fin 3) ∉ gather_S25x56x1024_S5x5x1_S5x5x56x1024_23_0_n_n_0_2_1561024.startIndexMap by decide)]
    unfold GatherDims.offCoord
    rw [dif_pos (show (2 : Fin 3) ∈ gather_S25x56x1024_S5x5x1_S5x5x56x1024_23_0_n_n_0_2_1561024.sKept by decide)]
    simp only [Nat.add_zero, Nat.zero_add]
    rfl

end Gather

section GatherCor
variable {α : Type}

/-- The same with the start index's word and the clamped row named. -/
theorem gather_rows_apply_of_eq (se : S25x56x1024.Idx → α) (idx : IVec S5x5x1 32) (c r : Fin 5) (t : Fin 56) (o : Fin 1024)
    (w : BitVec 32) (hw : idx (ix3 c r 0) = w) (row : Fin 25) (hrow : row.val = min w.toInt.toNat 24) :
    Host.gather gather_S25x56x1024_S5x5x1_S5x5x56x1024_23_0_n_n_0_2_1561024 se idx (ix4 c r t o) = se (ix3 row t o) := by
  rw [gather_rows_apply]
  subst hw
  have e : (⟨min (idx (ix3 c r 0)).toInt.toNat 24, by omega⟩ : Fin 25) = row := Fin.ext hrow.symm
  rw [e]

end GatherCor

/-! ## The class rows -/

section Cls

/-- The sorted order as [5, 5], at (c, r): the word at place 5 c + r. -/
theorem ord55_apply (ord : IVec S25 32) (c r : Fin 5) :
    shapeCast S5x5 ord shapeCasts_S25_S5x5 (ix2 c r) = ord (ix1 ⟨5 * c.val + r.val, by omega⟩) := by
  refine shapeCast_apply _ _ (ix2 c r) (ix1 ⟨5 * c.val + r.val, by omega⟩) ?_
  rw [Shape.rowMajor_val_one, Shape.rowMajor_val_two]
  show 5 * c.val + r.val = c.val * 5 + r.val
  omega

/-- The start indices of the gather at (c, r, 0): the word at place 5 c + r, plus 25 if it is negative. -/
theorem wrapIdx_apply (ord : IVec S25 32) (c r : Fin 5) :
    broadcastInDim S5x5x1 ![0, 1] bcast_S5x5_S5x5x1_0_1
        (select
          (cmpi .slt (shapeCast S5x5 ord shapeCasts_S25_S5x5) (broadcastInDim S5x5 ![] bcast_S_S5x5 (constantI S_ 32 0#32)))
          (addi (shapeCast S5x5 ord shapeCasts_S25_S5x5) (broadcastInDim S5x5 ![] bcast_S_S5x5 (constantI S_ 32 25#32)))
          (shapeCast S5x5 ord shapeCasts_S25_S5x5)) (ix3 c r 0)
      = Scalar.select (IntOp.cmpi .slt (ord (ix1 ⟨5 * c.val + r.val, by omega⟩)) 0#32)
          (IntOp.addi (ord (ix1 ⟨5 * c.val + r.val, by omega⟩)) 25#32) (ord (ix1 ⟨5 * c.val + r.val, by omega⟩)) := by
  refine (broadcastInDim_apply _ _ _ (ix3 c r 0) (ix2 c r) fun a => ?_).trans ?_
  · match a with
    | ⟨0, _⟩ => rfl
    | ⟨1, _⟩ => rfl
  · show Scalar.select (IntOp.cmpi .slt (shapeCast S5x5 ord shapeCasts_S25_S5x5 (ix2 c r)) 0#32)
        (IntOp.addi (shapeCast S5x5 ord shapeCasts_S25_S5x5 (ix2 c r)) 25#32) (shapeCast S5x5 ord shapeCasts_S25_S5x5 (ix2 c r)) = _
    rw [ord55_apply]

/-- Row s = 56 r + t of class c is tuple t of the support clip whose word stands at place 5 c + r of the sorted order. -/
theorem clsStage_apply {F : FTy → Type} [FloatOps F] (se : FVec F S25x56x1024 .f32) (ord : IVec S25 32)
    (c : Fin 5) (s : Fin 280) (o : Fin 1024) :
    clsStage se ord (ix3 c s o) = se (ix3 (Cert.Spec.clsRow ord c s) (Cert.Spec.clsTup s) o) := by
  unfold clsStage
  refine (shapeCast_apply _ _ (ix3 c s o)
    (ix4 c (⟨s.val / 56, by omega⟩ : Fin 5) (⟨s.val % 56, Nat.mod_lt _ (by norm_num)⟩ : Fin 56) o) ?_).trans ?_
  · rw [Shape.rowMajor_val_four, Shape.rowMajor_val_three]
    show ((c.val * 5 + s.val / 56) * 56 + s.val % 56) * 1024 + o.val = (c.val * 280 + s.val) * 1024 + o.val
    omega
  · exact gather_rows_apply_of_eq se _ c _ _ o _ (wrapIdx_apply ord c _) (Cert.Spec.clsRow ord c s) rfl

end Cls

/-! ## The logits -/

section Out

/-- The squared norms of the query rows: the sum over the 1024 features of the squares. -/
theorem qnorm_apply (qe : FVec Ideal S22400x1024 .f32) (r : Fin 22400) :
    Host.reduceAdd (mulf qe qe) (constant S_ .f32 0x00000000#32) reducesTo_S22400x1024_S22400_d1 h_S_ (ix1 r)
      = ∑ o : Fin 1024, qe (ix2 r o) * qe (ix2 r o) := by
  have h : S22400x1024.Reduces [1] S22400 := by decide
  show Ideal.hostReduceAdd reducesTo_S22400x1024_S22400_d1 (mulf qe qe) (Ideal.ofBits .f32 0x00000000#32) (ix1 r) = _
  rw [Ideal.hostReduceAdd_single _ h, Ideal.ofBits_zero_f32, zero_add]
  refine Finset.sum_congr rfl fun k _ => ?_
  have e : h.lift (ix1 r) k = ix2 r (⟨k.val, k.isLt⟩ : Fin 1024) := by
    funext a; apply Fin.ext
    match a with
    | ⟨0, _⟩ => rfl
    | ⟨1, _⟩ => rfl
  rw [e]
  rfl

/-- The squared norms of the class rows. -/
theorem snorm_apply (cls : FVec Ideal S5x280x1024 .f32) (c : Fin 5) (s : Fin 280) :
    Host.reduceAdd (mulf cls cls) (constant S_ .f32 0x00000000#32) reducesTo_S5x280x1024_S5x280_d2 h_S_ (ix2 c s)
      = ∑ o : Fin 1024, cls (ix3 c s o) * cls (ix3 c s o) := by
  have h : S5x280x1024.Reduces [2] S5x280 := by decide
  show Ideal.hostReduceAdd reducesTo_S5x280x1024_S5x280_d2 (mulf cls cls) (Ideal.ofBits .f32 0x00000000#32) (ix2 c s) = _
  rw [Ideal.hostReduceAdd_single _ h, Ideal.ofBits_zero_f32, zero_add]
  refine Finset.sum_congr rfl fun k _ => ?_
  have e : h.lift (ix2 c s) k = ix3 c s (⟨k.val, k.isLt⟩ : Fin 1024) := by
    funext a; apply Fin.ext
    match a with
    | ⟨0, _⟩ => rfl
    | ⟨1, _⟩ => rfl
    | ⟨2, _⟩ => rfl
  rw [e]
  rfl

/-- The products of every class row with every query row: at (c, s, r) the sum over the features. -/
theorem dot_apply (cls : FVec Ideal S5x280x1024 .f32) (qe : FVec Ideal S22400x1024 .f32) (c : Fin 5) (s : Fin 280) (r : Fin 22400) :
    Host.dotGeneral dot_S5x280x1024_S22400x1024_S5x280x22400_2_1_01_0_n_n none cls qe (ix3 c s r)
      = ∑ o : Fin 1024, cls (ix3 c s o) * qe (ix2 r o) := by
  show FloatOps.dotGeneral _ none _ cls qe (ix3 c s r) = _
  rw [Ideal.dotGeneral_apply,
    ← Equiv.sum_comp (contrEquiv1 dot_S5x280x1024_S22400x1024_S5x280x22400_2_1_01_0_n_n 1024 rfl rfl).symm]
  refine Finset.sum_congr rfl fun o _ => ?_
  have c3 := contrEquiv1_symm_val dot_S5x280x1024_S22400x1024_S5x280x22400_2_1_01_0_n_n 1024 rfl rfl o
  have l3 : dot_S5x280x1024_S22400x1024_S5x280x22400_2_1_01_0_n_n.lhsIdx (ix3 c s r)
      ((contrEquiv1 _ 1024 rfl rfl).symm o) = ix3 c s o := by
    funext ax; apply Fin.ext
    match ax with
    | ⟨0, _⟩ => simp [DotDims.lhsIdx, dot_S5x280x1024_S22400x1024_S5x280x22400_2_1_01_0_n_n]; rfl
    | ⟨1, _⟩ => simp [DotDims.lhsIdx, dot_S5x280x1024_S22400x1024_S5x280x22400_2_1_01_0_n_n]; rfl
    | ⟨2, _⟩ => simp [DotDims.lhsIdx, dot_S5x280x1024_S22400x1024_S5x280x22400_2_1_01_0_n_n]; exact c3
  have r3 : dot_S5x280x1024_S22400x1024_S5x280x22400_2_1_01_0_n_n.rhsIdx (ix3 c s r)
      ((contrEquiv1 _ 1024 rfl rfl).symm o) = ix2 r o := by
    funext ax; apply Fin.ext
    match ax with
    | ⟨0, _⟩ => simp [DotDims.rhsIdx, dot_S5x280x1024_S22400x1024_S5x280x22400_2_1_01_0_n_n]; rfl
    | ⟨1, _⟩ => simp [DotDims.rhsIdx, dot_S5x280x1024_S22400x1024_S5x280x22400_2_1_01_0_n_n]; exact c3
  rw [l3, r3]

end Out

section Out2

/-- The distance matrix as the reference computes it: at (c, r, s) the distance from query row r to row s of class c. -/
def distMat (qe : FVec Ideal S22400x1024 .f32) (cls : FVec Ideal S5x280x1024 .f32) : FVec Ideal S5x22400x280 .f32 :=
  Host.sqrt
    (maximumf
      (subf
        (addf
          (broadcastInDim S5x22400x280 ![0, 1, 2] bcast_S1x22400x1_S5x22400x280_0_1_2
            (broadcastInDim S1x22400x1 ![1] bcast_S22400_S1x22400x1_1
              (Host.reduceAdd (mulf qe qe) (constant S_ .f32 0x00000000#32) reducesTo_S22400x1024_S22400_d1 h_S_)))
          (broadcastInDim S5x22400x280 ![0, 1, 2] bcast_S5x1x280_S5x22400x280_0_1_2
            (broadcastInDim S5x1x280 ![0, 2] bcast_S5x280_S5x1x280_0_2
              (Host.reduceAdd (mulf cls cls) (constant S_ .f32 0x00000000#32) reducesTo_S5x280x1024_S5x280_d2 h_S_))))
        (mulf
          (broadcastInDim S5x22400x280 ![] bcast_S_S5x22400x280 (constant S_ .f32 0x40000000#32))
          (transpose S5x22400x280 [0, 2, 1]
            (Host.dotGeneral dot_S5x280x1024_S22400x1024_S5x280x22400_2_1_01_0_n_n none cls qe)
            transposes_S5x280x22400_S5x22400x280_0_2_1)))
      (broadcastInDim S5x22400x280 ![] bcast_S_S5x22400x280 (constant S_ .f32 0x00000000#32)))

/-- The host's square root at an index. -/
theorem hostSqrt_apply {s : Shape} {φ : FTy} (x : FVec Ideal s φ) (i : s.Idx) : Host.sqrt x i = Ideal.sqrt (x i) := rfl

/-- A constant broadcast from rank 0 reads the constant everywhere. -/
theorem bcastConst_apply {t : Shape} (h : S_.BroadcastsInDim t ![]) (b : BitVec 32) (j : t.Idx) :
    broadcastInDim t ![] h (constant (F := Ideal) S_ .f32 b) j = Ideal.ofBits .f32 b := rfl

/-- The query norms broadcast over classes and class rows. -/
theorem qbc_apply (v : FVec Ideal S22400 .f32) (c : Fin 5) (r : Fin 22400) (s : Fin 280) :
    broadcastInDim S5x22400x280 ![0, 1, 2] bcast_S1x22400x1_S5x22400x280_0_1_2
      (broadcastInDim S1x22400x1 ![1] bcast_S22400_S1x22400x1_1 v) (ix3 c r s) = v (ix1 r) := by
  refine (broadcastInDim_apply _ _ _ (ix3 c r s) (ix3 (0 : Fin 1) r (0 : Fin 1)) fun a => ?_).trans ?_
  · match a with
    | ⟨0, _⟩ => rfl
    | ⟨1, _⟩ => rfl
    | ⟨2, _⟩ => rfl
  · refine broadcastInDim_apply _ _ _ (ix3 (0 : Fin 1) r (0 : Fin 1)) (ix1 r) fun a => ?_
    match a with
    | ⟨0, _⟩ => rfl

/-- The class-row norms broadcast over the query rows. -/
theorem sbc_apply (v : FVec Ideal S5x280 .f32) (c : Fin 5) (r : Fin 22400) (s : Fin 280) :
    broadcastInDim S5x22400x280 ![0, 1, 2] bcast_S5x1x280_S5x22400x280_0_1_2
      (broadcastInDim S5x1x280 ![0, 2] bcast_S5x280_S5x1x280_0_2 v) (ix3 c r s) = v (ix2 c s) := by
  refine (broadcastInDim_apply _ _ _ (ix3 c r s) (ix3 c (0 : Fin 1) s) fun a => ?_).trans ?_
  · match a with
    | ⟨0, _⟩ => rfl
    | ⟨1, _⟩ => rfl
    | ⟨2, _⟩ => rfl
  · refine broadcastInDim_apply _ _ _ (ix3 c (0 : Fin 1) s) (ix2 c s) fun a => ?_
    match a with
    | ⟨0, _⟩ => rfl
    | ⟨1, _⟩ => rfl

/-- The distance matrix at (c, r, s) is the distance between query row r and row s of class c. -/
theorem distMat_apply (qe : FVec Ideal S22400x1024 .f32) (cls : FVec Ideal S5x280x1024 .f32) (c : Fin 5) (r : Fin 22400) (s : Fin 280) :
    distMat qe cls (ix3 c r s) = Cert.Spec.dist (fun o => qe (ix2 r o)) (fun o => cls (ix3 c s o)) := by
  unfold distMat Cert.Spec.dist
  rw [hostSqrt_apply, maximumf_apply, subf_apply, addf_apply, mulf_apply, bcastConst_apply, bcastConst_apply, qbc_apply,
    sbc_apply, transpose_ix3_021_apply, qnorm_apply, snorm_apply, dot_apply, Ideal.ofBits_zero_f32]
  have hs : (∑ o : Fin 1024, cls (ix3 c s o) * qe (ix2 r o)) = ∑ o : Fin 1024, qe (ix2 r o) * cls (ix3 c s o) :=
    Finset.sum_congr rfl fun o _ => mul_comm _ _
  rw [hs]

end Out2

section Out3

/-- The least distance from query row r to a row of class c: the fold of min from +inf over the 280 rows. -/
theorem minRow_apply (D : FVec Ideal S5x22400x280 .f32) (c : Fin 5) (r : Fin 22400) :
    Host.reduce FloatOps.minimumf D (constant S_ .f32 0x7F800000#32) reducesTo_S5x22400x280_S5x22400_d2 h_S_ (ix2 c r)
      = (Finset.univ : Finset (Fin 280)).fold min (Ideal.ofBits .f32 0x7F800000#32) (fun s => D (ix3 c r s)) := by
  have h : S5x22400x280.Reduces [2] S5x22400 := by decide
  rw [Host.reduce_eq_fold_single FloatOps.minimumf D _ reducesTo_S5x22400x280_S5x22400_d2 h h_S_]
  have hf : (D ∘ h.lift (ix2 c r)) = fun s : Fin 280 => D (ix3 c r s) := funext fun k => congrArg D (by
    funext a; apply Fin.ext
    match a with
    | ⟨0, _⟩ => rfl
    | ⟨1, _⟩ => rfl
    | ⟨2, _⟩ => rfl)
  exact congrArg (fun f => Finset.fold min (Ideal.ofBits .f32 0x7F800000#32) f (Finset.univ : Finset (Fin 280))) hf

/-- The least distances as [5, 400, 56], at (c, n, t): query row 56 n + t. -/
theorem resh_apply (M : FVec Ideal S5x22400 .f32) (c : Fin 5) (n : Fin 400) (t : Fin 56) :
    shapeCast S5x400x56 M shapeCasts_S5x22400_S5x400x56 (ix3 c n t) = M (ix2 c ⟨56 * n.val + t.val, by omega⟩) := by
  refine shapeCast_apply _ _ (ix3 c n t) (ix2 c ⟨56 * n.val + t.val, by omega⟩) ?_
  rw [Shape.rowMajor_val_two, Shape.rowMajor_val_three]
  show c.val * 22400 + (56 * n.val + t.val) = (c.val * 400 + n.val) * 56 + t.val
  omega

/-- The sum over a query clip's 56 tuples. -/
theorem tsum_apply (R : FVec Ideal S5x400x56 .f32) (c : Fin 5) (n : Fin 400) :
    Host.reduceAdd R (constant S_ .f32 0x00000000#32) reducesTo_S5x400x56_S5x400_d2 h_S_ (ix2 c n)
      = ∑ t : Fin 56, R (ix3 c n t) := by
  have h : S5x400x56.Reduces [2] S5x400 := by decide
  show Ideal.hostReduceAdd reducesTo_S5x400x56_S5x400_d2 R (Ideal.ofBits .f32 0x00000000#32) (ix2 c n) = _
  rw [Ideal.hostReduceAdd_single _ h, Ideal.ofBits_zero_f32, zero_add]
  refine Finset.sum_congr rfl fun k _ => ?_
  have e : h.lift (ix2 c n) k = ix3 c n (⟨k.val, k.isLt⟩ : Fin 56) := by
    funext a; apply Fin.ext
    match a with
    | ⟨0, _⟩ => rfl
    | ⟨1, _⟩ => rfl
    | ⟨2, _⟩ => rfl
  rw [e]
  rfl

/-- The host's negation and division at an index. -/
theorem hostNegf_apply {s : Shape} {φ : FTy} (x : FVec Ideal s φ) (i : s.Idx) : Host.negf x i = -(x i) := rfl
theorem hostDivf_apply {s : Shape} {φ : FTy} (x y : FVec Ideal s φ) (i : s.Idx) : Host.divf x y i = Ideal.div (x i) (y i) := rfl

/-- The least distance from tuple t of query clip n to a row of class c. -/
theorem minDist_apply (qe : FVec Ideal S22400x1024 .f32) (cls : FVec Ideal S5x280x1024 .f32) (c : Fin 5) (n : Fin 400) (t : Fin 56) :
    shapeCast S5x400x56
        (Host.reduce FloatOps.minimumf (distMat qe cls) (constant S_ .f32 0x7F800000#32) reducesTo_S5x22400x280_S5x22400_d2 h_S_)
        shapeCasts_S5x22400_S5x400x56 (ix3 c n t)
      = (Finset.univ : Finset (Fin 280)).fold min (Ideal.ofBits .f32 0x7F800000#32)
          (fun s => Cert.Spec.dist (fun o => qe (ix2 ⟨56 * n.val + t.val, by omega⟩ o)) (fun o => cls (ix3 c s o))) := by
  rw [resh_apply, minRow_apply]
  exact congrArg (fun f => Finset.fold min (Ideal.ofBits .f32 0x7F800000#32) f (Finset.univ : Finset (Fin 280)))
    (funext fun s => distMat_apply qe cls c _ s)

/-- The logit of query clip n for class c: minus the mean over the clip's 56 tuples of the least distance to a class row. -/
theorem outStage_apply (qe : FVec Ideal S22400x1024 .f32) (cls : FVec Ideal S5x280x1024 .f32) (n : Fin 400) (c : Fin 5) :
    outStage (F := Ideal) qe cls (ix2 n c)
      = Cert.Spec.logit (fun n t o => qe (ix2 ⟨56 * n.val + t.val, by omega⟩ o)) (fun c s o => cls (ix3 c s o)) n c := by
  unfold outStage Cert.Spec.logit
  rw [hostNegf_apply, transpose_ix2_apply, hostDivf_apply, bcastConst_apply, tsum_apply]
  exact congrArg (fun x => -(Ideal.div x (Ideal.ofBits .f32 0x42600000#32)))
    (Finset.sum_congr rfl fun t _ => minDist_apply qe cls c n t)

end Out3

end Cert.ReferenceIdeal.RefValue

end
-- ==== Proof.RefResult.lean ====
/-
  The reference's result as one function of the five argument arrays: the logits stage over the query embeddings and the
  class rows, the class rows taken from the support embeddings at the labels' stable sorted order.
  Read at (n, c) it is the specification's result: the logits stage read at an index is the specification's logit of the
  query rows and the class rows read at theirs; the query rows are the specification's embedding of the query clips; the
  class rows are rows of the support stage, which are the specification's embedding of the support clips.
-/
import proofs.«102215_j23794118820340_1_alg».proof.Proof.RefEmbed
import proofs.«102215_j23794118820340_1_alg».proof.Proof.RefDist

noncomputable section

namespace Cert.ReferenceIdeal.RefValue

open Cert.ReferenceIdeal Idealize.ShloMosaic Idealize.ShloMosaic.ValueIdx

/-- The result array of the reference from its five arguments: the stages composed. -/
def refOut (a0 : FVec Ideal S25x8x2048 .f32) (a1 : IVec S25 32) (a2 : FVec Ideal S400x8x2048 .f32)
    (a3 : FVec Ideal S1024x6144 .f32) (a4 : FVec Ideal S1024 .f32) : FVec Ideal S400x5 .f32 :=
  outStage (qeStage a2 a3 a4) (clsStage (seStage a0 a3 a4) (ordStage a1))

/-- The result read at (n, c) is the specification's: the logits stage at an index is the specification's logit over
    the query rows and the class rows at theirs; each query row is the specification's embedding of its clip and tuple;
    each class row is the row of the support stage the sorted order names, the specification's embedding of that clip. -/
theorem refOut_apply (a0 : FVec Ideal S25x8x2048 .f32) (a1 : IVec S25 32) (a2 : FVec Ideal S400x8x2048 .f32)
    (a3 : FVec Ideal S1024x6144 .f32) (a4 : FVec Ideal S1024 .f32) (n : Fin 400) (k : Fin 5) :
    refOut a0 a1 a2 a3 a4 (ix2 n k) = Cert.Spec.result a0 (ordStage a1) a2 a3 a4 n k := by
  unfold refOut Cert.Spec.result
  rw [outStage_apply]
  simp only [qeStage_apply, clsStage_apply, seStage_apply]

end Cert.ReferenceIdeal.RefValue

end
-- ==== Proof.RefRun.lean ====
/-
  The reference program's run, read back: @main is a straight line of 85 host operations (the three module-local
  functions it calls — the two rectifiers and the stable argsort — unfolded at their call sites over the calls' own
  buffers), so from any memory with zero counters every weakly fair execution terminates, each buffer at the
  operations' fold over the launch contents. The result buffer's fold is the composition of the stages
  (query embeddings, support embeddings, sorted order, class rows, logits) of the five arguments; the arguments'
  buffers are written by no operation and end unchanged.
-/
import proofs.«102215_j23794118820340_1_alg».proof.Proof.Gen.ReferenceIdeal
import proofs.«102215_j23794118820340_1_alg».proof.Proof.RefResult
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 85 operations, in order, the calls unfolded: the rectifier of the query rows is three (the zero, its
    broadcast, the maximum) into the first call's buffers, the rectifier of the support rows three into the second's,
    the argsort three into the third's (the iota, then one line per result of the two-operand stable sort). -/
abbrev ops : List (HloOp τ sig (Elt F)) :=
  [ nullary main_c (fun i => lit0 (S56x3.rowMajor i)),
    nullary main_c_0 (constantI S_ 32 0#32),
    unary main_c_0 main_v0 (broadcastInDim S56x3 ![] bcast_S_S56x3 : (⟨S_, .i32⟩ : BufTy).Contents (Elt F) → (⟨S56x3, .i32⟩ : BufTy).Contents (Elt F)),
    binary main_c main_v0 main_v1 (cmpi .slt : (⟨S56x3, .i32⟩ : BufTy).Contents (Elt F) → (⟨S56x3, .i32⟩ : BufTy).Contents (Elt F) → (⟨S56x3, .i1⟩ : BufTy).Contents (Elt F)),
    nullary main_c_1 (constantI S_ 32 8#32),
    unary main_c_1 main_v2 (broadcastInDim S56x3 ![] bcast_S_S56x3 : (⟨S_, .i32⟩ : BufTy).Contents (Elt F) → (⟨S56x3, .i32⟩ : BufTy).Contents (Elt F)),
    binary main_c main_v2 main_v3 (addi : (⟨S56x3, .i32⟩ : BufTy).Contents (Elt F) → (⟨S56x3, .i32⟩ : BufTy).Contents (Elt F) → (⟨S56x3, .i32⟩ : BufTy).Contents (Elt F)),
    ternary main_v1 main_v3 main_c main_v4 (select : (⟨S56x3, .i1⟩ : BufTy).Contents (Elt F) → (⟨S56x3, .i32⟩ : BufTy).Contents (Elt F) → (⟨S56x3, .i32⟩ : BufTy).Contents (Elt F) → (⟨S56x3, .i32⟩ : BufTy).Contents (Elt F)),
    unary main_v4 main_v5 (broadcastInDim S56x3x1 ![0, 1] bcast_S56x3_S56x3x1_0_1 : (⟨S56x3, .i32⟩ : BufTy).Contents (Elt F) → (⟨S56x3x1, .i32⟩ : BufTy).Contents (Elt F)),
    binary main_arg0 main_v5 main_v6 ((fun x i => Host.gather gather_S25x8x2048_S56x3x1_S25x56x3x2048_03_1_n_n_1_2_2512048 x i) : (⟨S25x8x2048, .f32⟩ : BufTy).Contents (Elt F) → (⟨S56x3x1, .i32⟩ : BufTy).Contents (Elt F) → (⟨S25x56x3x2048, .f32⟩ : BufTy).Contents (Elt F)),
    reshape main_v6 main_v7 rfl shapeCasts_S25x56x3x2048_S25x56x6144,
    nullary main_c_2 (constantI S_ 32 0#32),
    unary main_c_2 main_v8 (broadcastInDim S56x3 ![] bcast_S_S56x3 : (⟨S_, .i32⟩ : BufTy).Contents (Elt F) → (⟨S56x3, .i32⟩ : BufTy).Contents (Elt F)),
    binary main_c main_v8 main_v9 (cmpi .slt : (⟨S56x3, .i32⟩ : BufTy).Contents (Elt F) → (⟨S56x3, .i32⟩ : BufTy).Contents (Elt F) → (⟨S56x3, .i1⟩ : BufTy).Contents (Elt F)),
    nullary main_c_3 (constantI S_ 32 8#32),
    unary main_c_3 main_v10 (broadcastInDim S56x3 ![] bcast_S_S56x3 : (⟨S_, .i32⟩ : BufTy).Contents (Elt F) → (⟨S56x3, .i32⟩ : BufTy).Contents (Elt F)),
    binary main_c main_v10 main_v11 (addi : (⟨S56x3, .i32⟩ : BufTy).Contents (Elt F) → (⟨S56x3, .i32⟩ : BufTy).Contents (Elt F) → (⟨S56x3, .i32⟩ : BufTy).Contents (Elt F)),
    ternary main_v9 main_v11 main_c main_v12 (select : (⟨S56x3, .i1⟩ : BufTy).Contents (Elt F) → (⟨S56x3, .i32⟩ : BufTy).Contents (Elt F) → (⟨S56x3, .i32⟩ : BufTy).Contents (Elt F) → (⟨S56x3, .i32⟩ : BufTy).Contents (Elt F)),
    unary main_v12 main_v13 (broadcastInDim S56x3x1 ![0, 1] bcast_S56x3_S56x3x1_0_1 : (⟨S56x3, .i32⟩ : BufTy).Contents (Elt F) → (⟨S56x3x1, .i32⟩ : BufTy).Contents (Elt F)),
    binary main_arg2 main_v13 main_v14 ((fun x i => Host.gather gather_S400x8x2048_S56x3x1_S400x56x3x2048_03_1_n_n_1_2_40012048 x i) : (⟨S400x8x2048, .f32⟩ : BufTy).Contents (Elt F) → (⟨S56x3x1, .i32⟩ : BufTy).Contents (Elt F) → (⟨S400x56x3x2048, .f32⟩ : BufTy).Contents (Elt F)),
    reshape main_v14 main_v15 rfl shapeCasts_S400x56x3x2048_S400x56x6144,
    reshape main_v15 main_v16 rfl shapeCasts_S400x56x6144_S22400x6144,
    unary main_arg3 main_v17 ((transpose S6144x1024 [1, 0] · transposes_S1024x6144_S6144x1024_1_0) : (⟨S1024x6144, .f32⟩ : BufTy).Contents (Elt F) → (⟨S6144x1024, .f32⟩ : BufTy).Contents (Elt F)),
    binary main_v16 main_v17 main_v18 ((fun l r => Host.dotGeneral dot_S22400x6144_S6144x1024_S22400x1024_1_0_0_1_n_n none l r) : (⟨S22400x6144, .f32⟩ : BufTy).Contents (Elt F) → (⟨S6144x1024, .f32⟩ : BufTy).Contents (Elt F) → (⟨S22400x1024, .f32⟩ : BufTy).Contents (Elt F)),
    unary main_arg4 main_v19 (broadcastInDim S1x1024 ![1] bcast_S1024_S1x1024_1 : (⟨S1024, .f32⟩ : BufTy).Contents (Elt F) → (⟨S1x1024, .f32⟩ : BufTy).Contents (Elt F)),
    unary main_v19 main_v20 (broadcastInDim S22400x1024 ![0, 1] bcast_S1x1024_S22400x1024_0_1 : (⟨S1x1024, .f32⟩ : BufTy).Contents (Elt F) → (⟨S22400x1024, .f32⟩ : BufTy).Contents (Elt F)),
    binary main_v18 main_v20 main_v21 (addf : (⟨S22400x1024, .f32⟩ : BufTy).Contents (Elt F) → (⟨S22400x1024, .f32⟩ : BufTy).Contents (Elt F) → (⟨S22400x1024, .f32⟩ : BufTy).Contents (Elt F)),
    TRef.nullary main_call0.cst (constant S_ .f32 0x00000000#32),
    TRef.unary main_call0.cst main_call0.v0 (broadcastInDim S22400x1024 ![] bcast_S_S22400x1024),
    TRef.binary (.of main_v21 : TRef sig ⟨S22400x1024, .f32⟩) main_call0.v0 main_call0.v1 maximumf,
    reshape main_v7 main_v23 rfl shapeCasts_S25x56x6144_S1400x6144,
    unary main_arg3 main_v24 ((transpose S6144x1024 [1, 0] · transposes_S1024x6144_S6144x1024_1_0) : (⟨S1024x6144, .f32⟩ : BufTy).Contents (Elt F) → (⟨S6144x1024, .f32⟩ : BufTy).Contents (Elt F)),
    binary main_v23 main_v24 main_v25 ((fun l r => Host.dotGeneral dot_S1400x6144_S6144x1024_S1400x1024_1_0_0_1_n_n none l r) : (⟨S1400x6144, .f32⟩ : BufTy).Contents (Elt F) → (⟨S6144x1024, .f32⟩ : BufTy).Contents (Elt F) → (⟨S1400x1024, .f32⟩ : BufTy).Contents (Elt F)),
    unary main_arg4 main_v26 (broadcastInDim S1x1024 ![1] bcast_S1024_S1x1024_1 : (⟨S1024, .f32⟩ : BufTy).Contents (Elt F) → (⟨S1x1024, .f32⟩ : BufTy).Contents (Elt F)),
    unary main_v26 main_v27 (broadcastInDim S1400x1024 ![0, 1] bcast_S1x1024_S1400x1024_0_1 : (⟨S1x1024, .f32⟩ : BufTy).Contents (Elt F) → (⟨S1400x1024, .f32⟩ : BufTy).Contents (Elt F)),
    binary main_v25 main_v27 main_v28 (addf : (⟨S1400x1024, .f32⟩ : BufTy).Contents (Elt F) → (⟨S1400x1024, .f32⟩ : BufTy).Contents (Elt F) → (⟨S1400x1024, .f32⟩ : BufTy).Contents (Elt F)),
    TRef.nullary main_call1.cst (constant S_ .f32 0x00000000#32),
    TRef.unary main_call1.cst main_call1.v0 (broadcastInDim S1400x1024 ![] bcast_S_S1400x1024),
    TRef.binary (.of main_v28 : TRef sig ⟨S1400x1024, .f32⟩) main_call1.v0 main_call1.v1 maximumf,
    reshape main_v29 main_v30 rfl shapeCasts_S1400x1024_S25x56x1024,
    TRef.nullary main_call2.v0 (iotaInDim S25 32 0),
    TRef.binary (.of main_arg1 : TRef sig ⟨S25, .i32⟩) main_call2.v0 main_call2.v1_0 (fun x y => (Host.sort2 S25 0 comparator_i32_i32_d0 x y).1),
    TRef.binary (.of main_arg1 : TRef sig ⟨S25, .i32⟩) main_call2.v0 main_call2.v1_1 (fun x y => (Host.sort2 S25 0 comparator_i32_i32_d0 x y).2),
    reshape main_v31 main_v32 rfl shapeCasts_S25_S5x5,
    nullary main_c_4 (constantI S_ 32 0#32),
    unary main_c_4 main_v33 (broadcastInDim S5x5 ![] bcast_S_S5x5 : (⟨S_, .i32⟩ : BufTy).Contents (Elt F) → (⟨S5x5, .i32⟩ : BufTy).Contents (Elt F)),
    binary main_v32 main_v33 main_v34 (cmpi .slt : (⟨S5x5, .i32⟩ : BufTy).Contents (Elt F) → (⟨S5x5, .i32⟩ : BufTy).Contents (Elt F) → (⟨S5x5, .i1⟩ : BufTy).Contents (Elt F)),
    nullary main_c_5 (constantI S_ 32 25#32),
    unary main_c_5 main_v35 (broadcastInDim S5x5 ![] bcast_S_S5x5 : (⟨S_, .i32⟩ : BufTy).Contents (Elt F) → (⟨S5x5, .i32⟩ : BufTy).Contents (Elt F)),
    binary main_v32 main_v35 main_v36 (addi : (⟨S5x5, .i32⟩ : BufTy).Contents (Elt F) → (⟨S5x5, .i32⟩ : BufTy).Contents (Elt F) → (⟨S5x5, .i32⟩ : BufTy).Contents (Elt F)),
    ternary main_v34 main_v36 main_v32 main_v37 (select : (⟨S5x5, .i1⟩ : BufTy).Contents (Elt F) → (⟨S5x5, .i32⟩ : BufTy).Contents (Elt F) → (⟨S5x5, .i32⟩ : BufTy).Contents (Elt F) → (⟨S5x5, .i32⟩ : BufTy).Contents (Elt F)),
    unary main_v37 main_v38 (broadcastInDim S5x5x1 ![0, 1] bcast_S5x5_S5x5x1_0_1 : (⟨S5x5, .i32⟩ : BufTy).Contents (Elt F) → (⟨S5x5x1, .i32⟩ : BufTy).Contents (Elt F)),
    binary main_v30 main_v38 main_v39 ((fun x i => Host.gather gather_S25x56x1024_S5x5x1_S5x5x56x1024_23_0_n_n_0_2_1561024 x i) : (⟨S25x56x1024, .f32⟩ : BufTy).Contents (Elt F) → (⟨S5x5x1, .i32⟩ : BufTy).Contents (Elt F) → (⟨S5x5x56x1024, .f32⟩ : BufTy).Contents (Elt F)),
    reshape main_v39 main_v40 rfl shapeCasts_S5x5x56x1024_S5x280x1024,
    binary main_v22 main_v22 main_v41 (mulf : (⟨S22400x1024, .f32⟩ : BufTy).Contents (Elt F) → (⟨S22400x1024, .f32⟩ : BufTy).Contents (Elt F) → (⟨S22400x1024, .f32⟩ : BufTy).Contents (Elt F)),
    nullary main_cst (constant S_ .f32 0x00000000#32),
    binary main_v41 main_cst main_v42 ((fun x v => Host.reduceAdd x v reducesTo_S22400x1024_S22400_d1 h_S_) : (⟨S22400x1024, .f32⟩ : BufTy).Contents (Elt F) → (⟨S_, .f32⟩ : BufTy).Contents (Elt F) → (⟨S22400, .f32⟩ : BufTy).Contents (Elt F)),
    binary main_v40 main_v40 main_v43 (mulf : (⟨S5x280x1024, .f32⟩ : BufTy).Contents (Elt F) → (⟨S5x280x1024, .f32⟩ : BufTy).Contents (Elt F) → (⟨S5x280x1024, .f32⟩ : BufTy).Contents (Elt F)),
    nullary main_cst_6 (constant S_ .f32 0x00000000#32),
    binary main_v43 main_cst_6 main_v44 ((fun x v => Host.reduceAdd x v reducesTo_S5x280x1024_S5x280_d2 h_S_) : (⟨S5x280x1024, .f32⟩ : BufTy).Contents (Elt F) → (⟨S_, .f32⟩ : BufTy).Contents (Elt F) → (⟨S5x280, .f32⟩ : BufTy).Contents (Elt F)),
    binary main_v40 main_v22 main_v45 ((fun l r => Host.dotGeneral dot_S5x280x1024_S22400x1024_S5x280x22400_2_1_01_0_n_n none l r) : (⟨S5x280x1024, .f32⟩ : BufTy).Contents (Elt F) → (⟨S22400x1024, .f32⟩ : BufTy).Contents (Elt F) → (⟨S5x280x22400, .f32⟩ : BufTy).Contents (Elt F)),
    unary main_v45 main_v46 ((transpose S5x22400x280 [0, 2, 1] · transposes_S5x280x22400_S5x22400x280_0_2_1) : (⟨S5x280x22400, .f32⟩ : BufTy).Contents (Elt F) → (⟨S5x22400x280, .f32⟩ : BufTy).Contents (Elt F)),
    unary main_v42 main_v47 (broadcastInDim S1x22400x1 ![1] bcast_S22400_S1x22400x1_1 : (⟨S22400, .f32⟩ : BufTy).Contents (Elt F) → (⟨S1x22400x1, .f32⟩ : BufTy).Contents (Elt F)),
    unary main_v44 main_v48 (broadcastInDim S5x1x280 ![0, 2] bcast_S5x280_S5x1x280_0_2 : (⟨S5x280, .f32⟩ : BufTy).Contents (Elt F) → (⟨S5x1x280, .f32⟩ : BufTy).Contents (Elt F)),
    unary main_v47 main_v49 (broadcastInDim S5x22400x280 ![0, 1, 2] bcast_S1x22400x1_S5x22400x280_0_1_2 : (⟨S1x22400x1, .f32⟩ : BufTy).Contents (Elt F) → (⟨S5x22400x280, .f32⟩ : BufTy).Contents (Elt F)),
    unary main_v48 main_v50 (broadcastInDim S5x22400x280 ![0, 1, 2] bcast_S5x1x280_S5x22400x280_0_1_2 : (⟨S5x1x280, .f32⟩ : BufTy).Contents (Elt F) → (⟨S5x22400x280, .f32⟩ : BufTy).Contents (Elt F)),
    binary main_v49 main_v50 main_v51 (addf : (⟨S5x22400x280, .f32⟩ : BufTy).Contents (Elt F) → (⟨S5x22400x280, .f32⟩ : BufTy).Contents (Elt F) → (⟨S5x22400x280, .f32⟩ : BufTy).Contents (Elt F)),
    nullary main_cst_7 (constant S_ .f32 0x40000000#32),
    unary main_cst_7 main_v52 (broadcastInDim S5x22400x280 ![] bcast_S_S5x22400x280 : (⟨S_, .f32⟩ : BufTy).Contents (Elt F) → (⟨S5x22400x280, .f32⟩ : BufTy).Contents (Elt F)),
    binary main_v52 main_v46 main_v53 (mulf : (⟨S5x22400x280, .f32⟩ : BufTy).Contents (Elt F) → (⟨S5x22400x280, .f32⟩ : BufTy).Contents (Elt F) → (⟨S5x22400x280, .f32⟩ : BufTy).Contents (Elt F)),
    binary main_v51 main_v53 main_v54 (subf : (⟨S5x22400x280, .f32⟩ : BufTy).Contents (Elt F) → (⟨S5x22400x280, .f32⟩ : BufTy).Contents (Elt F) → (⟨S5x22400x280, .f32⟩ : BufTy).Contents (Elt F)),
    nullary main_cst_8 (constant S_ .f32 0x00000000#32),
    unary main_cst_8 main_v55 (broadcastInDim S5x22400x280 ![] bcast_S_S5x22400x280 : (⟨S_, .f32⟩ : BufTy).Contents (Elt F) → (⟨S5x22400x280, .f32⟩ : BufTy).Contents (Elt F)),
    binary main_v54 main_v55 main_v56 (maximumf : (⟨S5x22400x280, .f32⟩ : BufTy).Contents (Elt F) → (⟨S5x22400x280, .f32⟩ : BufTy).Contents (Elt F) → (⟨S5x22400x280, .f32⟩ : BufTy).Contents (Elt F)),
    unary main_v56 main_v57 (Host.sqrt : (⟨S5x22400x280, .f32⟩ : BufTy).Contents (Elt F) → (⟨S5x22400x280, .f32⟩ : BufTy).Contents (Elt F)),
    nullary main_cst_9 (constant S_ .f32 0x7F800000#32),
    binary main_v57 main_cst_9 main_v58 ((fun x v => Host.reduce FloatOps.minimumf x v reducesTo_S5x22400x280_S5x22400_d2 h_S_) : (⟨S5x22400x280, .f32⟩ : BufTy).Contents (Elt F) → (⟨S_, .f32⟩ : BufTy).Contents (Elt F) → (⟨S5x22400, .f32⟩ : BufTy).Contents (Elt F)),
    reshape main_v58 main_v59 rfl shapeCasts_S5x22400_S5x400x56,
    nullary main_cst_10 (constant S_ .f32 0x00000000#32),
    binary main_v59 main_cst_10 main_v60 ((fun x v => Host.reduceAdd x v reducesTo_S5x400x56_S5x400_d2 h_S_) : (⟨S5x400x56, .f32⟩ : BufTy).Contents (Elt F) → (⟨S_, .f32⟩ : BufTy).Contents (Elt F) → (⟨S5x400, .f32⟩ : BufTy).Contents (Elt F)),
    nullary main_cst_11 (constant S_ .f32 0x42600000#32),
    unary main_cst_11 main_v61 (broadcastInDim S5x400 ![] bcast_S_S5x400 : (⟨S_, .f32⟩ : BufTy).Contents (Elt F) → (⟨S5x400, .f32⟩ : BufTy).Contents (Elt F)),
    binary main_v60 main_v61 main_v62 (Host.divf : (⟨S5x400, .f32⟩ : BufTy).Contents (Elt F) → (⟨S5x400, .f32⟩ : BufTy).Contents (Elt F) → (⟨S5x400, .f32⟩ : BufTy).Contents (Elt F)),
    unary main_v62 main_v63 ((transpose S400x5 [1, 0] · transposes_S5x400_S400x5_1_0) : (⟨S5x400, .f32⟩ : BufTy).Contents (Elt F) → (⟨S400x5, .f32⟩ : BufTy).Contents (Elt F)),
    unary main_v63 main_v64 (Host.negf : (⟨S400x5, .f32⟩ : BufTy).Contents (Elt F) → (⟨S400x5, .f32⟩ : BufTy).Contents (Elt F)) ]

-- eighty-five binds re-associated: the rewrite under the chain recurses once per statement
set_option maxRecDepth 8192 in
set_option maxHeartbeats 4000000 in
/-- @main is that straight line: the two windows and the functions' definitions unfolded at their calls, both sides
    are one chain of steps once sequencing is reassociated. -/
theorem main_eq (c : Dev nD) : main (F := F) c = seq ops := by
  simp only [main, main_part0, main_part1, fn_relu.body, fn_relu_0.body, fn_argsort.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub .., reshape_bufs_sub .., unary_bufs_sub .., binary_bufs_sub ..,
    unary_bufs_sub .., unary_bufs_sub .., binary_bufs_sub .., nullary_bufs_sub .., unary_bufs_sub .., binary_bufs_sub ..,
    reshape_bufs_sub .., unary_bufs_sub .., binary_bufs_sub .., unary_bufs_sub .., unary_bufs_sub .., binary_bufs_sub ..,
    nullary_bufs_sub .., unary_bufs_sub .., binary_bufs_sub .., reshape_bufs_sub .., nullary_bufs_sub .., binary_bufs_sub ..,
    binary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., reshape_bufs_sub ..,
    binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., unary_bufs_sub .., nullary_bufs_sub .., binary_bufs_sub .., reshape_bufs_sub ..,
    nullary_bufs_sub .., binary_bufs_sub .., nullary_bufs_sub .., unary_bufs_sub .., binary_bufs_sub .., unary_bufs_sub ..,
    unary_bufs_sub ..⟩

/-- From any memory with zero counters: every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.reduce Host.reduceAdd Host.sort2 shapeCast broadcastInDim transpose in
set_option maxRecDepth 16384 in
set_option maxHeartbeats 8000000 in
/-- The fold at the result buffer is the stages' composition of the arguments' contents: each operation's result at
    its own buffer is its function's value and at any other what was there, and what is left is the stages' bodies,
    which are those terms (the gathers, products, reductions and the sort kept folded: the equation never looks inside). -/
theorem out_eq (V : Valuation τ sig (Elt F)) :
    after ops V (main_v64 : DevRef τ sig)
      = outStage (qeStage (V (main_arg2 : DevRef τ sig)) (V (main_arg3 : DevRef τ sig)) (V (main_arg4 : DevRef τ sig)))
          (clsStage (seStage (V (main_arg0 : DevRef τ sig)) (V (main_arg3 : DevRef τ sig)) (V (main_arg4 : DevRef τ sig))) (ordStage (V (main_arg1 : DevRef τ sig)))) := by
  after_results_simp
  rfl

set_option maxRecDepth 16384 in
set_option maxHeartbeats 8000000 in
/-- No operation writes argument 0's buffer. -/
theorem arg0_eq (V : Valuation τ sig (Elt F)) : after ops V (main_arg0 : DevRef τ sig) = (V (main_arg0 : DevRef τ sig)) := by
  after_results_simp

set_option maxRecDepth 16384 in
set_option maxHeartbeats 8000000 in
/-- No operation writes argument 1's buffer. -/
theorem arg1_eq (V : Valuation τ sig (Elt F)) : after ops V (main_arg1 : DevRef τ sig) = (V (main_arg1 : DevRef τ sig)) := by
  after_results_simp

set_option maxRecDepth 16384 in
set_option maxHeartbeats 8000000 in
/-- No operation writes argument 2's buffer. -/
theorem arg2_eq (V : Valuation τ sig (Elt F)) : after ops V (main_arg2 : DevRef τ sig) = (V (main_arg2 : DevRef τ sig)) := by
  after_results_simp

set_option maxRecDepth 16384 in
set_option maxHeartbeats 8000000 in
/-- No operation writes argument 3's buffer. -/
theorem arg3_eq (V : Valuation τ sig (Elt F)) : after ops V (main_arg3 : DevRef τ sig) = (V (main_arg3 : DevRef τ sig)) := by
  after_results_simp

set_option maxRecDepth 16384 in
set_option maxHeartbeats 8000000 in
/-- No operation writes argument 4's buffer. -/
theorem arg4_eq (V : Valuation τ sig (Elt F)) : after ops V (main_arg4 : DevRef τ sig) = (V (main_arg4 : DevRef τ sig)) := by
  after_results_simp

/-- On every device, at the extended reals, from any memory with zero counters: every weakly fair execution of @main
    terminates with the result buffer at the stages' composition of the arguments' launch contents, and the five
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v64) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v64).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.RefValue

end
-- ==== Proof.lean ====
/-
  The certificate: both printed programs compute, index by index on the extended reals, the function Cert.Spec.result of
  the five argument arrays — minus the mean, over a query clip's 56 frame triples, of the distance from the triple's
  rectified linear embedding to the nearest embedding of the class's 280 support triples, the classes formed by the
  stable sort of the labels.
  The kernel program runs three pipelined regions among host stretches: its run (termination, no fault, every argument
  unchanged, the boundary contents named) is Proof/ThreeRegions.lean, at any float instance, from the three regions'
  one-point halves (Proof/EmbedQRegion.lean, EmbedSRegion.lean, DistRegion.lean); the word-level program's is the same
  text in its own namespace. The kernel's result is read off that run in Proof/KernelValue.lean (blocks to arrays in
  EmbedArray / EmbedArrayS / DistArray over the one-point values of EmbedBlock / EmbedBlockS / DistBlock; the host
  stretches in KernelHost). The reference is a host program: its run is Proof/RefRun.lean and its stages read at an
  index Proof/RefEmbed.lean, RefDist.lean, RefResult.lean.
  The two meet because W's 6144 columns are three blocks of 2048: the product of W with a triple's three frames laid
  end to end is the sum of the three per-position products (a finite sum regrouped; no finiteness of the inputs is
  needed), and the sorted order of the labels is one term in both programs.
-/
import proofs.«102215_j23794118820340_1_alg».proof.Defs
import proofs.«102215_j23794118820340_1_alg».proof.Proof.Gen.Kernel
import proofs.«102215_j23794118820340_1_alg».proof.Proof.Gen.KernelIdeal
import proofs.«102215_j23794118820340_1_alg».proof.Proof.Gen.ReferenceIdeal
import proofs.«102215_j23794118820340_1_alg».proof.Proof.Gen.Pre_finite_inputs
import proofs.«102215_j23794118820340_1_alg».proof.Proof.ThreeRegionsBits
import proofs.«102215_j23794118820340_1_alg».proof.Proof.KernelValue
import proofs.«102215_j23794118820340_1_alg».proof.Proof.RefRun
import Idealize.ShloMosaic.Adequacy
import Idealize.ShloMosaic.Init

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.RefValue.run m ρ)

/-- The sorted order of the labels is the same term in the two programs. -/
theorem ord_eq (a1 : IVec Cert.KernelIdeal.S25 32) :
    Cert.KernelIdeal.Val.kord a1 = Cert.ReferenceIdeal.RefValue.ordStage a1 := rfl

theorem algebraic : Cert.algebraic_KernelIdeal_ReferenceIdeal := by
  intro m ρ m' ρ' _ hagree
  refine ⟨_, Cert.KernelIdeal.Val.kernel_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  funext j
  rw [eq_ix2 j]
  exact (Cert.ReferenceIdeal.RefValue.refOut_apply _ _ _ _ _ (j 0) (j 1)).trans (by rw [← ord_eq])

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
